-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S16384 : Shape := ⟨1, ![16384]⟩
abbrev S256x1024 : Shape := ⟨2, ![256, 1024]⟩
abbrev S256 : Shape := ⟨1, ![256]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg1 : IVec S16384 32) (main_arg5 : FVec F S256 .f32) (main_v13 : IVec S_ 1) (main_v16 : IVec S256x1024 1) : IVec S_ 1 :=
  let main_c_5 : IVec S_ 1 := constantI S_ 1 1#1
  let main_v17 : IVec S_ 1 := (fun x v => Host.reduce IntOp.andi x v reducesTo_S256x1024_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_c_8 : IVec S_ 32 := constantI S_ 32 0#32
  let main_v24 : IVec S16384 32 := broadcastInDim S16384 ![] bcast_S_S16384 main_c_8
  let main_v25 : IVec S16384 1 := cmpi .sge main_arg1 main_v24
  let main_c_9 : IVec S_ 32 := constantI S_ 32 1000#32
  let main_v26 : IVec S16384 32 := broadcastInDim S16384 ![] bcast_S_S16384 main_c_9
  let main_v27 : IVec S16384 1 := cmpi .slt main_arg1 main_v26
  let main_v28 : IVec S16384 1 := andi main_v25 main_v27
  let main_c_10 : IVec S_ 1 := constantI S_ 1 1#1
  let main_v29 : IVec S_ 1 := (fun x v => Host.reduce IntOp.andi x v reducesTo_S16384_S_d0 h_S_) main_v28 main_c_10
  let main_v30 : IVec S_ 1 := andi main_v23 main_v29
  main_v30

def fn {F : FTy → Type} [FloatOps F] (main_arg0 : FVec F S16384x1024 .f32) (main_arg1 : IVec S16384 32) (main_arg2 : FVec F S256x1024 .f32) (main_arg3 : FVec F S256 .f32) (main_arg4 : FVec F S256x1024 .f32) (main_arg5 : FVec F S256 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S256x1024 .f32 := Host.absf main_arg2
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x1024 .f32 := Host.absf main_arg4
  let main_cst_4 : FVec F S_ .f32 := constant S_ .f32 0x7F800000#32
  let main_v15 : FVec F S256x1024 .f32 := broadcastInDim S256x1024 ![] bcast_S_S256x1024 main_cst_4
  let main_v16 : IVec S256x1024 1 := cmpf .olt main_v14 main_v15
  fn_part1 (F := F) main_arg1 main_arg5 main_v13 main_v16
-- ==== Kernel.lean ====
abbrev S16384x1024 : Shape := ⟨2, ![16384, 1024]⟩
abbrev S16384 : Shape := ⟨1, ![16384]⟩
abbrev S256x1024 : Shape := ⟨2, ![256, 1024]⟩
abbrev S256 : Shape := ⟨1, ![256]⟩
abbrev S16384x1 : Shape := ⟨2, ![16384, 1]⟩
abbrev S1x256 : Shape := ⟨2, ![1, 256]⟩
abbrev S2x1x1024 : Shape := ⟨3, ![2, 1, 1024]⟩
abbrev S2x1024x1024 : Shape := ⟨3, ![2, 1024, 1024]⟩
abbrev S16384x256 : Shape := ⟨2, ![16384, 256]⟩
abbrev S1024x1024 : Shape := ⟨2, ![1024, 1024]⟩
abbrev S1024x1 : Shape := ⟨2, ![1024, 1]⟩
abbrev S1x1x1024 : Shape := ⟨3, ![1, 1, 1024]⟩
abbrev S1x1024x1024 : Shape := ⟨3, ![1, 1024, 1024]⟩
abbrev S1024x256 : Shape := ⟨2, ![1024, 256]⟩
abbrev S1x1024 : Shape := ⟨2, ![1, 1024]⟩
abbrev S1024 : Shape := ⟨1, ![1024]⟩
abbrev S_ : Shape := ⟨0, ![]⟩

abbrev nBuf : Space → Nat
  | .hbm => 70
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S16384, .i32⟩
  | .hbm, ⟨2, _⟩ => ⟨S256x1024, .f32⟩
  | .hbm, ⟨3, _⟩ => ⟨S256, .f32⟩
  | .hbm, ⟨4, _⟩ => ⟨S256x1024, .f32⟩
  | .hbm, ⟨5, _⟩ => ⟨S256, .f32⟩
  | .hbm, ⟨6, _⟩ => ⟨S16384x1, .i32⟩
  | .hbm, ⟨7, _⟩ => ⟨S1x256, .f32⟩
  | .hbm, ⟨8, _⟩ => ⟨S2x1x1024, .f32⟩
  | .hbm, ⟨9, _⟩ => ⟨S2x1024x1024, .f32⟩
  | .hbm, ⟨10, _⟩ => ⟨S2x1x1024, .f32⟩
  | .hbm, ⟨11, _⟩ => ⟨S16384x256, .f32⟩
  | .hbm, ⟨12, _⟩ => ⟨S1x1x1024, .f32⟩
  | .hbm, ⟨13, _⟩ => ⟨S1x1024, .f32⟩
  | .hbm, ⟨14, _⟩ => ⟨S1x1x1024, .f32⟩
  | .hbm, ⟨15, _⟩ => ⟨S1x1024, .f32⟩
  | .hbm, ⟨16, _⟩ => ⟨S1x1024, .f32⟩
  | .hbm, ⟨17, _⟩ => ⟨S1x1024x1024, .f32⟩
  | .hbm, ⟨18, _⟩ => ⟨S1024x1024, .f32⟩
  | .hbm, ⟨19, _⟩ => ⟨S1x1024x1024, .f32⟩
  | .hbm, ⟨20, _⟩ => ⟨S1024x1024, .f32⟩
  | .hbm, ⟨21, _⟩ => ⟨S1024x1024, .f32⟩
  | .hbm, ⟨22, _⟩ => ⟨S1x1x1024, .f32⟩
  | .hbm, ⟨23, _⟩ => ⟨S1x1024, .f32⟩
  | .hbm, ⟨24, _⟩ => ⟨S1x1x1024, .f32⟩
  | .hbm, ⟨25, _⟩ => ⟨S1x1024, .f32⟩
  | .hbm, ⟨26, _⟩ => ⟨S1x1024, .f32⟩
  | .hbm, ⟨27, _⟩ => ⟨S1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1024x1, .f32⟩
  | .hbm, ⟨34, _⟩ => ⟨S_, .f32⟩
  | .hbm, ⟨35, _⟩ => ⟨S1024x1, .f32⟩
  | .hbm, ⟨36, _⟩ => ⟨S1024x1, .f32⟩
  | .hbm, ⟨37, _⟩ => ⟨S_, .f32⟩
  | .hbm, ⟨38, _⟩ => ⟨S1024x1, .f32⟩
  | .hbm, ⟨39, _⟩ => ⟨S1024x1, .i1⟩
  | .hbm, ⟨40, _⟩ => ⟨S1024x1024, .f32⟩
  | .hbm, ⟨41, _⟩ => ⟨S1024x1024, .f32⟩
  | .hbm, ⟨42, _⟩ => ⟨S_, .f32⟩
  | .hbm, ⟨43, _⟩ => ⟨S1024x1024, .i1⟩
  | .hbm, ⟨44, _⟩ => ⟨S1024x1024, .f32⟩
  | .hbm, ⟨45, _⟩ => ⟨S1024x1024, .f32⟩
  | .hbm, ⟨46, _⟩ => ⟨S1024, .i32⟩
  | .hbm, ⟨47, _⟩ => ⟨S_, .i32⟩
  | .hbm, ⟨48, _⟩ => ⟨S1024, .i32⟩
  | .hbm, ⟨49, _⟩ => ⟨S1024, .i1⟩
  | .hbm, ⟨50, _⟩ => ⟨S1024x1, .i1⟩
  | .hbm, ⟨51, _⟩ => ⟨S_, .f32⟩
  | .hbm, ⟨52, _⟩ => ⟨S_, .f32⟩
  | .hbm, ⟨53, _⟩ => ⟨S1024x1024, .i1⟩
  | .hbm, ⟨54, _⟩ => ⟨S1024x1024, .f32⟩
  | .hbm, ⟨55, _⟩ => ⟨S1024x1024, .f32⟩
  | .hbm, ⟨56, _⟩ => ⟨S1024x1024, .bf16⟩
  | .hbm, ⟨57, _⟩ => ⟨S256x1024, .bf16⟩
  | .hbm, ⟨58, _⟩ => ⟨S1024x256, .bf16⟩
  | .hbm, ⟨59, _⟩ => ⟨S1024x256, .f32⟩
  | .hbm, ⟨60, _⟩ => ⟨S1x256, .f32⟩
  | .hbm, ⟨61, _⟩ => ⟨S1024x256, .f32⟩
  | .hbm, ⟨62, _⟩ => ⟨S1024x256, .f32⟩
  | .hbm, ⟨63, _⟩ => ⟨S_, .f32⟩
  | .hbm, ⟨64, _⟩ => ⟨S_, .f32⟩
  | .hbm, ⟨65, _⟩ => ⟨S1024x256, .i1⟩
  | .hbm, ⟨66, _⟩ => ⟨S1024x256, .f32⟩
  | .hbm, ⟨67, _⟩ => ⟨S1024x256, .f32⟩
  | .hbm, ⟨68, _⟩ => ⟨S1024x256, .bf16⟩
  | .hbm, ⟨69, _⟩ => ⟨S16384x256, .f32⟩
  | .local _ .vmem, ⟨0, _⟩ => ⟨S1024x1024, .f32⟩
  | .local _ .vmem, ⟨1, _⟩ => ⟨S1024x1024, .f32⟩
  | .local _ .vmem, ⟨2, _⟩ => ⟨S1024x1, .i32⟩
  | .local _ .vmem, ⟨3, _⟩ => ⟨S1024x1, .i32⟩
  | .local _ .vmem, ⟨4, _⟩ => ⟨S256x1024, .f32⟩
  | .local _ .vmem, ⟨5, _⟩ => ⟨S1x256, .f32⟩
  | .local _ .vmem, ⟨6, _⟩ => ⟨S1x1x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x1, .i32⟩
  | .local _ .vmem, ⟨14, _⟩ => ⟨S1024x1, .i32⟩
  | .local _ .vmem, ⟨15, _⟩ => ⟨S1024x256, .bf16⟩
  | .local _ .vmem, ⟨16, _⟩ => ⟨S1024x256, .f32⟩
  | .local _ .vmem, ⟨17, _⟩ => ⟨S1024x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_0 : Ref sig .tc := ⟨.hbm, 34, rfl⟩
abbrev main_v24 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_call0_v0 : Ref sig .tc := ⟨.hbm, 43, rfl⟩
abbrev main_call0_v1 : Ref sig .tc := ⟨.hbm, 44, rfl⟩
abbrev main_v30 : Ref sig .tc := ⟨.hbm, 45, rfl⟩
abbrev main_v31 : Ref sig .tc := ⟨.hbm, 46, rfl⟩
abbrev main_c : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_3 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_4 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S16384_S16384x1 : S16384.ShapeCasts S16384x1
  shapeCasts_S256_S1x256 : S256.ShapeCasts S1x256
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  inb_S1024x1024_S1024x1024_0_0 : ∀ a, (![0, 0] : Fin 2 → Nat) a + S1024x1024.size a ≤ S1024x1024.size a
  h_S1024x1024 : 0 < S1024x1024.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x1024_d1_w32 : S1024x1024.Iotas .tc 32 [1]
  broadcasts_S1024x1_S1024x1024 : S1024x1.Broadcasts S1024x1024
  natLt_1_32 : 1 < 32
  bitsLt_bf16_f32 : FTy.bits .bf16 < FTy.bits .f32
  reduces_S1024x1024_S1024 : S1024x1024.Reduces [0] S1024
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  slices_S2x1x1024_S1x1x1024_0_0_0 : S2x1x1024.Slices ![0, 0, 0] S1x1x1024
  slices_S2x1x1024_S1x1x1024_1_0_0 : S2x1x1024.Slices ![1, 0, 0] S1x1x1024
  slices_S2x1024x1024_S1x1024x1024_0_0_0 : S2x1024x1024.Slices ![0, 0, 0] S1x1024x1024
  slices_S2x1024x1024_S1x1024x1024_1_0_0 : S2x1024x1024.Slices ![1, 0, 0] S1x1024x1024
  shapeCasts_S1x1024_S1024 : S1x1024.ShapeCasts S1024
  bcast_S1x1024_S1024x1024_0_1 : S1x1024.BroadcastsInDim S1024x1024 (![0, 1] : Fin 2 → Fin S1024x1024.rank)
  bcast_S_S1024 : S_.BroadcastsInDim S1024 (![] : Fin 0 → Fin S1024.rank)
  shapeCasts_S1024_S1024x1 : S1024.ShapeCasts S1024x1
  bcast_S_S1024x1 : S_.BroadcastsInDim S1024x1 (![] : Fin 0 → Fin S1024x1.rank)
  bcast_S1024x1_S1024x1024_0_1 : S1024x1.BroadcastsInDim S1024x1024 (![0, 1] : Fin 2 → Fin S1024x1024.rank)
  bcast_S_S1024x1024 : S_.BroadcastsInDim S1024x1024 (![] : Fin 0 → Fin S1024x1024.rank)
  transposes_S256x1024_S1024x256_1_0 : S256x1024.Transposes [1, 0] S1024x256
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  bcast_S1024x1_S1024x256_0_1 : S1024x1.BroadcastsInDim S1024x256 (![0, 1] : Fin 2 → Fin S1024x256.rank)
  bcast_S_S1024x256 : S_.BroadcastsInDim S1024x256 (![] : Fin 0 → Fin S1024x256.rank)
  shapeCasts_S1024x256_S1024x256 : S1024x256.ShapeCasts S1024x256
  dot_S1024x1024_S1024x1024_S1024x1024_0_0_1_1_n_n_wf : DotDims.WF S1024x1024 S1024x1024 S1024x1024 [0] [0] [1] [1] [] []
  dot_S1024x1024_S256x1024_S1024x256_1_1_0_0_n_n_wf : DotDims.WF S1024x1024 S256x1024 S1024x256 [1] [1] [0] [0] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S16384x1.size a
  hwx0_1 : ∀ i : grid0.Coords, EltTy.bits .i32 = 32 ∨ (Rect.block (s := S16384x1) S1024x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x1024.size a
  hwx0_2 : ∀ i : grid0.Coords, EltTy.bits .f32 = 32 ∨ (Rect.block (s := S256x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1x1024.size a ≤ S2x1x1024.size a
  hwx0_4 : ∀ i : grid0.Coords, EltTy.bits .f32 = 32 ∨ (Rect.block (s := S2x1x1024) S1x1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024x1024.size a ≤ S2x1024x1024.size a
  hwx0_5 : ∀ i : grid0.Coords, EltTy.bits .f32 = 32 ∨ (Rect.block (s := S2x1024x1024) S1x1024x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1x1024.size a ≤ S2x1x1024.size a
  hwx0_6 : ∀ i : grid0.Coords, EltTy.bits .f32 = 32 ∨ (Rect.block (s := S2x1x1024) S1x1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S16384x256.size a
  hwx0_7 : ∀ i : grid0.Coords, EltTy.bits .f32 = 32 ∨ (Rect.block (s := S16384x256) S1024x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S16384x256.size a
  hwx1_0 : ∀ i : grid1.Coords, EltTy.bits .f32 = 32 ∨ (Rect.block (s := S16384x256) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S16384x1.size a
  hwx1_1 : ∀ i : grid1.Coords, EltTy.bits .i32 = 32 ∨ (Rect.block (s := S16384x1) S1024x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S1024x256.size a
  hwx1_2 : ∀ i : grid1.Coords, EltTy.bits .bf16 = 32 ∨ (Rect.block (s := S1024x256) S1024x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S16384x256.size a
  hwx1_3 : ∀ i : grid1.Coords, EltTy.bits .f32 = 32 ∨ (Rect.block (s := S16384x256) S1024x256.size (cc1_transform_3 i) (hinb1_3 i)).WholeWords (EltTy.packing .f32)

variable [Facts₀]

def dot_S1024x1024_S1024x1024_S1024x1024_0_0_1_1_n_n : DotDims S1024x1024 S1024x1024 S1024x1024 where
  lhsContracting := [0]
  rhsContracting := [0]
  lhsNonContracting := [1]
  rhsNonContracting := [1]
  lhsBatch := []
  rhsBatch := []
  wf := dot_S1024x1024_S1024x1024_S1024x1024_0_0_1_1_n_n_wf
def dot_S1024x1024_S256x1024_S1024x256_1_1_0_0_n_n : DotDims S1024x1024 S256x1024 S1024x256 where
  lhsContracting := [1]
  rhsContracting := [1]
  lhsNonContracting := [0]
  rhsNonContracting := [0]
  lhsBatch := []
  rhsBatch := []
  wf := dot_S1024x1024_S256x1024_S1024x256_1_1_0_0_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1x1x1024.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1x1024x1024.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2_2) S1x1x1024.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2_3) S1024x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v2_3) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1024x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16384x1024 : Shape := ⟨2, ![16384, 1024]⟩
abbrev S16384 : Shape := ⟨1, ![16384]⟩
abbrev S256x1024 : Shape := ⟨2, ![256, 1024]⟩
abbrev S256 : Shape := ⟨1, ![256]⟩
abbrev S_ : Shape := ⟨0, ![]⟩
abbrev S1000x1024 : Shape := ⟨2, ![1000, 1024]⟩
abbrev S16384x1 : Shape := ⟨2, ![16384, 1]⟩
abbrev S1000 : Shape := ⟨1, ![1000]⟩
abbrev S1024 : Shape := ⟨1, ![1024]⟩
abbrev S1x1024 : Shape := ⟨2, ![1, 1024]⟩
abbrev S1024x256 : Shape := ⟨2, ![1024, 256]⟩
abbrev S16384x256 : Shape := ⟨2, ![16384, 256]⟩
abbrev S1x256 : Shape := ⟨2, ![1, 256]⟩

abbrev nBuf : Space → Nat
  | .hbm => 67
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384, .i32⟩
  | .hbm, ⟨2, _⟩ => ⟨S256x1024, .f32⟩
  | .hbm, ⟨3, _⟩ => ⟨S256, .f32⟩
  | .hbm, ⟨4, _⟩ => ⟨S256x1024, .f32⟩
  | .hbm, ⟨5, _⟩ => ⟨S256, .f32⟩
  | .hbm, ⟨6, _⟩ => ⟨S_, .f32⟩
  | .hbm, ⟨7, _⟩ => ⟨S1000x1024, .f32⟩
  | .hbm, ⟨8, _⟩ => ⟨S16384x1, .i32⟩
  | .hbm, ⟨9, _⟩ => ⟨S1000x1024, .f32⟩
  | .hbm, ⟨10, _⟩ => ⟨S_, .f32⟩
  | .hbm, ⟨11, _⟩ => ⟨S16384, .f32⟩
  | .hbm, ⟨12, _⟩ => ⟨S_, .f32⟩
  | .hbm, ⟨13, _⟩ => ⟨S1000, .f32⟩
  | .hbm, ⟨14, _⟩ => ⟨S16384x1, .i32⟩
  | .hbm, ⟨15, _⟩ => ⟨S1000, .f32⟩
  | .hbm, ⟨16, _⟩ => ⟨S_, .f32⟩
  | .hbm, ⟨17, _⟩ => ⟨S1024, .f32⟩
  | .hbm, ⟨18, _⟩ => ⟨S1x1024, .f32⟩
  | .hbm, ⟨19, _⟩ => ⟨S_, .i32⟩
  | .hbm, ⟨20, _⟩ => ⟨S16384, .i32⟩
  | .hbm, ⟨21, _⟩ => ⟨S16384, .i1⟩
  | .hbm, ⟨22, _⟩ => ⟨S_, .i32⟩
  | .hbm, ⟨23, _⟩ => ⟨S16384, .i32⟩
  | .hbm, ⟨24, _⟩ => ⟨S16384, .i32⟩
  | .hbm, ⟨25, _⟩ => ⟨S16384, .i32⟩
  | .hbm, ⟨26, _⟩ => ⟨S16384x1, .i32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .i32⟩
  | .hbm, ⟨31, _⟩ => ⟨S16384, .i32⟩
  | .hbm, ⟨32, _⟩ => ⟨S16384, .i1⟩
  | .hbm, ⟨33, _⟩ => ⟨S_, .i32⟩
  | .hbm, ⟨34, _⟩ => ⟨S16384, .i32⟩
  | .hbm, ⟨35, _⟩ => ⟨S16384, .i32⟩
  | .hbm, ⟨36, _⟩ => ⟨S16384, .i32⟩
  | .hbm, ⟨37, _⟩ => ⟨S16384x1, .i32⟩
  | .hbm, ⟨38, _⟩ => ⟨S16384, .f32⟩
  | .hbm, ⟨39, _⟩ => ⟨S_, .f32⟩
  | .hbm, ⟨40, _⟩ => ⟨S16384, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .i1⟩
  | .hbm, ⟨46, _⟩ => ⟨S_, .f32⟩
  | .hbm, ⟨47, _⟩ => ⟨S16384, .f32⟩
  | .hbm, ⟨48, _⟩ => ⟨S16384, .f32⟩
  | .hbm, ⟨49, _⟩ => ⟨S16384x1, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384x1024, .i1⟩
  | .hbm, ⟨54, _⟩ => ⟨S16384x1024, .f32⟩
  | .hbm, ⟨55, _⟩ => ⟨S16384x1024, .f32⟩
  | .hbm, ⟨56, _⟩ => ⟨S1024x256, .f32⟩
  | .hbm, ⟨57, _⟩ => ⟨S16384x256, .f32⟩
  | .hbm, ⟨58, _⟩ => ⟨S1x256, .f32⟩
  | .hbm, ⟨59, _⟩ => ⟨S16384x256, .f32⟩
  | .hbm, ⟨60, _⟩ => ⟨S16384x256, .f32⟩
  | .hbm, ⟨61, _⟩ => ⟨S1024x256, .f32⟩
  | .hbm, ⟨62, _⟩ => ⟨S16384x256, .f32⟩
  | .hbm, ⟨63, _⟩ => ⟨S16384x256, .f32⟩
  | .hbm, ⟨64, _⟩ => ⟨S1x256, .f32⟩
  | .hbm, ⟨65, _⟩ => ⟨S16384x256, .f32⟩
  | .hbm, ⟨66, _⟩ => ⟨S16384x256, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_c_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_9 : Ref sig .tc := ⟨.hbm, 52, rfl⟩
abbrev main_call0_v0 : Ref sig .tc := ⟨.hbm, 53, rfl⟩
abbrev main_call0_v1 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]

class Facts₀ : Prop where
  bcast_S_S1000x1024 : S_.BroadcastsInDim S1000x1024 (![] : Fin 0 → Fin S1000x1024.rank)
  bcast_S16384_S16384x1_0 : S16384.BroadcastsInDim S16384x1 (![0] : Fin 1 → Fin S16384x1.rank)
  bcast_S_S16384 : S_.BroadcastsInDim S16384 (![] : Fin 0 → Fin S16384.rank)
  bcast_S_S1000 : S_.BroadcastsInDim S1000 (![] : Fin 0 → Fin S1000.rank)
  reducesTo_S16384x1024_S1024_d0 : S16384x1024.ReducesTo [0] S1024
  h_S_ : 0 < S_.numel
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1 : S_.BroadcastsInDim S16384x1 (![] : Fin 0 → Fin S16384x1.rank)
  bcast_S16384x1_S16384x1024_0_1 : S16384x1.BroadcastsInDim S16384x1024 (![0, 1] : Fin 2 → Fin S16384x1024.rank)
  bcast_S_S16384x1024 : S_.BroadcastsInDim S16384x1024 (![] : Fin 0 → Fin S16384x1024.rank)
  transposes_S256x1024_S1024x256_1_0 : S256x1024.Transposes [1, 0] S1024x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  scatter_S1000x1024_S16384x1_S16384x1024_1_0_0_1_wf : ScatterDims.WF S1000x1024 S16384x1 S16384x1024 [1] [0] [0] 1
  scatter_S1000_S16384x1_S16384_n_0_0_1_wf : ScatterDims.WF S1000 S16384x1 S16384 [] [0] [0] 1
  gather_S1000x1024_S16384x1_S16384x1024_1_0_n_n_0_1_11024_wf : GatherDims.WF S1000x1024 S16384x1 S16384x1024 [1] [0] [] [0] [] 1 ![1, 1024]
  gather_S1000_S16384x1_S16384_n_0_n_n_0_1_1_wf : GatherDims.WF S1000 S16384x1 S16384 [] [0] [] [0] [] 1 ![1]
  dot_S16384x1024_S1024x256_S16384x256_1_0_0_1_n_n_wf : DotDims.WF S16384x1024 S1024x256 S16384x256 [1] [0] [0] [1] [] []

variable [Facts₀]

def scatter_S1000x1024_S16384x1_S16384x1024_1_0_0_1 : ScatterDims S1000x1024 S16384x1 S16384x1024 where
  updateWindowDims := [1]
  insertedWindowDims := [0]
  scatterDimsToOperandDims := [0]
  indexVectorDim := 1
  wf := scatter_S1000x1024_S16384x1_S16384x1024_1_0_0_1_wf
def scatter_S1000_S16384x1_S16384_n_0_0_1 : ScatterDims S1000 S16384x1 S16384 where
  updateWindowDims := []
  insertedWindowDims := [0]
  scatterDimsToOperandDims := [0]
  indexVectorDim := 1
  wf := scatter_S1000_S16384x1_S16384_n_0_0_1_wf
def gather_S1000x1024_S16384x1_S16384x1024_1_0_n_n_0_1_11024 : GatherDims S1000x1024 S16384x1 S16384x1024 where
  offsetDims := [1]
  collapsedSliceDims := [0]
  operandBatchingDims := []
  startIndicesBatchingDims := []
  startIndexMap := [0]
  indexVectorDim := 1
  sliceSizes := ![1, 1024]
  wf := gather_S1000x1024_S16384x1_S16384x1024_1_0_n_n_0_1_11024_wf
def gather_S1000_S16384x1_S16384_n_0_n_n_0_1_1 : GatherDims S1000 S16384x1 S16384 where
  offsetDims := []
  collapsedSliceDims := [0]
  operandBatchingDims := []
  startIndicesBatchingDims := []
  startIndexMap := [0]
  indexVectorDim := 1
  sliceSizes := ![1]
  wf := gather_S1000_S16384x1_S16384_n_0_n_n_0_1_1_wf
def dot_S16384x1024_S1024x256_S16384x256_1_0_0_1_n_n : DotDims S16384x1024 S1024x256 S16384x256 where
  lhsContracting := [1]
  rhsContracting := [0]
  lhsNonContracting := [0]
  rhsNonContracting := [1]
  lhsBatch := []
  rhsBatch := []
  wf := dot_S16384x1024_S1024x256_S16384x256_1_0_0_1_n_n_wf

class Facts : Prop extends Facts₀ where

variable [Facts]
-- ==== Proof.Spec.lean ====
/-
  The leave-one-class-out mean followed by two linear maps, as functions of the argument arrays over the extended reals.

  Row `i` of the batch carries a class label `lab i`. With `tot d = ∑ i, x i d` (the column sums), `lsum k d` the same sum
  over the rows of class `k` only and `cnt k` the number of those rows, the mean of the rows NOT of class `k` is
  `(tot d - lsum k d) / max (N - cnt k) 1` when `N - cnt k > 0` and `0` otherwise (`meanS`). The result at row `i`,
  output column `o` is `(∑ d, x i d * w1 o d + b1 o) + (∑ d, mean (lab i) d * w2 o d + b2 o)`.

  A class indicator is the entry `oh l k`: one when the label word `l` is the word `k`, zero otherwise; a sum over the rows
  of one class is the sum over all rows of the indicator times the entry. The batch of 16384 rows is cut in two halves of
  eight blocks of 1024 rows (`row q k r`).
-/
import Idealize.ShloMosaic.PureOps.Ideal.Laws
import Idealize.ShloMosaic.Lib.ValueIdx

noncomputable section

namespace Cert.Spec

open Idealize.ShloMosaic Idealize.ShloMosaic.ValueIdx
open scoped BigOperators

abbrev S16384x1024 : Shape := ⟨2, ![16384, 1024]⟩
abbrev S16384x256 : Shape := ⟨2, ![16384, 256]⟩
abbrev S16384x1 : Shape := ⟨2, ![16384, 1]⟩
abbrev S16384 : Shape := ⟨1, ![16384]⟩
abbrev S256x1024 : Shape := ⟨2, ![256, 1024]⟩
abbrev S1024x256 : Shape := ⟨2, ![1024, 256]⟩
abbrev S256 : Shape := ⟨1, ![256]⟩
abbrev S1x256 : Shape := ⟨2, ![1, 256]⟩
abbrev S2x1x1024 : Shape := ⟨3, ![2, 1, 1024]⟩
abbrev S2x1024x1024 : Shape := ⟨3, ![2, 1024, 1024]⟩

/-- The class indicator: one when the label word is the class word, zero otherwise. -/
def oh (l k : BitVec 32) : EReal := if l = k then 1 else 0

/-- Row `r` of block `k` of half `q` of the batch: row `1024 * (8 * q + k) + r`. -/
def row (q : Fin 2) (k : Fin 8) (r : Fin 1024) : Fin 16384 :=
  ⟨1024 * (8 * q.val + k.val) + r.val, by have := q.isLt; have := k.isLt; have := r.isLt; omega⟩

/-! ## What the first pass leaves: per half, the column sums, the per-class column sums, the per-class counts; and `x w1ᵀ + b1` -/

/-- Half `q`'s column sums. -/
def half4 (x : FVec Ideal S16384x1024 .f32) : FVec Ideal S2x1x1024 .f32 :=
  fun j => ∑ k : Fin 8, ∑ r : Fin 1024, x (ix2 (row (j 0) k r) (j 2))

/-- Half `q`'s column sums over the rows of class `j 1`. -/
def half5 (x : FVec Ideal S16384x1024 .f32) (lab : IVec S16384x1 32) : FVec Ideal S2x1024x1024 .f32 :=
  fun j => ∑ k : Fin 8, ∑ r : Fin 1024,
    oh (lab (ix2 (row (j 0) k r) 0)) (BitVec.ofNat 32 (j 1).val) * x (ix2 (row (j 0) k r) (j 2))

/-- Half `q`'s number of rows of class `j 2`. -/
def half6 (lab : IVec S16384x1 32) : FVec Ideal S2x1x1024 .f32 :=
  fun j => ∑ k : Fin 8, ∑ r : Fin 1024, oh (lab (ix2 (row (j 0) k r) 0)) (BitVec.ofNat 32 (j 2).val)

/-- The first linear map with its bias: `∑ d, x i d * w1 o d + b1 o`. -/
def lin1 (x : FVec Ideal S16384x1024 .f32) (w1 : FVec Ideal S256x1024 .f32) (b1 : FVec Ideal S1x256 .f32) :
    FVec Ideal S16384x256 .f32 :=
  fun j => (∑ d : Fin 1024, x (ix2 (j 0) d) * w1 (ix2 (j 1) d)) + b1 (ix2 0 (j 1))

/-- What the second pass leaves: the first map's output plus the table row of the label, read as a sum against the indicator
    over the 1024 class words: `p1 i o + ∑ k, oh (lab i) k * tb k o`. -/
def comb (p1 : FVec Ideal S16384x256 .f32) (lab : IVec S16384x1 32) (tb : FVec Ideal S1024x256 .bf16) :
    FVec Ideal S16384x256 .f32 :=
  fun j => p1 j + ∑ k : Fin 1024, oh (lab (ix2 (j 0) 0)) (BitVec.ofNat 32 k.val) * tb (ix2 k (j 1))

/-! ## The mean of the other classes' rows, and the result -/

/-- Column sums over all rows. -/
def tot (x : FVec Ideal S16384x1024 .f32) (d : Fin 1024) : EReal := ∑ i : Fin 16384, x (ix2 i d)

/-- Column sums over the rows whose label word is `k`. -/
def lsum (x : FVec Ideal S16384x1024 .f32) (lab : IVec S16384 32) (k : BitVec 32) (d : Fin 1024) : EReal :=
  ∑ i : Fin 16384, oh (lab (ix1 i)) k * x (ix2 i d)

/-- The number of rows whose label word is `k`. -/
def cnt (lab : IVec S16384 32) (k : BitVec 32) : EReal := ∑ i : Fin 16384, oh (lab (ix1 i)) k

/-- From a column sum `t`, a class's column sum `l` and its count `c`: the mean over the other rows, `(t - l) / max (N - c) 1`
    when `N - c > 0`, else zero (`N = 16384`; the words are those of 16384, 0 and 1 in the 32-bit format). -/
def meanS (t l c : Ideal .f32) : Ideal .f32 :=
  Scalar.select
    (FloatOps.cmpf (F := Ideal) .ogt (FloatOps.subf (FloatOps.ofBits (F := Ideal) .f32 0x46800000#32) c) (FloatOps.ofBits (F := Ideal) .f32 0x00000000#32))
    (FloatOps.hostDivf (FloatOps.subf t l)
      (FloatOps.maximumf (FloatOps.subf (FloatOps.ofBits (F := Ideal) .f32 0x46800000#32) c) (FloatOps.ofBits (F := Ideal) .f32 0x3F800000#32)))
    (FloatOps.ofBits (F := Ideal) .f32 0x00000000#32)

/-- THE RESULT: `(x w1ᵀ + b1) + (mean(lab) w2ᵀ + b2)`, index by index. -/
def G (x : FVec Ideal S16384x1024 .f32) (lab : IVec S16384 32) (w1 : FVec Ideal S256x1024 .f32) (b1 : FVec Ideal S256 .f32)
    (w2 : FVec Ideal S256x1024 .f32) (b2 : FVec Ideal S256 .f32) : FVec Ideal S16384x256 .f32 :=
  fun j =>
    ((∑ d : Fin 1024, x (ix2 (j 0) d) * w1 (ix2 (j 1) d)) + b1 (ix1 (j 1)))
    + ((∑ d : Fin 1024, meanS (tot x d) (lsum x lab (lab (ix1 (j 0))) d) (cnt lab (lab (ix1 (j 0)))) * w2 (ix2 (j 1) d))
        + b2 (ix1 (j 1)))

/-- The table the second pass reads, from the two halves' tables: for a class `k < 1000` the mean of the other classes' rows
    through the second linear map, `∑ d, mean k d * w2 o d + b2 o`; for the 24 padding classes zero. -/
def projTable (a4 : FVec Ideal S2x1x1024 .f32) (a5 : FVec Ideal S2x1024x1024 .f32) (a6 : FVec Ideal S2x1x1024 .f32)
    (w2 : FVec Ideal S256x1024 .f32) (b2 : FVec Ideal S256 .f32) : FVec Ideal S1024x256 .bf16 :=
  fun j =>
    if (j 0).val < 1000 then
      (∑ d : Fin 1024, meanS (a4 (ix3 0 0 d) + a4 (ix3 1 0 d)) (a5 (ix3 0 (j 0) d) + a5 (ix3 1 (j 0) d))
          (a6 (ix3 0 0 (j 0)) + a6 (ix3 1 0 (j 0))) * w2 (ix2 (j 1) d)) + b2 (ix1 (j 1))
    else 0

end Cert.Spec

end
-- ==== Proof.OneHot.lean ====
/-
  The class indicator as the kernel builds it: a label column compared for equality with the class numbers along a row,
  the one-bit result widened to a word and converted to a number, is one where the label word is the class word and zero
  elsewhere. Over the extended reals the conversion of the widened bit is exact.
-/
import proofs.«406085_j19146964206107_2_alg».proof.Proof.Spec
import Idealize.ShloMosaic.PureOps.Vector
import Idealize.ShloMosaic.Lib.Pipeline.Value

noncomputable section

namespace Cert.Spec

open Idealize.ShloMosaic Idealize.ShloMosaic.ValueIdx

/-- The equality bit of two words, widened to 32 bits and converted: the indicator. -/
theorem sitofp_eq_bit (l k : BitVec 32) :
    FloatOps.sitofp (F := Ideal) .f32 ((IntOp.cmpi .eq l k).setWidth 32) = oh l k := by
  unfold oh IntOp.cmpi
  by_cases h : l = k
  · subst h
    simp [FloatOps.sitofp]
  · have hb : (l == k) = false := by simpa using h
    simp [FloatOps.sitofp, hb, h]

abbrev S1024x1 : Shape := ⟨2, ![1024, 1]⟩
abbrev S1024x1024 : Shape := ⟨2, ![1024, 1024]⟩

/-- THE INDICATOR BLOCK. For a column `v` of 1024 label words, the block whose entry `(r, k)` compares `v r` with the class
    number `k` (the column broadcast along the rows against the numbers 0 … 1023 counted along a row), widened and
    converted: entry `(r, k)` is the indicator of `v r` being the word of `k`. -/
theorem onehot_apply (v : IVec S1024x1 32) (hsc : S1024x1.ShapeCasts S1024x1) (hb : S1024x1.Broadcasts S1024x1024)
    (hi : S1024x1024.Iotas .tc 32 [1]) (hlt : 1 < 32) (r k : Fin 1024) :
    (sitofp (F := Ideal) .f32 (extui 32 (cmpi .eq (broadcastTo S1024x1024 (shapeCast S1024x1 v hsc) hb)
        (iota .tc S1024x1024 32 [1] hi)) hlt) : FVec Ideal S1024x1024 .f32) (ix2 r k)
      = oh (v (ix2 r 0)) (BitVec.ofNat 32 k.val) := by
  rw [shapeCast_self]
  show FloatOps.sitofp (F := Ideal) .f32 ((IntOp.cmpi .eq (broadcastTo S1024x1024 v hb (ix2 r k))
      (iota .tc S1024x1024 32 [1] hi (ix2 r k))).setWidth 32) = _
  rw [sitofp_eq_bit]
  have e1 : broadcastTo S1024x1024 v hb (ix2 r k) = v (ix2 r 0) :=
    broadcastTo_apply v hb (ix2 r k) (ix2 r 0) (fun a => by
      match a with
      | ⟨0, _⟩ => show r.val = if (1024 : Nat) = 1 then 0 else r.val; rw [if_neg (by decide)]
      | ⟨1, _⟩ => show (0 : Nat) = if (1 : Nat) = 1 then 0 else k.val; rw [if_pos rfl])
  have e2 : iota .tc S1024x1024 32 [1] hi (ix2 r k) = BitVec.ofNat 32 k.val := by
    show BitVec.ofNat 32 (0 * 1024 + k.val) = _
    rw [Nat.zero_mul, Nat.zero_add]
  rw [e1, e2]

end Cert.Spec

end
-- ==== Proof.MatmulAt.lean ====
/-
  The kernel's three matrix products and the host's one contraction, read at an output index over the extended reals:
  each is the plain sum, over the one contracted axis of length 1024, of the products of the operands' entries
  (`tn`: both operands contracted on their rows; `nt`: both on their columns; `nn`: the ordinary product).
-/
import proofs.«406085_j19146964206107_2_alg».proof.Proof.Gen.KernelIdeal
import Idealize.ShloMosaic.Lib.ValueIdx
import Idealize.ShloMosaic.PureOps.Ideal.Laws

noncomputable section

namespace Cert.KernelIdeal.MM

open Idealize.ShloMosaic Idealize.ShloMosaic.ValueIdx Cert.KernelIdeal
open scoped BigOperators

open Cert.KernelIdeal.Gen

theorem tn_lhs_0 (i : S1024x1024.Idx) (q : dot_S1024x1024_S1024x1024_S1024x1024_0_0_1_1_n_n.contr.Idx) :
    (dot_S1024x1024_S1024x1024_S1024x1024_0_0_1_1_n_n.lhsIdx i q 0).val = (q ⟨0, by decide⟩).val :=
  dot_S1024x1024_S1024x1024_S1024x1024_0_0_1_1_n_n.lhsIdx_val_of_single rfl i q
theorem tn_lhs_1 (i : S1024x1024.Idx) (q : dot_S1024x1024_S1024x1024_S1024x1024_0_0_1_1_n_n.contr.Idx) :
    (dot_S1024x1024_S1024x1024_S1024x1024_0_0_1_1_n_n.lhsIdx i q 1).val = (i 0).val := by
  unfold DotDims.lhsIdx
  rw [dif_neg (show ¬(1 : Fin S1024x1024.rank) ∈ dot_S1024x1024_S1024x1024_S1024x1024_0_0_1_1_n_n.lhsBatch by decide), dif_pos (show (1 : Fin S1024x1024.rank) ∈ dot_S1024x1024_S1024x1024_S1024x1024_0_0_1_1_n_n.lhsNonContracting by decide)]
  rfl
theorem tn_rhs_0 (i : S1024x1024.Idx) (q : dot_S1024x1024_S1024x1024_S1024x1024_0_0_1_1_n_n.contr.Idx) :
    (dot_S1024x1024_S1024x1024_S1024x1024_0_0_1_1_n_n.rhsIdx i q 0).val = (q ⟨0, by decide⟩).val :=
  dot_S1024x1024_S1024x1024_S1024x1024_0_0_1_1_n_n.rhsIdx_val_of_single rfl i q
theorem tn_rhs_1 (i : S1024x1024.Idx) (q : dot_S1024x1024_S1024x1024_S1024x1024_0_0_1_1_n_n.contr.Idx) :
    (dot_S1024x1024_S1024x1024_S1024x1024_0_0_1_1_n_n.rhsIdx i q 1).val = (i 1).val := by
  unfold DotDims.rhsIdx
  rw [dif_neg (show ¬(1 : Fin S1024x1024.rank) ∈ dot_S1024x1024_S1024x1024_S1024x1024_0_0_1_1_n_n.rhsBatch by decide), dif_pos (show (1 : Fin S1024x1024.rank) ∈ dot_S1024x1024_S1024x1024_S1024x1024_0_0_1_1_n_n.rhsNonContracting by decide)]
  rfl

/-- The product into a zero accumulator, read at `(p, q)`: the sum over the contracted axis of the operands' products. -/
theorem matmul_tn {φ₁ φ₂ : FTy} (l : FVec Ideal S1024x1024 φ₁) (r : FVec Ideal S1024x1024 φ₂) (p : Fin 1024) (q : Fin 1024) :
    matmul dot_S1024x1024_S1024x1024_S1024x1024_0_0_1_1_n_n none l r (constant S1024x1024 .f32 0x00000000#32) (ix2 p q) = ∑ k : Fin 1024, l (ix2 k p) * r (ix2 k q) := by
  show FloatOps.matmul dot_S1024x1024_S1024x1024_S1024x1024_0_0_1_1_n_n none l r (constant S1024x1024 .f32 0x00000000#32) (ix2 p q) = _
  rw [Ideal.matmul_constant_zero_apply]
  rw [← Equiv.sum_comp (ValueIdx.contrEquiv1 dot_S1024x1024_S1024x1024_S1024x1024_0_0_1_1_n_n 1024 rfl rfl).symm]
  refine Finset.sum_congr rfl fun k _ => ?_
  have hk := ValueIdx.contrEquiv1_symm_val dot_S1024x1024_S1024x1024_S1024x1024_0_0_1_1_n_n 1024 rfl rfl k
  have el : dot_S1024x1024_S1024x1024_S1024x1024_0_0_1_1_n_n.lhsIdx (ix2 p q) ((ValueIdx.contrEquiv1 dot_S1024x1024_S1024x1024_S1024x1024_0_0_1_1_n_n 1024 rfl rfl).symm k) = ix2 k p := funext fun a => Fin.ext (by
    match a with
    | ⟨0, _⟩ => exact (tn_lhs_0 _ _).trans hk
    | ⟨1, _⟩ => exact tn_lhs_1 _ _)
  have er : dot_S1024x1024_S1024x1024_S1024x1024_0_0_1_1_n_n.rhsIdx (ix2 p q) ((ValueIdx.contrEquiv1 dot_S1024x1024_S1024x1024_S1024x1024_0_0_1_1_n_n 1024 rfl rfl).symm k) = ix2 k q := funext fun a => Fin.ext (by
    match a with
    | ⟨0, _⟩ => exact (tn_rhs_0 _ _).trans hk
    | ⟨1, _⟩ => exact tn_rhs_1 _ _)
  rw [el, er]

theorem nt_lhs_1 (i : S1024x256.Idx) (q : dot_S1024x1024_S256x1024_S1024x256_1_1_0_0_n_n.contr.Idx) :
    (dot_S1024x1024_S256x1024_S1024x256_1_1_0_0_n_n.lhsIdx i q 1).val = (q ⟨0, by decide⟩).val :=
  dot_S1024x1024_S256x1024_S1024x256_1_1_0_0_n_n.lhsIdx_val_of_single rfl i q
theorem nt_lhs_0 (i : S1024x256.Idx) (q : dot_S1024x1024_S256x1024_S1024x256_1_1_0_0_n_n.contr.Idx) :
    (dot_S1024x1024_S256x1024_S1024x256_1_1_0_0_n_n.lhsIdx i q 0).val = (i 0).val := by
  unfold DotDims.lhsIdx
  rw [dif_neg (show ¬(0 : Fin S1024x1024.rank) ∈ dot_S1024x1024_S256x1024_S1024x256_1_1_0_0_n_n.lhsBatch by decide), dif_pos (show (0 : Fin S1024x1024.rank) ∈ dot_S1024x1024_S256x1024_S1024x256_1_1_0_0_n_n.lhsNonContracting by decide)]
  rfl
theorem nt_rhs_1 (i : S1024x256.Idx) (q : dot_S1024x1024_S256x1024_S1024x256_1_1_0_0_n_n.contr.Idx) :
    (dot_S1024x1024_S256x1024_S1024x256_1_1_0_0_n_n.rhsIdx i q 1).val = (q ⟨0, by decide⟩).val :=
  dot_S1024x1024_S256x1024_S1024x256_1_1_0_0_n_n.rhsIdx_val_of_single rfl i q
theorem nt_rhs_0 (i : S1024x256.Idx) (q : dot_S1024x1024_S256x1024_S1024x256_1_1_0_0_n_n.contr.Idx) :
    (dot_S1024x1024_S256x1024_S1024x256_1_1_0_0_n_n.rhsIdx i q 0).val = (i 1).val := by
  unfold DotDims.rhsIdx
  rw [dif_neg (show ¬(0 : Fin S256x1024.rank) ∈ dot_S1024x1024_S256x1024_S1024x256_1_1_0_0_n_n.rhsBatch by decide), dif_pos (show (0 : Fin S256x1024.rank) ∈ dot_S1024x1024_S256x1024_S1024x256_1_1_0_0_n_n.rhsNonContracting by decide)]
  rfl

/-- The product into a zero accumulator, read at `(p, q)`: the sum over the contracted axis of the operands' products. -/
theorem matmul_nt {φ₁ φ₂ : FTy} (l : FVec Ideal S1024x1024 φ₁) (r : FVec Ideal S256x1024 φ₂) (p : Fin 1024) (q : Fin 256) :
    matmul dot_S1024x1024_S256x1024_S1024x256_1_1_0_0_n_n none l r (constant S1024x256 .f32 0x00000000#32) (ix2 p q) = ∑ k : Fin 1024, l (ix2 p k) * r (ix2 q k) := by
  show FloatOps.matmul dot_S1024x1024_S256x1024_S1024x256_1_1_0_0_n_n none l r (constant S1024x256 .f32 0x00000000#32) (ix2 p q) = _
  rw [Ideal.matmul_constant_zero_apply]
  rw [← Equiv.sum_comp (ValueIdx.contrEquiv1 dot_S1024x1024_S256x1024_S1024x256_1_1_0_0_n_n 1024 rfl rfl).symm]
  refine Finset.sum_congr rfl fun k _ => ?_
  have hk := ValueIdx.contrEquiv1_symm_val dot_S1024x1024_S256x1024_S1024x256_1_1_0_0_n_n 1024 rfl rfl k
  have el : dot_S1024x1024_S256x1024_S1024x256_1_1_0_0_n_n.lhsIdx (ix2 p q) ((ValueIdx.contrEquiv1 dot_S1024x1024_S256x1024_S1024x256_1_1_0_0_n_n 1024 rfl rfl).symm k) = ix2 p k := funext fun a => Fin.ext (by
    match a with
    | ⟨0, _⟩ => exact nt_lhs_0 _ _
    | ⟨1, _⟩ => exact (nt_lhs_1 _ _).trans hk)
  have er : dot_S1024x1024_S256x1024_S1024x256_1_1_0_0_n_n.rhsIdx (ix2 p q) ((ValueIdx.contrEquiv1 dot_S1024x1024_S256x1024_S1024x256_1_1_0_0_n_n 1024 rfl rfl).symm k) = ix2 q k := funext fun a => Fin.ext (by
    match a with
    | ⟨0, _⟩ => exact nt_rhs_0 _ _
    | ⟨1, _⟩ => exact (nt_rhs_1 _ _).trans hk)
  rw [el, er]

theorem nn_lhs_1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
theorem nn_lhs_0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem nn_rhs_0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
theorem nn_rhs_1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- The product into a zero accumulator, read at `(p, q)`: the sum over the contracted axis of the operands' products. -/
theorem matmul_nn {φ₁ φ₂ : FTy} (l : FVec Ideal S1024x1024 φ₁) (r : FVec Ideal S1024x256 φ₂) (p : Fin 1024) (q : Fin 256) :
    matmul dot_S1024x1024_S1024x256_S1024x256_1_0_0_1_n_n none l r (constant S1024x256 .f32 0x00000000#32) (ix2 p q) = ∑ k : Fin 1024, l (ix2 p k) * r (ix2 k q) := by
  show FloatOps.matmul dot_S1024x1024_S1024x256_S1024x256_1_0_0_1_n_n none l r (constant S1024x256 .f32 0x00000000#32) (ix2 p q) = _
  rw [Ideal.matmul_constant_zero_apply]
  rw [← Equiv.sum_comp (ValueIdx.contrEquiv1 dot_S1024x1024_S1024x256_S1024x256_1_0_0_1_n_n 1024 rfl rfl).symm]
  refine Finset.sum_congr rfl fun k _ => ?_
  have hk := ValueIdx.contrEquiv1_symm_val dot_S1024x1024_S1024x256_S1024x256_1_0_0_1_n_n 1024 rfl rfl k
  have el : dot_S1024x1024_S1024x256_S1024x256_1_0_0_1_n_n.lhsIdx (ix2 p q) ((ValueIdx.contrEquiv1 dot_S1024x1024_S1024x256_S1024x256_1_0_0_1_n_n 1024 rfl rfl).symm k) = ix2 p k := funext fun a => Fin.ext (by
    match a with
    | ⟨0, _⟩ => exact nn_lhs_0 _ _
    | ⟨1, _⟩ => exact (nn_lhs_1 _ _).trans hk)
  have er : dot_S1024x1024_S1024x256_S1024x256_1_0_0_1_n_n.rhsIdx (ix2 p q) ((ValueIdx.contrEquiv1 dot_S1024x1024_S1024x256_S1024x256_1_0_0_1_n_n 1024 rfl rfl).symm k) = ix2 k q := funext fun a => Fin.ext (by
    match a with
    | ⟨0, _⟩ => exact (nn_rhs_0 _ _).trans hk
    | ⟨1, _⟩ => exact nn_rhs_1 _ _)
  rw [el, er]

/-- The host's contraction with the same dimension numbers, read at `(p, q)`. -/
theorem dotGeneral_nn {φ₁ φ₂ : FTy} (l : FVec Ideal S1024x1024 φ₁) (r : FVec Ideal S1024x256 φ₂) (p : Fin 1024) (q : Fin 256) :
    (Host.dotGeneral dot_S1024x1024_S1024x256_S1024x256_1_0_0_1_n_n none l r : FVec Ideal S1024x256 .f32) (ix2 p q) = ∑ k : Fin 1024, l (ix2 p k) * r (ix2 k q) := by
  simp only [Host.dotGeneral]
  rw [Ideal.dotGeneral_apply, ← Equiv.sum_comp (ValueIdx.contrEquiv1 dot_S1024x1024_S1024x256_S1024x256_1_0_0_1_n_n 1024 rfl rfl).symm]
  refine Finset.sum_congr rfl fun k _ => ?_
  have hk := ValueIdx.contrEquiv1_symm_val dot_S1024x1024_S1024x256_S1024x256_1_0_0_1_n_n 1024 rfl rfl k
  have el : dot_S1024x1024_S1024x256_S1024x256_1_0_0_1_n_n.lhsIdx (ix2 p q) ((ValueIdx.contrEquiv1 dot_S1024x1024_S1024x256_S1024x256_1_0_0_1_n_n 1024 rfl rfl).symm k) = ix2 p k := funext fun a => Fin.ext (by
    match a with
    | ⟨0, _⟩ => exact nn_lhs_0 _ _
    | ⟨1, _⟩ => exact (nn_lhs_1 _ _).trans hk)
  have er : dot_S1024x1024_S1024x256_S1024x256_1_0_0_1_n_n.rhsIdx (ix2 p q) ((ValueIdx.contrEquiv1 dot_S1024x1024_S1024x256_S1024x256_1_0_0_1_n_n 1024 rfl rfl).symm k) = ix2 k q := funext fun a => Fin.ext (by
    match a with
    | ⟨0, _⟩ => exact (nn_rhs_0 _ _).trans hk
    | ⟨1, _⟩ => exact nn_rhs_1 _ _)
  rw [el, er]

end Cert.KernelIdeal.MM

end
-- ==== Proof.Region0.lean ====
/-
  The first pass (a 2 × 8 grid: half q, block k of 1024 rows), read as values over the extended reals: what its first
  three result arrays (the running sums) hold when the pass ends, as functions of the arrays it was entered with.

  Each of the three is kept in a block that is set to zero at the first of a half's eight points, receives at every point
  that point's contribution (a sum over the point's 1024 rows), and is copied into the half's slot of the result after the
  eighth. So the slot holds the sum of eight contributions, and the eight blocks of rows are the half's rows.
-/
import proofs.«406085_j19146964206107_2_alg».proof.Proof.Gen.KernelIdeal.Frame
import proofs.«406085_j19146964206107_2_alg».proof.Proof.Spec
import proofs.«406085_j19146964206107_2_alg».proof.Proof.OneHot
import proofs.«406085_j19146964206107_2_alg».proof.Proof.MatmulAt
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.R0

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

variable (V : (c : Dev nD) → (b : Ref sig .tc) → Buf (Elt Ideal) ((c : Thread nD τ).loc b))

/-! ## What one grid point leaves in the three running-sum blocks

At a point that opens a half (the first of its eight) the three blocks are first overwritten with zeros, so the
update reads the zero block; at every other point it reads what the point before left. In both cases the update is
one whole-block store of the payload over the point's input blocks and the block read. -/

section Pieces
variable {F : FTy → Type} [FloatOps F]
variable (c : Dev nD) (i : grid0.Coords) (a2 : Memref sig .tc .vmem S1024x1024 .f32) (h2 : a2.IsWhole) (a3 : Memref sig .tc .vmem S1024x1 .i32) (h3 : a3.IsWhole) (a4 : Memref sig .tc .vmem S256x1024 .f32) (h4 : a4.IsWhole) (a5 : Memref sig .tc .vmem S1x256 .f32) (h5 : a5.IsWhole) (a6 : Memref sig .tc .vmem S1x1x1024 .f32) (h6 : a6.IsWhole) (a7 : Memref sig .tc .vmem S1x1024x1024 .f32) (h7 : a7.IsWhole) (a8 : Memref sig .tc .vmem S1x1x1024 .f32) (h8 : a8.IsWhole) (a9 : Memref sig .tc .vmem S1024x256 .f32) (h9 : a9.IsWhole)
variable (x0 : Vec F S1024x1024 .f32) (x1 : Vec F S1024x1 .i32) (x2 : Vec F S256x1024 .f32) (x3 : Vec F S1x256 .f32) (xo4 : Vec F S1x1x1024 .f32) (xo5 : Vec F S1x1024x1024 .f32) (xo6 : Vec F S1x1x1024 .f32)

theorem hz2 : (![0, 0] : Fin 2 → Nat) = fun _ => 0 := funext fun a => by fin_cases a <;> rfl
theorem hz3 : (![0, 0, 0] : Fin 3 → Nat) = fun _ => 0 := funext fun a => by fin_cases a <;> rfl

/-- Inside a half, the column-sum block becomes the update of what it held. -/
theorem out_B_4 (hc : ¬cond0_0 i) :
    out0_B_4 c i a2 h2 a3 h3 a4 h4 a5 h5 a6 h6 a7 h7 a8 h8 a9 h9 hc x0 x1 x2 x3 xo4 xo5 xo6 = k0_pay8 x0 xo4 := by
  unfold out0_B_4
  rw [View.read_writes_eq_canon _ _ _ (cover0_B_4 c i a2 h2 a3 h3 a4 h4 a5 h5 a6 h6 a7 h7 a8 h8 a9 h9 hc x0 x1 x2 x3 xo4 xo5 xo6)]
  unfold kernelRun0_B
  dsimp only
  sl_unfold_words
  rw [View.canon_unit_zero hz3]
  simp only [View.readAt_eq_ld, h2.read_unread, h6.read_unread, View.ld_unit_zero (S := S1024x1024) hz2,
    View.ld_unit_zero (S := S1x1x1024) hz3]

/-- Inside a half, the per-class block becomes the update of what it held. -/
theorem out_B_5 (hc : ¬cond0_0 i) :
    out0_B_5 c i a2 h2 a3 h3 a4 h4 a5 h5 a6 h6 a7 h7 a8 h8 a9 h9 hc x0 x1 x2 x3 xo4 xo5 xo6 = k0_pay9 x0 x1 xo5 := by
  unfold out0_B_5
  rw [View.read_writes_eq_canon _ _ _ (cover0_B_5 c i a2 h2 a3 h3 a4 h4 a5 h5 a6 h6 a7 h7 a8 h8 a9 h9 hc x0 x1 x2 x3 xo4 xo5 xo6)]
  unfold kernelRun0_B
  dsimp only
  sl_unfold_words
  rw [View.canon_unit_zero hz3]
  simp only [View.readAt_eq_ld, h2.read_unread, h3.read_unread, h7.read_unread, View.ld_unit_zero (S := S1024x1024) hz2,
    View.ld_unit_zero (S := S1024x1) hz2, View.ld_unit_zero (S := S1x1024x1024) hz3]

/-- Inside a half, the count block becomes the update of what it held. -/
theorem out_B_6 (hc : ¬cond0_0 i) :
    out0_B_6 c i a2 h2 a3 h3 a4 h4 a5 h5 a6 h6 a7 h7 a8 h8 a9 h9 hc x0 x1 x2 x3 xo4 xo5 xo6 = k0_pay1 (k0_pay10 xo6) (k0_pay11 x1) := by
  unfold out0_B_6
  rw [View.read_writes_eq_canon _ _ _ (cover0_B_6 c i a2 h2 a3 h3 a4 h4 a5 h5 a6 h6 a7 h7 a8 h8 a9 h9 hc x0 x1 x2 x3 xo4 xo5 xo6)]
  unfold kernelRun0_B
  dsimp only
  sl_unfold_words
  rw [View.canon_unit_zero hz3]
  simp only [View.readAt_eq_ld, h3.read_unread, h8.read_unread, View.ld_unit_zero (S := S1024x1) hz2,
    View.ld_unit_zero (S := S1x1x1024) hz3]

/-- At the first point of a half, the column-sum block is the update of the zero block. -/
theorem out_A_4 (hc : cond0_0 i) :
    out0_A_4 c i a2 h2 a3 h3 a4 h4 a5 h5 a6 h6 a7 h7 a8 h8 a9 h9 hc x0 x1 x2 x3 = k0_pay8 x0 k0_pay3 := by
  unfold out0_A_4
  rw [View.read_writes_eq_canon _ _ _ (cover0_A_4 c i a2 h2 a3 h3 a4 h4 a5 h5 a6 h6 a7 h7 a8 h8 a9 h9 hc x0 x1 x2 x3)]
  unfold kernelRun0_A
  dsimp only
  sl_unfold_words
  rw [View.canon_cons_unit_zero (S := S1x1x1024) hz3, View.readCov_unit_zero (S := S1x1x1024) _ hz3]
  simp only [View.readAt_eq_ld, h2.read_unread, View.ld_unit_zero (S := S1024x1024) hz2]

/-- At the first point of a half, the per-class block is the update of the zero block. -/
theorem out_A_5 (hc : cond0_0 i) :
    out0_A_5 c i a2 h2 a3 h3 a4 h4 a5 h5 a6 h6 a7 h7 a8 h8 a9 h9 hc x0 x1 x2 x3 = k0_pay9 x0 x1 k0_pay4 := by
  unfold out0_A_5
  rw [View.read_writes_eq_canon _ _ _ (cover0_A_5 c i a2 h2 a3 h3 a4 h4 a5 h5 a6 h6 a7 h7 a8 h8 a9 h9 hc x0 x1 x2 x3)]
  unfold kernelRun0_A
  dsimp only
  sl_unfold_words
  rw [View.canon_cons_unit_zero (S := S1x1024x1024) hz3, View.readCov_unit_zero (S := S1x1024x1024) _ hz3]
  simp only [View.readAt_eq_ld, h2.read_unread, h3.read_unread, View.ld_unit_zero (S := S1024x1024) hz2,
    View.ld_unit_zero (S := S1024x1) hz2]

/-- At the first point of a half, the count block is the update of the zero block. -/
theorem out_A_6 (hc : cond0_0 i) :
    out0_A_6 c i a2 h2 a3 h3 a4 h4 a5 h5 a6 h6 a7 h7 a8 h8 a9 h9 hc x0 x1 x2 x3 = k0_pay1 (k0_pay10 k0_pay5) (k0_pay11 x1) := by
  unfold out0_A_6
  rw [View.read_writes_eq_canon _ _ _ (cover0_A_6 c i a2 h2 a3 h3 a4 h4 a5 h5 a6 h6 a7 h7 a8 h8 a9 h9 hc x0 x1 x2 x3)]
  unfold kernelRun0_A
  dsimp only
  sl_unfold_words
  rw [View.canon_cons_unit_zero (S := S1x1x1024) hz3, View.readCov_unit_zero (S := S1x1x1024) _ hz3]
  simp only [View.readAt_eq_ld, h3.read_unread, View.ld_unit_zero (S := S1024x1) hz2]

end Pieces

/-! ## The three updates read at an entry, over the extended reals -/

section Payloads

/-- The zero word is the number zero, so the blocks a half starts from are zero everywhere. -/
theorem pay3_apply (j : S1x1x1024.Idx) : (k0_pay3 (F := Ideal)) j = 0 := by
  unfold k0_pay3
  obtain ⟨a, b, d, rfl⟩ : ∃ (a : Fin 1) (b : Fin 1) (d : Fin 1024), j = ix3 a b d := ⟨j 0, j 1, j 2, eq_ix3 j⟩
  refine (shapeCast_ab_1ab_apply _ _ a b d).trans ?_
  exact Ideal.ofBits_zero_f32
theorem pay4_apply (j : S1x1024x1024.Idx) : (k0_pay4 (F := Ideal)) j = 0 := by
  unfold k0_pay4
  obtain ⟨a, b, d, rfl⟩ : ∃ (a : Fin 1) (b : Fin 1024) (d : Fin 1024), j = ix3 a b d := ⟨j 0, j 1, j 2, eq_ix3 j⟩
  refine (shapeCast_ab_1ab_apply _ _ a b d).trans ?_
  exact Ideal.ofBits_zero_f32
theorem pay5_apply (j : S1x1x1024.Idx) : (k0_pay5 (F := Ideal)) j = 0 := by
  unfold k0_pay5
  obtain ⟨a, b, d, rfl⟩ : ∃ (a : Fin 1) (b : Fin 1) (d : Fin 1024), j = ix3 a b d := ⟨j 0, j 1, j 2, eq_ix3 j⟩
  refine (shapeCast_ab_1ab_apply _ _ a b d).trans ?_
  exact Ideal.ofBits_zero_f32

/-- The indicator block of a column of 1024 label words: entry `(r, k)` is one when row `r`'s label is class `k`. -/
theorem pay6_apply (x1 : IVec S1024x1 32) (r k : Fin 1024) :
    (k0_pay6 (F := Ideal) x1) (ix2 r k) = Cert.Spec.oh (x1 (ix2 r 0)) (BitVec.ofNat 32 k.val) := by
  unfold k0_pay6
  exact Cert.Spec.onehot_apply x1 shapeCasts_S1024x1_S1024x1 broadcasts_S1024x1_S1024x1024 iota_S1024x1024_d1_w32 natLt_1_32 r k

/-- Column sums: entry `d` of the updated block is the entry read plus the sum of column `d` of the block of rows. -/
theorem pay8_apply (x0 : FVec Ideal S1024x1024 .f32) (xo : FVec Ideal S1x1x1024 .f32) (d : Fin 1024) :
    (k0_pay8 (F := Ideal) x0 xo) (ix3 (0 : Fin 1) (0 : Fin 1) d) = xo (ix3 (0 : Fin 1) (0 : Fin 1) d) + ∑ r : Fin 1024, x0 (ix2 r d) := by
  unfold k0_pay8
  refine (shapeCast_ab_1ab_apply _ _ (0 : Fin 1) (0 : Fin 1) d).trans ?_
  refine (addf_apply _ _ _).trans ?_
  refine congrArg₂ (· + ·) ?_ ?_
  · exact shapeCast_1ab_ab_apply xo _ (0 : Fin 1) d
  · refine (shapeCast_a_1a_apply _ _ (0 : Fin 1) d).trans ?_
    refine (Ideal.multiReduction_add_single x0 0x00000000#32 reduces_S1024x1024_S1024 (.inl rfl) rfl (ix1 d)).trans ?_
    exact Finset.sum_congr rfl fun r _ => congrArg x0 (by funext a; match a with | ⟨0, _⟩ => rfl | ⟨1, _⟩ => rfl)

/-- Per-class column sums: entry `(k, d)` of the updated block is the entry read plus the sum, over the rows of the block,
    of the indicator of class `k` times the row's entry in column `d` (the product of the transposed indicator block with
    the block of rows, into a zero accumulator). -/
theorem pay9_apply (x0 : FVec Ideal S1024x1024 .f32) (x1 : IVec S1024x1 32) (xo : FVec Ideal S1x1024x1024 .f32) (k d : Fin 1024) :
    (k0_pay9 (F := Ideal) x0 x1 xo) (ix3 (0 : Fin 1) k d)
      = xo (ix3 (0 : Fin 1) k d) + ∑ r : Fin 1024, Cert.Spec.oh (x1 (ix2 r 0)) (BitVec.ofNat 32 k.val) * x0 (ix2 r d) := by
  unfold k0_pay9 k0_pay7
  refine (shapeCast_ab_1ab_apply _ _ (0 : Fin 1) k d).trans ?_
  refine (addf_apply _ _ _).trans ?_
  refine congrArg₂ (· + ·) ?_ ?_
  · exact shapeCast_1ab_ab_apply xo _ k d
  · refine (Cert.KernelIdeal.MM.matmul_tn _ _ k d).trans ?_
    exact Finset.sum_congr rfl fun r _ => congrArg (· * x0 (ix2 r d)) (pay6_apply x1 r k)

/-- Per-class counts: entry `d` of the updated block is the entry read plus the number of rows of the block of class `d`. -/
theorem pay1_apply (x1 : IVec S1024x1 32) (xo : FVec Ideal S1x1x1024 .f32) (d : Fin 1024) :
    (k0_pay1 (F := Ideal) (k0_pay10 xo) (k0_pay11 x1)) (ix3 (0 : Fin 1) (0 : Fin 1) d)
      = xo (ix3 (0 : Fin 1) (0 : Fin 1) d) + ∑ r : Fin 1024, Cert.Spec.oh (x1 (ix2 r 0)) (BitVec.ofNat 32 d.val) := by
  unfold k0_pay1 k0_pay10 k0_pay11
  refine (shapeCast_ab_1ab_apply _ _ (0 : Fin 1) (0 : Fin 1) d).trans ?_
  refine (addf_apply _ _ _).trans ?_
  refine congrArg₂ (· + ·) ?_ ?_
  · exact shapeCast_1ab_ab_apply xo _ (0 : Fin 1) d
  · refine (shapeCast_a_1a_apply _ _ (0 : Fin 1) d).trans ?_
    refine (Ideal.multiReduction_add_single (k0_pay6 (F := Ideal) x1) 0x00000000#32 reduces_S1024x1024_S1024 (.inl rfl) rfl (ix1 d)).trans ?_
    exact Finset.sum_congr rfl fun r _ => pay6_apply x1 r d

end Payloads

/-! ## Blocks of the two input arrays, and the running sums over a half

Point `t` of the grid reads rows `1024 t … 1024 t + 1023` of the batch and of the label column. A half is eight
consecutive points; the three blocks are reset at its first point, each point adds its block's contribution, and the
last point's contents are written to the half's slot of the result arrays. -/

section Blocks

/-- The block index maps, decided over the sixteen grid points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_4.index t (0 : Fin 3) = t.val / 8 ∧ win0_4.index t (1 : Fin 3) = 0 ∧ win0_4.index t (2 : Fin 3) = 0
    ∧ win0_5.index t (0 : Fin 3) = t.val / 8 ∧ win0_5.index t (1 : Fin 3) = 0 ∧ win0_5.index t (2 : Fin 3) = 0
    ∧ win0_6.index t (0 : Fin 3) = t.val / 8 ∧ win0_6.index t (1 : Fin 3) = 0 ∧ win0_6.index t (2 : Fin 3) = 0 :=
  (by decide +kernel : ∀ t : Fin grid0.N, _)

/-- Row `r` of the block of rows point `t` reads (taken modulo the batch size so that it is defined for every `t`;
    for the sixteen points of the grid nothing wraps). -/
def brow (t : ℕ) (r : Fin 1024) : Fin 16384 := ⟨(1024 * t + r.val) % 16384, Nat.mod_lt _ (by decide)⟩

/-- Block `k` of half `q` is the block of point `8 q + k`. -/
theorem brow_eq_row (q : Fin 2) (k : Fin 8) (r : Fin 1024) : brow (8 * q.val + k.val) r = Cert.Spec.row q k r := by
  apply Fin.ext
  show (1024 * (8 * q.val + k.val) + r.val) % 16384 = 1024 * (8 * q.val + k.val) + r.val
  have := q.isLt; have := k.isLt; have := r.isLt
  omega

/-- The arrays and the blocks, at their literal types. -/
abbrev xarr (c : Dev nD) : FVec Ideal Cert.Spec.S16384x1024 .f32 := V c main_arg0
abbrev larr (c : Dev nD) : IVec Cert.Spec.S16384x1 32 := V c main_v0
abbrev xblk (c : Dev nD) (t : Fin cfg0.N) : FVec Ideal S1024x1024 .f32 := iblk0 V c 0 t
abbrev lblk (c : Dev nD) (t : Fin cfg0.N) : IVec S1024x1 32 := iblk0 V c 1 t

/-- Entry `(r, d)` of the block of rows at point `t` is entry `(1024 t + r, d)` of the batch. -/
theorem xblk_apply (c : Dev nD) (t : Fin cfg0.N) (r d : Fin 1024) :
    xblk V c t (ix2 r d) = xarr V c (ix2 (brow t.val r) d) := by
  have hN : t.val < 16 := lt_of_lt_of_eq t.isLt (show cfg0.N = 16 from N_0)
  obtain ⟨e0, e1, -⟩ := idx_facts t
  unfold xblk iblk0
  rw [View.read_apply]
  show V c main_arg0 _ = V c main_arg0 _
  refine congrArg _ (funext fun a => Fin.ext ?_)
  match a with
  | ⟨0, _⟩ => show win0_0.index t (0 : Fin 2) * 1024 + 1 * r.val = (1024 * t.val + r.val) % 16384; have := r.isLt; omega
  | ⟨1, _⟩ => show win0_0.index t (1 : Fin 2) * 1024 + 1 * d.val = d.val; omega

/-- Entry `r` of the block of labels at point `t` is entry `1024 t + r` of the label column. -/
theorem lblk_apply (c : Dev nD) (t : Fin cfg0.N) (r : Fin 1024) :
    lblk V c t (ix2 r 0) = larr V c (ix2 (brow t.val r) 0) := by
  have hN : t.val < 16 := lt_of_lt_of_eq t.isLt (show cfg0.N = 16 from N_0)
  obtain ⟨-, -, e0, e1, -⟩ := idx_facts t
  unfold lblk iblk0
  rw [View.read_apply]
  show V c main_v0 _ = V c main_v0 _
  refine congrArg _ (funext fun a => Fin.ext ?_)
  match a with
  | ⟨0, _⟩ => show win0_1.index t (0 : Fin 2) * 1024 + 1 * r.val = (1024 * t.val + r.val) % 16384; have := r.isLt; omega
  | ⟨1, _⟩ => show win0_1.index t (1 : Fin 2) * 1 + 1 * 0 = 0; omega

end Blocks

/-! ## The column sums (result 0) -/

section Acc4

/-- What point `n` adds to entry `j` of the column-sum block: the sum of column `j₂` over the point's rows. -/
def add4 (c : Dev nD) (n : ℕ) (j : S1x1x1024.Idx) : EReal := ∑ r : Fin 1024, xarr V c (ix2 (brow n r) (j 2))

theorem acc4_reset (c : Dev nD) (n : ℕ) (h : n < cfg0.N) (h0 : n % 8 = 0) :
    (outsAt0 V c n h).1 = k0_pay8 (F := Ideal) (xblk V c ⟨n, h⟩) (k0_pay3 (F := Ideal)) := by
  rw [outsAt0_A V c ⟨n, h⟩ h0]
  dsimp only
  exact out_A_4 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩)
    (iblk0 V c 0 ⟨n, h⟩) (iblk0 V c 1 ⟨n, h⟩) (iblk0 V c 2 ⟨n, h⟩) (iblk0 V c 3 ⟨n, h⟩) ((hcond0_0 ⟨n, h⟩).mpr h0)

theorem acc4_step (c : Dev nD) (n : ℕ) (h : n + 1 < cfg0.N) (h0 : ¬(n + 1) % 8 = 0) :
    (outsAt0 V c (n + 1) h).1 = k0_pay8 (F := Ideal) (xblk V c ⟨n + 1, h⟩) (outsAt0 V c n (Nat.lt_of_succ_lt h)).1 := by
  rw [outsAt0_B V c ⟨n + 1, h⟩ h0]
  dsimp only
  exact out_B_4 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩)
    (iblk0 V c 0 ⟨n + 1, h⟩) (iblk0 V c 1 ⟨n + 1, h⟩) (iblk0 V c 2 ⟨n + 1, h⟩) (iblk0 V c 3 ⟨n + 1, h⟩)
    (outsAt0 V c n (Nat.lt_of_succ_lt h)).1 (outsAt0 V c n (Nat.lt_of_succ_lt h)).2.1 (outsAt0 V c n (Nat.lt_of_succ_lt h)).2.2.1
    (fun hh => h0 ((hcond0_0 ⟨n + 1, h⟩).mp hh))

end Acc4

section Fin4

/-- One point's update of the column-sum block, at an entry: what was there plus the point's contribution. -/
theorem upd4_apply (c : Dev nD) (n : ℕ) (h : n < cfg0.N) (acc : FVec Ideal S1x1x1024 .f32) (j : S1x1x1024.Idx) :
    k0_pay8 (F := Ideal) (xblk V c ⟨n, h⟩) acc j = acc j + add4 V c n j := by
  obtain ⟨a, b, d, rfl⟩ : ∃ (a : Fin 1) (b : Fin 1) (d : Fin 1024), j = ix3 a b d := ⟨j 0, j 1, j 2, eq_ix3 j⟩
  obtain rfl : a = 0 := Subsingleton.elim _ _
  obtain rfl : b = 0 := Subsingleton.elim _ _
  refine (pay8_apply (xblk V c ⟨n, h⟩) acc d).trans ?_
  refine congrArg (acc (ix3 (0 : Fin 1) (0 : Fin 1) d) + ·) ?_
  unfold add4
  exact Finset.sum_congr rfl fun r _ => xblk_apply V c ⟨n, h⟩ r d

/-- After point `t` the column-sum block holds the contributions of the points of `t`'s half up to `t`, added up. -/
theorem acc4_eq (c : Dev nD) (t : ℕ) (ht : t < cfg0.N) (j : S1x1x1024.Idx) :
    ((outsAt0 V c t ht).1 : FVec Ideal S1x1x1024 .f32) j = ∑ s ∈ Finset.range (t % 8 + 1), add4 V c (8 * (t / 8) + s) j := by
  have hN : cfg0.N = 16 := N_0
  have h' : 8 * (t / 8) + t % 8 < cfg0.N := by omega
  refine (congrFun (Pipeline.eq_accAt_of_mod (N := cfg0.N) (fun n h => ((outsAt0 V c n h).1 : FVec Ideal S1x1x1024 .f32)) 8
    (fun n h => k0_pay8 (F := Ideal) (xblk V c ⟨n, h⟩) (k0_pay3 (F := Ideal)))
    (fun n h acc => k0_pay8 (F := Ideal) (xblk V c ⟨n, h⟩) acc)
    (fun n h h0 => acc4_reset V c n h h0) (fun n h h0 => acc4_step V c n h h0) (by decide) t ht h') j).trans ?_
  refine (Pipeline.accAt_add_apply (N := cfg0.N) (fun n h => k0_pay8 (F := Ideal) (xblk V c ⟨n, h⟩) (k0_pay3 (F := Ideal)))
    (fun n h acc => k0_pay8 (F := Ideal) (xblk V c ⟨n, h⟩) acc) (fun _ => (0 : EReal)) (add4 V c) (8 * (t / 8)) (t % 8)
    (fun h i => (upd4_apply V c _ h _ i).trans (congrArg (· + add4 V c _ i) (pay3_apply i)))
    (fun n h acc i _ _ => upd4_apply V c n h acc i) (t % 8) le_rfl h' j).trans ?_
  exact zero_add _

/-- An index of result 0 is in point `t`'s block iff each coordinate is in the block's range on its axis. -/
theorem mem_blk4 (t : Fin cfg0.N) (i : S2x1x1024.Idx) :
    i ∈ ((cfg0.win 4).blk t).view.set ↔ ∀ a : Fin 3, win0_4.index t a * S1x1x1024.size a ≤ (i a).val ∧ (i a).val < win0_4.index t a * S1x1x1024.size a + S1x1x1024.size a := by
  show i ∈ ((View.whole main_v2_0).slice (win0_4.rect t)).set ↔ _
  rw [View.set_slice_whole, Rect.mem_set_unit]
  exact Iff.rfl

/-- The last point of a half writes that half's column sums into the half's slot. -/
theorem flushed4_eq (c : Dev nD) (t : Fin cfg0.N) (hf : (cfg0.win 4).flush t = true) :
    (dat0 V c).flushed 4 t = ((cfg0.win 4).blk t).view.read (Elt Ideal) (Cert.Spec.half4 (V c main_arg0)) := by
  have hN : t.val < 16 := lt_of_lt_of_eq t.isLt (show cfg0.N = 16 from N_0)
  have h7 : t.val % 8 = 7 := (flush0_4 t).mp hf
  obtain ⟨-, -, -, -, e0, e1, e2, -⟩ := idx_facts t
  show (cfg0.win 4).cut (grid0.coords t) ((dat0 V c).after 4 t) = _
  rw [after0_4]
  funext j
  rw [View.read_apply]
  show ((outsAt0 V c t.val t.isLt).1 : FVec Ideal S1x1x1024 .f32) j = Cert.Spec.half4 (V c main_arg0) (((cfg0.win 4).blk t).view.emb j)
  have hj0 : (j 0).val < 1 := (j 0).isLt
  have hj1 : (j 1).val < 1 := (j 1).isLt
  have hemb : ((cfg0.win 4).blk t).view.emb j = ix3 (⟨t.val / 8, by omega⟩ : Fin 2) (0 : Fin 1) (j 2) := by
    funext a; apply Fin.ext
    match a with
    | ⟨0, _⟩ => show win0_4.index t (0 : Fin 3) * 1 + 1 * (j 0).val = t.val / 8; omega
    | ⟨1, _⟩ => show win0_4.index t (1 : Fin 3) * 1 + 1 * (j 1).val = 0; omega
    | ⟨2, _⟩ => show win0_4.index t (2 : Fin 3) * 1024 + 1 * (j 2).val = (j 2).val; omega
  refine (acc4_eq V c t.val t.isLt j).trans ?_
  refine Eq.trans ?_ (congrArg (Cert.Spec.half4 (V c main_arg0)) hemb.symm)
  rw [h7, Finset.sum_range]
  show _ = ∑ k : Fin 8, ∑ r : Fin 1024, xarr V c (ix2 (Cert.Spec.row (⟨t.val / 8, by omega⟩ : Fin 2) k r) (j 2))
  refine Finset.sum_congr rfl fun k _ => Finset.sum_congr rfl fun r _ => ?_
  rw [← brow_eq_row (⟨t.val / 8, by omega⟩ : Fin 2) k r]

end Fin4

/-- Result 0 (2 × 1 × 1024): half `q`'s column sums of `x`. -/
theorem arr4 (c : Dev nD) : (dat0 V c).arrAt 4 cfg0.N = Cert.Spec.half4 (V c main_arg0) :=
  (dat0 V c).arrAt_eq_of_cover 4 (Cert.Spec.half4 (V c main_arg0)) (fun t hf => flushed4_eq V c t hf) fun i => by
    have hi0 : (i 0 : Nat) < 2 := (i 0).isLt
    have hi1 : (i 1 : Nat) < 1 := (i 1).isLt
    have hi2 : (i 2 : Nat) < 1024 := (i 2).isLt
    have hN : cfg0.N = 16 := N_0
    have ht : 8 * (i 0 : Nat) + 7 < cfg0.N := by omega
    obtain ⟨-, -, -, -, e0, e1, e2, -⟩ := idx_facts ⟨8 * (i 0 : Nat) + 7, ht⟩
    refine ⟨⟨8 * (i 0 : Nat) + 7, ht⟩, (flush0_4 _).mpr (by show (8 * (i 0 : Nat) + 7) % 8 = 7; omega), ?_⟩
    rw [mem_blk4]
    intro a
    match a with
    | ⟨0, _⟩ => show win0_4.index ⟨8 * (i 0 : Nat) + 7, ht⟩ (0 : Fin 3) * 1 ≤ (i 0 : Nat) ∧ (i 0 : Nat) < win0_4.index ⟨8 * (i 0 : Nat) + 7, ht⟩ (0 : Fin 3) * 1 + 1
                rw [e0]; show (8 * (i 0 : Nat) + 7) / 8 * 1 ≤ (i 0 : Nat) ∧ (i 0 : Nat) < (8 * (i 0 : Nat) + 7) / 8 * 1 + 1; omega
    | ⟨1, _⟩ => show win0_4.index ⟨8 * (i 0 : Nat) + 7, ht⟩ (1 : Fin 3) * 1 ≤ (i 1 : Nat) ∧ (i 1 : Nat) < win0_4.index ⟨8 * (i 0 : Nat) + 7, ht⟩ (1 : Fin 3) * 1 + 1
                rw [e1]; omega
    | ⟨2, _⟩ => show win0_4.index ⟨8 * (i 0 : Nat) + 7, ht⟩ (2 : Fin 3) * 1024 ≤ (i 2 : Nat) ∧ (i 2 : Nat) < win0_4.index ⟨8 * (i 0 : Nat) + 7, ht⟩ (2 : Fin 3) * 1024 + 1024
                rw [e2]; omega

/-! ## The per-class column sums (result 1) -/

section Acc5

/-- What point `n` adds to entry `j` of the per-class block: over the point's rows, the indicator of class `j₁` times
    the row's entry in column `j₂`. -/
def add5 (c : Dev nD) (n : ℕ) (j : S1x1024x1024.Idx) : EReal :=
  ∑ r : Fin 1024, Cert.Spec.oh (larr V c (ix2 (brow n r) 0)) (BitVec.ofNat 32 (j 1).val) * xarr V c (ix2 (brow n r) (j 2))

theorem acc5_reset (c : Dev nD) (n : ℕ) (h : n < cfg0.N) (h0 : n % 8 = 0) :
    (outsAt0 V c n h).2.1 = k0_pay9 (F := Ideal) (xblk V c ⟨n, h⟩) (lblk V c ⟨n, h⟩) (k0_pay4 (F := Ideal)) := by
  rw [outsAt0_A V c ⟨n, h⟩ h0]
  dsimp only
  exact out_A_5 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩)
    (iblk0 V c 0 ⟨n, h⟩) (iblk0 V c 1 ⟨n, h⟩) (iblk0 V c 2 ⟨n, h⟩) (iblk0 V c 3 ⟨n, h⟩) ((hcond0_0 ⟨n, h⟩).mpr h0)

theorem acc5_step (c : Dev nD) (n : ℕ) (h : n + 1 < cfg0.N) (h0 : ¬(n + 1) % 8 = 0) :
    (outsAt0 V c (n + 1) h).2.1 = k0_pay9 (F := Ideal) (xblk V c ⟨n + 1, h⟩) (lblk V c ⟨n + 1, h⟩) (outsAt0 V c n (Nat.lt_of_succ_lt h)).2.1 := by
  rw [outsAt0_B V c ⟨n + 1, h⟩ h0]
  dsimp only
  exact out_B_5 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩)
    (iblk0 V c 0 ⟨n + 1, h⟩) (iblk0 V c 1 ⟨n + 1, h⟩) (iblk0 V c 2 ⟨n + 1, h⟩) (iblk0 V c 3 ⟨n + 1, h⟩)
    (outsAt0 V c n (Nat.lt_of_succ_lt h)).1 (outsAt0 V c n (Nat.lt_of_succ_lt h)).2.1 (outsAt0 V c n (Nat.lt_of_succ_lt h)).2.2.1
    (fun hh => h0 ((hcond0_0 ⟨n + 1, h⟩).mp hh))

/-- One point's update of the per-class block, at an entry: what was there plus the point's contribution. -/
theorem upd5_apply (c : Dev nD) (n : ℕ) (h : n < cfg0.N) (acc : FVec Ideal S1x1024x1024 .f32) (j : S1x1024x1024.Idx) :
    k0_pay9 (F := Ideal) (xblk V c ⟨n, h⟩) (lblk V c ⟨n, h⟩) acc j = acc j + add5 V c n j := by
  obtain ⟨a, k, d, rfl⟩ : ∃ (a : Fin 1) (k : Fin 1024) (d : Fin 1024), j = ix3 a k d := ⟨j 0, j 1, j 2, eq_ix3 j⟩
  obtain rfl : a = 0 := Subsingleton.elim _ _
  refine (pay9_apply (xblk V c ⟨n, h⟩) (lblk V c ⟨n, h⟩) acc k d).trans ?_
  refine congrArg (acc (ix3 (0 : Fin 1) k d) + ·) ?_
  unfold add5
  exact Finset.sum_congr rfl fun r _ =>
    congrArg₂ (fun (l : BitVec 32) (x : EReal) => Cert.Spec.oh l (BitVec.ofNat 32 k.val) * x) (lblk_apply V c ⟨n, h⟩ r) (xblk_apply V c ⟨n, h⟩ r d)

/-- After point `t` the per-class block holds the contributions of the points of `t`'s half up to `t`, added up. -/
theorem acc5_eq (c : Dev nD) (t : ℕ) (ht : t < cfg0.N) (j : S1x1024x1024.Idx) :
    ((outsAt0 V c t ht).2.1 : FVec Ideal S1x1024x1024 .f32) j = ∑ s ∈ Finset.range (t % 8 + 1), add5 V c (8 * (t / 8) + s) j := by
  have hN : cfg0.N = 16 := N_0
  have h' : 8 * (t / 8) + t % 8 < cfg0.N := by omega
  refine (congrFun (Pipeline.eq_accAt_of_mod (N := cfg0.N) (fun n h => ((outsAt0 V c n h).2.1 : FVec Ideal S1x1024x1024 .f32)) 8
    (fun n h => k0_pay9 (F := Ideal) (xblk V c ⟨n, h⟩) (lblk V c ⟨n, h⟩) (k0_pay4 (F := Ideal)))
    (fun n h acc => k0_pay9 (F := Ideal) (xblk V c ⟨n, h⟩) (lblk V c ⟨n, h⟩) acc)
    (fun n h h0 => acc5_reset V c n h h0) (fun n h h0 => acc5_step V c n h h0) (by decide) t ht h') j).trans ?_
  refine (Pipeline.accAt_add_apply (N := cfg0.N) (fun n h => k0_pay9 (F := Ideal) (xblk V c ⟨n, h⟩) (lblk V c ⟨n, h⟩) (k0_pay4 (F := Ideal)))
    (fun n h acc => k0_pay9 (F := Ideal) (xblk V c ⟨n, h⟩) (lblk V c ⟨n, h⟩) acc) (fun _ => (0 : EReal)) (add5 V c) (8 * (t / 8)) (t % 8)
    (fun h i => (upd5_apply V c _ h _ i).trans (congrArg (· + add5 V c _ i) (pay4_apply i)))
    (fun n h acc i _ _ => upd5_apply V c n h acc i) (t % 8) le_rfl h' j).trans ?_
  exact zero_add _

/-- An index of result 1 is in point `t`'s block iff each coordinate is in the block's range on its axis. -/
theorem mem_blk5 (t : Fin cfg0.N) (i : S2x1024x1024.Idx) :
    i ∈ ((cfg0.win 5).blk t).view.set ↔ ∀ a : Fin 3, win0_5.index t a * S1x1024x1024.size a ≤ (i a).val ∧ (i a).val < win0_5.index t a * S1x1024x1024.size a + S1x1024x1024.size a := by
  show i ∈ ((View.whole main_v2_1).slice (win0_5.rect t)).set ↔ _
  rw [View.set_slice_whole, Rect.mem_set_unit]
  exact Iff.rfl

/-- The last point of a half writes that half's per-class column sums into the half's slot. -/
theorem flushed5_eq (c : Dev nD) (t : Fin cfg0.N) (hf : (cfg0.win 5).flush t = true) :
    (dat0 V c).flushed 5 t = ((cfg0.win 5).blk t).view.read (Elt Ideal) (Cert.Spec.half5 (V c main_arg0) (V c main_v0)) := by
  have hN : t.val < 16 := lt_of_lt_of_eq t.isLt (show cfg0.N = 16 from N_0)
  have h7 : t.val % 8 = 7 := (flush0_5 t).mp hf
  obtain ⟨-, -, -, -, -, -, -, e0, e1, e2, -⟩ := idx_facts t
  show (cfg0.win 5).cut (grid0.coords t) ((dat0 V c).after 5 t) = _
  rw [after0_5]
  funext j
  rw [View.read_apply]
  show ((outsAt0 V c t.val t.isLt).2.1 : FVec Ideal S1x1024x1024 .f32) j = Cert.Spec.half5 (V c main_arg0) (V c main_v0) (((cfg0.win 5).blk t).view.emb j)
  have hj0 : (j 0).val < 1 := (j 0).isLt
  have hemb : ((cfg0.win 5).blk t).view.emb j = ix3 (⟨t.val / 8, by omega⟩ : Fin 2) (j 1) (j 2) := by
    funext a; apply Fin.ext
    match a with
    | ⟨0, _⟩ => show win0_5.index t (0 : Fin 3) * 1 + 1 * (j 0).val = t.val / 8; omega
    | ⟨1, _⟩ => show win0_5.index t (1 : Fin 3) * 1024 + 1 * (j 1).val = (j 1).val; omega
    | ⟨2, _⟩ => show win0_5.index t (2 : Fin 3) * 1024 + 1 * (j 2).val = (j 2).val; omega
  refine (acc5_eq V c t.val t.isLt j).trans ?_
  refine Eq.trans ?_ (congrArg (Cert.Spec.half5 (V c main_arg0) (V c main_v0)) hemb.symm)
  rw [h7, Finset.sum_range]
  show _ = ∑ k : Fin 8, ∑ r : Fin 1024, Cert.Spec.oh (larr V c (ix2 (Cert.Spec.row (⟨t.val / 8, by omega⟩ : Fin 2) k r) 0)) (BitVec.ofNat 32 (j 1).val)
      * xarr V c (ix2 (Cert.Spec.row (⟨t.val / 8, by omega⟩ : Fin 2) k r) (j 2))
  refine Finset.sum_congr rfl fun k _ => Finset.sum_congr rfl fun r _ => ?_
  rw [← brow_eq_row (⟨t.val / 8, by omega⟩ : Fin 2) k r]

end Acc5

/-- Result 1 (2 × 1024 × 1024): half `q`'s column sums of `x` over the rows of each class. -/
theorem arr5 (c : Dev nD) : (dat0 V c).arrAt 5 cfg0.N = Cert.Spec.half5 (V c main_arg0) (V c main_v0) :=
  (dat0 V c).arrAt_eq_of_cover 5 (Cert.Spec.half5 (V c main_arg0) (V c main_v0)) (fun t hf => flushed5_eq V c t hf) fun i => by
    have hi0 : (i 0 : Nat) < 2 := (i 0).isLt
    have hi1 : (i 1 : Nat) < 1024 := (i 1).isLt
    have hi2 : (i 2 : Nat) < 1024 := (i 2).isLt
    have hN : cfg0.N = 16 := N_0
    have ht : 8 * (i 0 : Nat) + 7 < cfg0.N := by omega
    obtain ⟨-, -, -, -, -, -, -, e0, e1, e2, -⟩ := idx_facts ⟨8 * (i 0 : Nat) + 7, ht⟩
    refine ⟨⟨8 * (i 0 : Nat) + 7, ht⟩, (flush0_5 _).mpr (by show (8 * (i 0 : Nat) + 7) % 8 = 7; omega), ?_⟩
    rw [mem_blk5]
    intro a
    match a with
    | ⟨0, _⟩ => show win0_5.index ⟨8 * (i 0 : Nat) + 7, ht⟩ (0 : Fin 3) * 1 ≤ (i 0 : Nat) ∧ (i 0 : Nat) < win0_5.index ⟨8 * (i 0 : Nat) + 7, ht⟩ (0 : Fin 3) * 1 + 1
                rw [e0]; show (8 * (i 0 : Nat) + 7) / 8 * 1 ≤ (i 0 : Nat) ∧ (i 0 : Nat) < (8 * (i 0 : Nat) + 7) / 8 * 1 + 1; omega
    | ⟨1, _⟩ => show win0_5.index ⟨8 * (i 0 : Nat) + 7, ht⟩ (1 : Fin 3) * 1024 ≤ (i 1 : Nat) ∧ (i 1 : Nat) < win0_5.index ⟨8 * (i 0 : Nat) + 7, ht⟩ (1 : Fin 3) * 1024 + 1024
                rw [e1]; omega
    | ⟨2, _⟩ => show win0_5.index ⟨8 * (i 0 : Nat) + 7, ht⟩ (2 : Fin 3) * 1024 ≤ (i 2 : Nat) ∧ (i 2 : Nat) < win0_5.index ⟨8 * (i 0 : Nat) + 7, ht⟩ (2 : Fin 3) * 1024 + 1024
                rw [e2]; omega

/-! ## The per-class counts (result 2) -/

section Acc6

/-- What point `n` adds to entry `j` of the count block: the number of the point's rows of class `j₂`. -/
def add6 (c : Dev nD) (n : ℕ) (j : S1x1x1024.Idx) : EReal :=
  ∑ r : Fin 1024, Cert.Spec.oh (larr V c (ix2 (brow n r) 0)) (BitVec.ofNat 32 (j 2).val)

theorem acc6_reset (c : Dev nD) (n : ℕ) (h : n < cfg0.N) (h0 : n % 8 = 0) :
    (outsAt0 V c n h).2.2.1 = k0_pay1 (F := Ideal) (k0_pay10 (F := Ideal) (k0_pay5 (F := Ideal))) (k0_pay11 (F := Ideal) (lblk V c ⟨n, h⟩)) := by
  rw [outsAt0_A V c ⟨n, h⟩ h0]
  dsimp only
  exact out_A_6 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩)
    (iblk0 V c 0 ⟨n, h⟩) (iblk0 V c 1 ⟨n, h⟩) (iblk0 V c 2 ⟨n, h⟩) (iblk0 V c 3 ⟨n, h⟩) ((hcond0_0 ⟨n, h⟩).mpr h0)

theorem acc6_step (c : Dev nD) (n : ℕ) (h : n + 1 < cfg0.N) (h0 : ¬(n + 1) % 8 = 0) :
    (outsAt0 V c (n + 1) h).2.2.1 = k0_pay1 (F := Ideal) (k0_pay10 (F := Ideal) (outsAt0 V c n (Nat.lt_of_succ_lt h)).2.2.1) (k0_pay11 (F := Ideal) (lblk V c ⟨n + 1, h⟩)) := by
  rw [outsAt0_B V c ⟨n + 1, h⟩ h0]
  dsimp only
  exact out_B_6 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩)
    (iblk0 V c 0 ⟨n + 1, h⟩) (iblk0 V c 1 ⟨n + 1, h⟩) (iblk0 V c 2 ⟨n + 1, h⟩) (iblk0 V c 3 ⟨n + 1, h⟩)
    (outsAt0 V c n (Nat.lt_of_succ_lt h)).1 (outsAt0 V c n (Nat.lt_of_succ_lt h)).2.1 (outsAt0 V c n (Nat.lt_of_succ_lt h)).2.2.1
    (fun hh => h0 ((hcond0_0 ⟨n + 1, h⟩).mp hh))

/-- One point's update of the count block, at an entry: what was there plus the point's contribution. -/
theorem upd6_apply (c : Dev nD) (n : ℕ) (h : n < cfg0.N) (acc : FVec Ideal S1x1x1024 .f32) (j : S1x1x1024.Idx) :
    k0_pay1 (F := Ideal) (k0_pay10 (F := Ideal) acc) (k0_pay11 (F := Ideal) (lblk V c ⟨n, h⟩)) j = acc j + add6 V c n j := by
  obtain ⟨a, b, d, rfl⟩ : ∃ (a : Fin 1) (b : Fin 1) (d : Fin 1024), j = ix3 a b d := ⟨j 0, j 1, j 2, eq_ix3 j⟩
  obtain rfl : a = 0 := Subsingleton.elim _ _
  obtain rfl : b = 0 := Subsingleton.elim _ _
  refine (pay1_apply (lblk V c ⟨n, h⟩) acc d).trans ?_
  refine congrArg (acc (ix3 (0 : Fin 1) (0 : Fin 1) d) + ·) ?_
  unfold add6
  exact Finset.sum_congr rfl fun r _ =>
    congrArg (fun (l : BitVec 32) => Cert.Spec.oh l (BitVec.ofNat 32 d.val)) (lblk_apply V c ⟨n, h⟩ r)

/-- After point `t` the count block holds the contributions of the points of `t`'s half up to `t`, added up. -/
theorem acc6_eq (c : Dev nD) (t : ℕ) (ht : t < cfg0.N) (j : S1x1x1024.Idx) :
    ((outsAt0 V c t ht).2.2.1 : FVec Ideal S1x1x1024 .f32) j = ∑ s ∈ Finset.range (t % 8 + 1), add6 V c (8 * (t / 8) + s) j := by
  have hN : cfg0.N = 16 := N_0
  have h' : 8 * (t / 8) + t % 8 < cfg0.N := by omega
  refine (congrFun (Pipeline.eq_accAt_of_mod (N := cfg0.N) (fun n h => ((outsAt0 V c n h).2.2.1 : FVec Ideal S1x1x1024 .f32)) 8
    (fun n h => k0_pay1 (F := Ideal) (k0_pay10 (F := Ideal) (k0_pay5 (F := Ideal))) (k0_pay11 (F := Ideal) (lblk V c ⟨n, h⟩)))
    (fun n h acc => k0_pay1 (F := Ideal) (k0_pay10 (F := Ideal) acc) (k0_pay11 (F := Ideal) (lblk V c ⟨n, h⟩)))
    (fun n h h0 => acc6_reset V c n h h0) (fun n h h0 => acc6_step V c n h h0) (by decide) t ht h') j).trans ?_
  refine (Pipeline.accAt_add_apply (N := cfg0.N) (fun n h => k0_pay1 (F := Ideal) (k0_pay10 (F := Ideal) (k0_pay5 (F := Ideal))) (k0_pay11 (F := Ideal) (lblk V c ⟨n, h⟩)))
    (fun n h acc => k0_pay1 (F := Ideal) (k0_pay10 (F := Ideal) acc) (k0_pay11 (F := Ideal) (lblk V c ⟨n, h⟩))) (fun _ => (0 : EReal)) (add6 V c) (8 * (t / 8)) (t % 8)
    (fun h i => (upd6_apply V c _ h _ i).trans (congrArg (· + add6 V c _ i) (pay5_apply i)))
    (fun n h acc i _ _ => upd6_apply V c n h acc i) (t % 8) le_rfl h' j).trans ?_
  exact zero_add _

/-- An index of result 2 is in point `t`'s block iff each coordinate is in the block's range on its axis. -/
theorem mem_blk6 (t : Fin cfg0.N) (i : S2x1x1024.Idx) :
    i ∈ ((cfg0.win 6).blk t).view.set ↔ ∀ a : Fin 3, win0_6.index t a * S1x1x1024.size a ≤ (i a).val ∧ (i a).val < win0_6.index t a * S1x1x1024.size a + S1x1x1024.size a := by
  show i ∈ ((View.whole main_v2_2).slice (win0_6.rect t)).set ↔ _
  rw [View.set_slice_whole, Rect.mem_set_unit]
  exact Iff.rfl

/-- The last point of a half writes that half's per-class counts into the half's slot. -/
theorem flushed6_eq (c : Dev nD) (t : Fin cfg0.N) (hf : (cfg0.win 6).flush t = true) :
    (dat0 V c).flushed 6 t = ((cfg0.win 6).blk t).view.read (Elt Ideal) (Cert.Spec.half6 (V c main_v0)) := by
  have hN : t.val < 16 := lt_of_lt_of_eq t.isLt (show cfg0.N = 16 from N_0)
  have h7 : t.val % 8 = 7 := (flush0_6 t).mp hf
  obtain ⟨-, -, -, -, -, -, -, -, -, -, e0, e1, e2⟩ := idx_facts t
  show (cfg0.win 6).cut (grid0.coords t) ((dat0 V c).after 6 t) = _
  rw [after0_6]
  funext j
  rw [View.read_apply]
  show ((outsAt0 V c t.val t.isLt).2.2.1 : FVec Ideal S1x1x1024 .f32) j = Cert.Spec.half6 (V c main_v0) (((cfg0.win 6).blk t).view.emb j)
  have hj0 : (j 0).val < 1 := (j 0).isLt
  have hj1 : (j 1).val < 1 := (j 1).isLt
  have hemb : ((cfg0.win 6).blk t).view.emb j = ix3 (⟨t.val / 8, by omega⟩ : Fin 2) (0 : Fin 1) (j 2) := by
    funext a; apply Fin.ext
    match a with
    | ⟨0, _⟩ => show win0_6.index t (0 : Fin 3) * 1 + 1 * (j 0).val = t.val / 8; omega
    | ⟨1, _⟩ => show win0_6.index t (1 : Fin 3) * 1 + 1 * (j 1).val = 0; omega
    | ⟨2, _⟩ => show win0_6.index t (2 : Fin 3) * 1024 + 1 * (j 2).val = (j 2).val; omega
  refine (acc6_eq V c t.val t.isLt j).trans ?_
  refine Eq.trans ?_ (congrArg (Cert.Spec.half6 (V c main_v0)) hemb.symm)
  rw [h7, Finset.sum_range]
  show _ = ∑ k : Fin 8, ∑ r : Fin 1024, Cert.Spec.oh (larr V c (ix2 (Cert.Spec.row (⟨t.val / 8, by omega⟩ : Fin 2) k r) 0)) (BitVec.ofNat 32 (j 2).val)
  refine Finset.sum_congr rfl fun k _ => Finset.sum_congr rfl fun r _ => ?_
  rw [← brow_eq_row (⟨t.val / 8, by omega⟩ : Fin 2) k r]

end Acc6

/-- Result 2 (2 × 1 × 1024): half `q`'s number of rows of each class. -/
theorem arr6 (c : Dev nD) : (dat0 V c).arrAt 6 cfg0.N = Cert.Spec.half6 (V c main_v0) :=
  (dat0 V c).arrAt_eq_of_cover 6 (Cert.Spec.half6 (V c main_v0)) (fun t hf => flushed6_eq V c t hf) fun i => by
    have hi0 : (i 0 : Nat) < 2 := (i 0).isLt
    have hi1 : (i 1 : Nat) < 1 := (i 1).isLt
    have hi2 : (i 2 : Nat) < 1024 := (i 2).isLt
    have hN : cfg0.N = 16 := N_0
    have ht : 8 * (i 0 : Nat) + 7 < cfg0.N := by omega
    obtain ⟨-, -, -, -, -, -, -, -, -, -, e0, e1, e2⟩ := idx_facts ⟨8 * (i 0 : Nat) + 7, ht⟩
    refine ⟨⟨8 * (i 0 : Nat) + 7, ht⟩, (flush0_6 _).mpr (by show (8 * (i 0 : Nat) + 7) % 8 = 7; omega), ?_⟩
    rw [mem_blk6]
    intro a
    match a with
    | ⟨0, _⟩ => show win0_6.index ⟨8 * (i 0 : Nat) + 7, ht⟩ (0 : Fin 3) * 1 ≤ (i 0 : Nat) ∧ (i 0 : Nat) < win0_6.index ⟨8 * (i 0 : Nat) + 7, ht⟩ (0 : Fin 3) * 1 + 1
                rw [e0]; show (8 * (i 0 : Nat) + 7) / 8 * 1 ≤ (i 0 : Nat) ∧ (i 0 : Nat) < (8 * (i 0 : Nat) + 7) / 8 * 1 + 1; omega
    | ⟨1, _⟩ => show win0_6.index ⟨8 * (i 0 : Nat) + 7, ht⟩ (1 : Fin 3) * 1 ≤ (i 1 : Nat) ∧ (i 1 : Nat) < win0_6.index ⟨8 * (i 0 : Nat) + 7, ht⟩ (1 : Fin 3) * 1 + 1
                rw [e1]; omega
    | ⟨2, _⟩ => show win0_6.index ⟨8 * (i 0 : Nat) + 7, ht⟩ (2 : Fin 3) * 1024 ≤ (i 2 : Nat) ∧ (i 2 : Nat) < win0_6.index ⟨8 * (i 0 : Nat) + 7, ht⟩ (2 : Fin 3) * 1024 + 1024
                rw [e2]; omega

end Cert.KernelIdeal.R0

end
-- ==== Proof.Region0Lin.lean ====
/-
  The first pass's fourth result array, read as values over the extended reals: each block of 1024 rows is the block of
  `x` through the first linear map plus its bias, whatever the point's place in the grid, so the array is `x w1ᵀ + b1`.

  At every one of the 16 points the body stores, into the block of rows `1024 t … 1024 t + 1023`, the product of the
  point's block of `x` with `w1` transposed, plus the bias row repeated down the rows. The conditional at the head of
  each half touches the three running tables only, so both cases leave the same block here. Entry `(p, q)` of that block is
  `∑ d, x (1024 t + p) d * w1 q d + b1 q`: the contraction over the 1024 columns is the plain sum over the extended
  reals, and the change of number format on the way into the product is the identity there. Every row lies in the block of
  point `row / 1024`, and every point writes its block back, so the blocks fill the array.
-/
import proofs.«406085_j19146964206107_2_alg».proof.Proof.Gen.KernelIdeal.Frame
import proofs.«406085_j19146964206107_2_alg».proof.Proof.Spec
import proofs.«406085_j19146964206107_2_alg».proof.Proof.MatmulAt
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.R0Lin

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

variable (V : (c : Dev nD) → (b : Ref sig .tc) → Buf (Elt Ideal) ((c : Thread nD τ).loc b))

/-! ## What the body leaves in the block, in either case of its conditional -/

theorem hz : (![0, 0] : Fin 2 → Nat) = fun _ => 0 := funext fun a => by fin_cases a <;> rfl

/-- At the head of a half: the one store into the block holds the product-plus-bias of the blocks loaded. -/
theorem outA_eq {F : FTy → Type} [FloatOps F] (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S256x1024 .f32) (harg4 : arg4.IsWhole) (arg5 : Memref sig .tc .vmem S1x256 .f32) (harg5 : arg5.IsWhole) (arg6 : Memref sig .tc .vmem S1x1x1024 .f32) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .vmem S1024x256 .f32) (harg9 : arg9.IsWhole) (hc0 : cond0_0 i)
    (x0 : Vec F S1024x1024 .f32) (x1 : Vec F S1024x1 .i32) (x2 : Vec F S256x1024 .f32) (x3 : Vec F S1x256 .f32) :
    out0_A_7 c i arg2 harg2 arg3 harg3 arg4 harg4 arg5 harg5 arg6 harg6 arg7 harg7 arg8 harg8 arg9 harg9 hc0 x0 x1 x2 x3 = k0_pay2 (k0_pay7 x0) x2 x3 := by
  unfold out0_A_7
  rw [View.read_writes_eq_canon _ _ _ (cover0_A_7 c i arg2 harg2 arg3 harg3 arg4 harg4 arg5 harg5 arg6 harg6 arg7 harg7 arg8 harg8 arg9 harg9 hc0 x0 x1 x2 x3)]
  unfold kernelRun0_A
  dsimp only
  sl_unfold_words
  rw [View.canon_unit_zero hz]
  simp only [View.readAt_eq_ld, harg2.read_unread, harg4.read_unread, harg5.read_unread, View.ld_unit_zero (S := S1024x1024) hz, View.ld_unit_zero (S := S256x1024) hz, View.ld_unit_zero (S := S1x256) hz]

/-- Elsewhere in a half: the same store, whatever the running tables held. -/
theorem outB_eq {F : FTy → Type} [FloatOps F] (c : Dev nD) (i : grid0.Coords) (arg2 : Memref sig .tc .vmem S1024x1024 .f32) (harg2 : arg2.IsWhole) (arg3 : Memref sig .tc .vmem S1024x1 .i32) (harg3 : arg3.IsWhole) (arg4 : Memref sig .tc .vmem S256x1024 .f32) (harg4 : arg4.IsWhole) (arg5 : Memref sig .tc .vmem S1x256 .f32) (harg5 : arg5.IsWhole) (arg6 : Memref sig .tc .vmem S1x1x1024 .f32) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .vmem S1024x256 .f32) (harg9 : arg9.IsWhole) (hc0 : ¬cond0_0 i)
    (x0 : Vec F S1024x1024 .f32) (x1 : Vec F S1024x1 .i32) (x2 : Vec F S256x1024 .f32) (x3 : Vec F S1x256 .f32) (xo4 : Vec F S1x1x1024 .f32) (xo5 : Vec F S1x1024x1024 .f32) (xo6 : Vec F S1x1x1024 .f32) :
    out0_B_7 c i arg2 harg2 arg3 harg3 arg4 harg4 arg5 harg5 arg6 harg6 arg7 harg7 arg8 harg8 arg9 harg9 hc0 x0 x1 x2 x3 xo4 xo5 xo6 = k0_pay2 (k0_pay7 x0) x2 x3 := by
  unfold out0_B_7
  rw [View.read_writes_eq_canon _ _ _ (cover0_B_7 c i arg2 harg2 arg3 harg3 arg4 harg4 arg5 harg5 arg6 harg6 arg7 harg7 arg8 harg8 arg9 harg9 hc0 x0 x1 x2 x3 xo4 xo5 xo6)]
  unfold kernelRun0_B
  dsimp only
  sl_unfold_words
  rw [View.canon_unit_zero hz]
  simp only [View.readAt_eq_ld, harg2.read_unread, harg4.read_unread, harg5.read_unread, View.ld_unit_zero (S := S1024x1024) hz, View.ld_unit_zero (S := S256x1024) hz, View.ld_unit_zero (S := S1x256) hz]

/-- So after the body at ANY point the block holds the product-plus-bias of that point's blocks of `x`, `w1`, `b1`. -/
theorem after7_eq (c : Dev nD) (t : Fin cfg0.N) :
    (dat0 V c).after 7 t = k0_pay2 (F := Ideal) (k0_pay7 (iblk0 V c 0 t)) (iblk0 V c 2 t) (iblk0 V c 3 t) := by
  rw [after0_7]
  by_cases h : t.val % 8 = 0
  · rw [outsAt0_A V c t h]
    dsimp only
    exact outA_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h) (iblk0 V c 0 t) (iblk0 V c 1 t) (iblk0 V c 2 t) (iblk0 V c 3 t)
  · rw [outsAt0_B V c t h]
    dsimp only
    exact outB_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h' => h ((hcond0_0 t).mp h')) (iblk0 V c 0 t) (iblk0 V c 1 t) (iblk0 V c 2 t) (iblk0 V c 3 t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2.1

/-! ## The stored value at an entry -/

/-- Entry `(p, q)` of the stored block: row `p` of the `x` block against row `q` of `w1`, plus entry `q` of the bias row. -/
theorem pay_apply (x : FVec Ideal S1024x1024 .f32) (w : FVec Ideal S256x1024 .f32) (b : FVec Ideal S1x256 .f32) (p : Fin 1024) (q : Fin 256) :
    k0_pay2 (F := Ideal) (k0_pay7 x) w b (ix2 p q) = (∑ d : Fin 1024, x (ix2 p d) * w (ix2 q d)) + b (ix2 0 q) := by
  unfold k0_pay2 k0_pay7
  dsimp only
  refine congrArg₂ (· + ·) ?_ ?_
  · exact Cert.KernelIdeal.MM.matmul_nt _ _ p q
  · refine (broadcastTo_1b_ab_apply _ _ p q).trans ?_
    rw [shapeCast_self]

/-! ## The blocks as parts of the arrays -/

/-- Where the windows sit at point `t` of the 16: block `t` of the rows for `x` and for the result, the one block for `w1`
    and for the bias row. -/
theorem idx_facts : ∀ t : Fin cfg0.N, win0_0.index t (0 : Fin 2) = t.val ∧ win0_0.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_7.index t (0 : Fin 2) = t.val ∧ win0_7.index t (1 : Fin 2) = 0 :=
  (by decide +kernel : ∀ t : Fin grid0.N, _)

/-- The `x` block at point `t` is rows `1024 t … 1024 t + 1023` of `x`. -/
theorem xblk_apply (c : Dev nD) (t : Fin cfg0.N) (y : S1024x1024.Idx) (k : S16384x1024.Idx)
    (hk0 : (k 0).val = 1024 * t.val + (y 0).val) (hk1 : (k 1).val = (y 1).val) :
    (iblk0 V c 0 t : Vec Ideal S1024x1024 .f32) y = (V c main_arg0 : S16384x1024.Idx → Elt Ideal .f32) k := by
  obtain ⟨e0, e1, -⟩ := idx_facts t
  unfold iblk0
  rw [View.read_apply]
  show V c main_arg0 _ = V c main_arg0 _
  refine congrArg _ (funext fun a => Fin.ext ?_)
  match a with
  | ⟨0, _⟩ => show win0_0.index t 0 * 1024 + 1 * (y 0).val = (k 0).val; rw [e0, hk0]; omega
  | ⟨1, _⟩ => show win0_0.index t 1 * 1024 + 1 * (y 1).val = (k 1).val; rw [e1, hk1]; omega

/-- The `w1` block at any point is all of `w1`. -/
theorem wblk_eq (c : Dev nD) (t : Fin cfg0.N) :
    (iblk0 V c 2 t : Vec Ideal S256x1024 .f32) = (V c main_arg2 : S256x1024.Idx → Elt Ideal .f32) := by
  obtain ⟨-, -, e0, e1, -⟩ := idx_facts t
  funext y
  unfold iblk0
  rw [View.read_apply]
  show V c main_arg2 _ = V c main_arg2 y
  refine congrArg _ (funext fun a => Fin.ext ?_)
  match a with
  | ⟨0, _⟩ => show win0_2.index t 0 * 256 + 1 * (y 0).val = (y 0).val; rw [e0]; omega
  | ⟨1, _⟩ => show win0_2.index t 1 * 1024 + 1 * (y 1).val = (y 1).val; rw [e1]; omega

/-- The bias block at any point is the whole bias row. -/
theorem bblk_eq (c : Dev nD) (t : Fin cfg0.N) :
    (iblk0 V c 3 t : Vec Ideal S1x256 .f32) = (V c main_v1 : S1x256.Idx → Elt Ideal .f32) := by
  obtain ⟨-, -, -, -, e0, e1, -⟩ := idx_facts t
  funext y
  unfold iblk0
  rw [View.read_apply]
  show V c main_v1 _ = V c main_v1 y
  refine congrArg _ (funext fun a => Fin.ext ?_)
  match a with
  | ⟨0, _⟩ => show win0_3.index t 0 * 1 + 1 * (y 0).val = (y 0).val; rw [e0]; omega
  | ⟨1, _⟩ => show win0_3.index t 1 * 256 + 1 * (y 1).val = (y 1).val; rw [e1]; omega

/-- The stored value at point `t`, entry `(p, q)`: entry `(1024 t + p, q)` of `x w1ᵀ + b1`. -/
theorem pay_at (c : Dev nD) (t : Fin cfg0.N) (p : Fin 1024) (q : Fin 256) (r : Fin 16384) (hr : r.val = 1024 * t.val + p.val) :
    k0_pay2 (F := Ideal) (k0_pay7 (iblk0 V c 0 t)) (iblk0 V c 2 t) (iblk0 V c 3 t) (ix2 p q)
      = Cert.Spec.lin1 (V c main_arg0) (V c main_arg2) (V c main_v1) (ix2 r q) := by
  refine (pay_apply (iblk0 V c 0 t) (iblk0 V c 2 t) (iblk0 V c 3 t) p q).trans ?_
  rw [wblk_eq V c t, bblk_eq V c t]
  unfold Cert.Spec.lin1
  refine congrArg₂ (· + ·) (Finset.sum_congr rfl fun d _ => ?_) rfl
  exact congrArg (· * _) (xblk_apply V c t (ix2 p d) (ix2 r d) hr rfl)

/-! ## From the blocks to the array -/

/-- What point `t` writes back is block `t` of `x w1ᵀ + b1`. -/
theorem flushed_eq (c : Dev nD) (t : Fin cfg0.N) :
    (dat0 V c).flushed 7 t = ((cfg0.win 7).blk t).view.read (Elt Ideal) (Cert.Spec.lin1 (V c main_arg0) (V c main_arg2) (V c main_v1)) := by
  show (cfg0.win 7).cut (grid0.coords t) ((dat0 V c).after 7 t) = _
  rw [after7_eq]
  obtain ⟨-, -, -, -, -, -, e0, e1⟩ := idx_facts t
  have hN : t.val < 16 := lt_of_lt_of_eq t.isLt (show cfg0.N = 16 from N_0)
  funext j
  have hj0 : (j 0).val < 1024 := (j 0).isLt
  refine (congrArg (k0_pay2 (F := Ideal) (k0_pay7 (iblk0 V c 0 t)) (iblk0 V c 2 t) (iblk0 V c 3 t)) (eq_ix2 (n0 := 1024) (n1 := 256) j)).trans
    ((pay_at V c t (j 0) (j 1) ⟨1024 * t.val + (j 0).val, by omega⟩ rfl).trans (congrArg _ ?_))
  funext a
  apply Fin.ext
  match a with
  | ⟨0, _⟩ => show 1024 * t.val + (j 0).val = win0_7.index t 0 * 1024 + 1 * (j 0).val; rw [e0]; omega
  | ⟨1, _⟩ => show (j 1).val = win0_7.index t 1 * 256 + 1 * (j 1).val; rw [e1]; omega

/-- An index of the array is in point `t`'s block iff each coordinate is in the block's range on its axis. -/
theorem mem_blk (t : Fin cfg0.N) (i : S16384x256.Idx) :
    i ∈ ((cfg0.win 7).blk t).view.set ↔ ∀ a : Fin 2, win0_7.index t a * S1024x256.size a ≤ (i a).val ∧ (i a).val < win0_7.index t a * S1024x256.size a + S1024x256.size a := by
  show i ∈ ((View.whole main_v2_3).slice (win0_7.rect t)).set ↔ _
  rw [View.set_slice_whole, Rect.mem_set_unit]
  exact Iff.rfl

/-- Result 3 (16384 × 256): `x w1ᵀ + b1`, block by block of 1024 rows. -/
theorem arr7 (c : Dev nD) : (dat0 V c).arrAt 7 cfg0.N = Cert.Spec.lin1 (V c main_arg0) (V c main_arg2) (V c main_v1) := by
  refine (dat0 V c).arrAt_eq_of_cover 7 _ (fun t _ => flushed_eq V c t) fun i => ?_
  have hi0 : (i 0).val < 16384 := (i 0).isLt
  have hi1 : (i 1).val < 256 := (i 1).isLt
  have hN : cfg0.N = 16 := N_0
  refine ⟨⟨(i 0).val / 1024, by rw [hN]; omega⟩, flush0_7 _, ?_⟩
  rw [mem_blk]
  obtain ⟨-, -, -, -, -, -, e0, e1⟩ := idx_facts ⟨(i 0).val / 1024, by rw [hN]; omega⟩
  intro a
  match a with
  | ⟨0, _⟩ =>
    show win0_7.index _ (0 : Fin 2) * 1024 ≤ (i 0).val ∧ (i 0).val < win0_7.index _ (0 : Fin 2) * 1024 + 1024
    rw [e0]; dsimp only; omega
  | ⟨1, _⟩ =>
    show win0_7.index _ (1 : Fin 2) * 256 ≤ (i 1).val ∧ (i 1).val < win0_7.index _ (1 : Fin 2) * 256 + 256
    rw [e1]; omega

end Cert.KernelIdeal.R0Lin

end
-- ==== Proof.Region1.lean ====
/-
  The second pass (16 blocks of 1024 rows), read as values over the extended reals: its result array when the pass ends,
  as a function of the arrays it was entered with.

  At point `t` the body takes rows `1024 t … 1024 t + 1023` of the first pass's array and of the label column, and the whole
  table of 1024 class rows. It builds the 1024 × 1024 block of class indicators (entry `(p, k)` is one when row `p`'s label
  word is the word of `k`, zero otherwise), multiplies it into the table and adds the first pass's block. Entry `(p, q)` of
  what it stores is therefore `p1 (1024 t + p) q + ∑ k, oh (lab (1024 t + p)) k * tb k q`; the contraction is the plain sum
  over the extended reals and the changes of number format are the identity there. Every row lies in the block of point
  `row / 1024`, and every point writes its block back, so the blocks fill the array.
-/
import proofs.«406085_j19146964206107_2_alg».proof.Proof.Gen.KernelIdeal.Frame
import proofs.«406085_j19146964206107_2_alg».proof.Proof.Spec
import proofs.«406085_j19146964206107_2_alg».proof.Proof.MatmulAt
import proofs.«406085_j19146964206107_2_alg».proof.Proof.OneHot
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.R1

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

variable (V : (c : Dev nD) → (b : Ref sig .tc) → Buf (Elt Ideal) ((c : Thread nD τ).loc b))

/-! ## What the body leaves in the block -/

theorem hz : (![0, 0] : Fin 2 → Nat) = fun _ => 0 := funext fun a => by fin_cases a <;> rfl

/-- The one store into the result block holds the body's value of the blocks loaded. -/
theorem out_eq {F : FTy → Type} [FloatOps F] (x0 : Vec F S1024x256 .f32) (x1 : Vec F S1024x1 .i32) (x2 : Vec F S1024x256 .bf16) :
    out1_3 x0 x1 x2 = k1_pay1 x1 x2 x0 := by
  unfold out1_3
  rw [View.canon_unit_zero hz]
  simp only [View.ld_unit_zero (S := S1024x1) hz, View.ld_unit_zero (S := S1024x256) hz]

/-! ## The stored value at an entry -/

/-- Entry `(p, q)` of the stored block: the first pass's entry plus the sum over the 1024 class words of the indicator of
    row `p`'s label times the table's entry `(k, q)`. The indicator block's entries are exactly zero or one, and narrowing
    them to the table's number format changes nothing over the extended reals. -/
theorem pay_apply (lab : Vec Ideal S1024x1 .i32) (tb : FVec Ideal S1024x256 .bf16) (p1 : FVec Ideal S1024x256 .f32) (p : Fin 1024) (q : Fin 256) :
    k1_pay1 (F := Ideal) lab tb p1 (ix2 p q)
      = p1 (ix2 p q) + ∑ k : Fin 1024, Cert.Spec.oh (lab (ix2 p 0)) (BitVec.ofNat 32 k.val) * tb (ix2 k q) := by
  unfold k1_pay1
  dsimp only
  refine congrArg₂ (· + ·) ?_ ?_
  · rw [shapeCast_self]
  · refine (Cert.KernelIdeal.MM.matmul_nn _ _ p q).trans ?_
    refine Finset.sum_congr rfl fun k _ => ?_
    refine congrArg₂ (· * ·) ?_ ?_
    · exact Cert.Spec.onehot_apply lab shapeCasts_S1024x1_S1024x1 broadcasts_S1024x1_S1024x1024 iota_S1024x1024_d1_w32 natLt_1_32 p k
    · rw [shapeCast_self]

/-! ## The blocks as parts of the arrays -/

/-- Where the windows sit at point `t` of the 16: block `t` of the rows for the first pass's array, for the label column and
    for the result; the one block for the table. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The first pass's block at point `t` is rows `1024 t … 1024 t + 1023` of its array. -/
theorem pblk_apply (c : Dev nD) (t : Fin cfg1.N) (y : S1024x256.Idx) (k : S16384x256.Idx)
    (hk0 : (k 0).val = 1024 * t.val + (y 0).val) (hk1 : (k 1).val = (y 1).val) :
    (iblk1 V c 0 t : Vec Ideal S1024x256 .f32) y = (V c main_v2_3 : S16384x256.Idx → Elt Ideal .f32) k := by
  obtain ⟨e0, e1, -⟩ := idx_facts t
  unfold iblk1
  rw [View.read_apply]
  show V c main_v2_3 _ = V c main_v2_3 _
  refine congrArg _ (funext fun a => Fin.ext ?_)
  match a with
  | ⟨0, _⟩ => show win1_0.index t 0 * 1024 + 1 * (y 0).val = (k 0).val; rw [e0, hk0]; omega
  | ⟨1, _⟩ => show win1_0.index t 1 * 256 + 1 * (y 1).val = (k 1).val; rw [e1, hk1]; omega

/-- The label block at point `t` is rows `1024 t … 1024 t + 1023` of the label column. -/
theorem lblk_apply (c : Dev nD) (t : Fin cfg1.N) (y : S1024x1.Idx) (k : S16384x1.Idx)
    (hk0 : (k 0).val = 1024 * t.val + (y 0).val) (hk1 : (k 1).val = (y 1).val) :
    (iblk1 V c 1 t : Vec Ideal S1024x1 .i32) y = (V c main_v0 : S16384x1.Idx → Elt Ideal .i32) k := by
  obtain ⟨-, -, e0, e1, -⟩ := idx_facts t
  unfold iblk1
  rw [View.read_apply]
  show V c main_v0 _ = V c main_v0 _
  refine congrArg _ (funext fun a => Fin.ext ?_)
  match a with
  | ⟨0, _⟩ => show win1_1.index t 0 * 1024 + 1 * (y 0).val = (k 0).val; rw [e0, hk0]; omega
  | ⟨1, _⟩ => show win1_1.index t 1 * 1 + 1 * (y 1).val = (k 1).val; rw [e1, hk1]; omega

/-- The table block at any point is the whole table. -/
theorem tblk_eq (c : Dev nD) (t : Fin cfg1.N) :
    (iblk1 V c 2 t : Vec Ideal S1024x256 .bf16) = (V c main_v44 : S1024x256.Idx → Elt Ideal .bf16) := by
  obtain ⟨-, -, -, -, e0, e1, -⟩ := idx_facts t
  funext y
  unfold iblk1
  rw [View.read_apply]
  show V c main_v44 _ = V c main_v44 y
  refine congrArg _ (funext fun a => Fin.ext ?_)
  match a with
  | ⟨0, _⟩ => show win1_2.index t 0 * 1024 + 1 * (y 0).val = (y 0).val; rw [e0]; omega
  | ⟨1, _⟩ => show win1_2.index t 1 * 256 + 1 * (y 1).val = (y 1).val; rw [e1]; omega

/-- The stored value at point `t`, entry `(p, q)`: entry `(1024 t + p, q)` of the first pass's array plus the label's table row. -/
theorem pay_at (c : Dev nD) (t : Fin cfg1.N) (p : Fin 1024) (q : Fin 256) (r : Fin 16384) (hr : r.val = 1024 * t.val + p.val) :
    k1_pay1 (F := Ideal) (iblk1 V c 1 t) (iblk1 V c 2 t) (iblk1 V c 0 t) (ix2 p q)
      = Cert.Spec.comb (V c main_v2_3) (V c main_v0) (V c main_v44) (ix2 r q) := by
  refine (pay_apply (iblk1 V c 1 t) (iblk1 V c 2 t) (iblk1 V c 0 t) p q).trans ?_
  rw [tblk_eq V c t]
  unfold Cert.Spec.comb
  refine congrArg₂ (· + ·) (pblk_apply V c t (ix2 p q) (ix2 r q) hr rfl) (Finset.sum_congr rfl fun k _ => ?_)
  exact congrArg (fun l => Cert.Spec.oh l _ * _) (lblk_apply V c t (ix2 p 0) (ix2 r 0) hr rfl)

/-! ## From the blocks to the array -/

/-- What point `t` writes back is block `t` of the combined array. -/
theorem flushed_eq (c : Dev nD) (t : Fin cfg1.N) :
    (dat1 V c).flushed 3 t = ((cfg1.win 3).blk t).view.read (Elt Ideal) (Cert.Spec.comb (V c main_v2_3) (V c main_v0) (V c main_v44)) := by
  show (cfg1.win 3).cut (grid1.coords t) ((dat1 V c).after 3 t) = _
  rw [after1_3, out_eq (F := Ideal) (iblk1 V c 0 t) (iblk1 V c 1 t) (iblk1 V c 2 t)]
  obtain ⟨-, -, -, -, -, -, e0, e1⟩ := idx_facts t
  have hN : t.val < 16 := lt_of_lt_of_eq t.isLt (show cfg1.N = 16 from N_1)
  funext j
  have hj0 : (j 0).val < 1024 := (j 0).isLt
  refine (congrArg (k1_pay1 (F := Ideal) (iblk1 V c 1 t) (iblk1 V c 2 t) (iblk1 V c 0 t)) (eq_ix2 (n0 := 1024) (n1 := 256) j)).trans
    ((pay_at V c t (j 0) (j 1) ⟨1024 * t.val + (j 0).val, by omega⟩ rfl).trans (congrArg _ ?_))
  funext a
  apply Fin.ext
  match a with
  | ⟨0, _⟩ => show 1024 * t.val + (j 0).val = win1_3.index t 0 * 1024 + 1 * (j 0).val; rw [e0]; omega
  | ⟨1, _⟩ => show (j 1).val = win1_3.index t 1 * 256 + 1 * (j 1).val; rw [e1]; omega

/-- An index of the array is in point `t`'s block iff each coordinate is in the block's range on its axis. -/
theorem mem_blk (t : Fin cfg1.N) (i : S16384x256.Idx) :
    i ∈ ((cfg1.win 3).blk t).view.set ↔ ∀ a : Fin 2, win1_3.index t a * S1024x256.size a ≤ (i a).val ∧ (i a).val < win1_3.index t a * S1024x256.size a + S1024x256.size a := by
  show i ∈ ((View.whole main_v45).slice (win1_3.rect t)).set ↔ _
  rw [View.set_slice_whole, Rect.mem_set_unit]
  exact Iff.rfl

/-- The result (16384 × 256): the first pass's `x w1ᵀ + b1` plus the table row of the label. -/
theorem arr3 (c : Dev nD) : (dat1 V c).arrAt 3 cfg1.N = Cert.Spec.comb (V c main_v2_3) (V c main_v0) (V c main_v44) := by
  refine (dat1 V c).arrAt_eq_of_cover 3 _ (fun t _ => flushed_eq V c t) fun i => ?_
  have hi0 : (i 0).val < 16384 := (i 0).isLt
  have hi1 : (i 1).val < 256 := (i 1).isLt
  have hN : cfg1.N = 16 := N_1
  refine ⟨⟨(i 0).val / 1024, by rw [hN]; omega⟩, flush1_3 _, ?_⟩
  rw [mem_blk]
  obtain ⟨-, -, -, -, -, -, e0, e1⟩ := idx_facts ⟨(i 0).val / 1024, by rw [hN]; omega⟩
  intro a
  match a with
  | ⟨0, _⟩ =>
    show win1_3.index _ (0 : Fin 2) * 1024 ≤ (i 0).val ∧ (i 0).val < win1_3.index _ (0 : Fin 2) * 1024 + 1024
    rw [e0]; dsimp only; omega
  | ⟨1, _⟩ =>
    show win1_3.index _ (1 : Fin 2) * 256 ≤ (i 1).val ∧ (i 1).val < win1_3.index _ (1 : Fin 2) * 256 + 256
    rw [e1]; omega

end Cert.KernelIdeal.R1

end
-- ==== Proof.SpecLaws.lean ====
/-
  Laws of the specification: a sum over all 16384 rows is the sum over halves, blocks and rows of a block; a sum against
  a class indicator picks one entry; and the two passes compose to the result.
-/
import proofs.«406085_j19146964206107_2_alg».proof.Proof.Spec

noncomputable section

namespace Cert.Spec

open Idealize.ShloMosaic Idealize.ShloMosaic.ValueIdx
open scoped BigOperators

/-- The rows of the batch are in bijection with the triples (half, block of the half, row of the block): row `i` is row
    `i % 1024` of block `i / 1024 % 8` of half `i / 8192`. -/
def rowEquiv : (Fin 2 × Fin 8) × Fin 1024 ≃ Fin 16384 where
  toFun p := row p.1.1 p.1.2 p.2
  invFun i := ((⟨i.val / 8192, by have := i.isLt; omega⟩, ⟨i.val / 1024 % 8, by omega⟩), ⟨i.val % 1024, by omega⟩)
  left_inv p := by
    obtain ⟨⟨q, k⟩, r⟩ := p
    have := q.isLt; have := k.isLt; have := r.isLt
    simp only [row, Prod.mk.injEq, Fin.ext_iff]
    omega
  right_inv i := by
    have := i.isLt
    simp only [row, Fin.ext_iff]
    omega

/-- A sum over the halves, the blocks of a half and the rows of a block is the sum over all rows. -/
theorem sum_rows {M : Type} [AddCommMonoid M] (f : Fin 16384 → M) :
    ∑ q : Fin 2, ∑ k : Fin 8, ∑ r : Fin 1024, f (row q k r) = ∑ i : Fin 16384, f i := by
  rw [← Fintype.sum_equiv rowEquiv (fun p => f (row p.1.1 p.1.2 p.2)) f (fun _ => rfl)]
  rw [Fintype.sum_prod_type, Fintype.sum_prod_type]

/-- A sum against the indicator of the word `l` over the 1024 class words picks the entry at `l`, when `l` is one of them. -/
theorem sum_oh_mul (l : BitVec 32) (hl : l.toNat < 1024) (T : Fin 1024 → EReal) :
    ∑ k : Fin 1024, oh l (BitVec.ofNat 32 k.val) * T k = T ⟨l.toNat, hl⟩ := by
  rw [Finset.sum_eq_single (⟨l.toNat, hl⟩ : Fin 1024)]
  · -- at the word's own position the indicator is one
    have : l = BitVec.ofNat 32 l.toNat := by rw [BitVec.ofNat_toNat, BitVec.setWidth_eq]
    show oh l (BitVec.ofNat 32 l.toNat) * T ⟨l.toNat, hl⟩ = _
    rw [oh, if_pos this, one_mul]
  · -- elsewhere it is zero: a word below 2³² is determined by its value
    intro k _ hk
    have hne : l ≠ BitVec.ofNat 32 k.val := by
      intro e
      apply hk
      apply Fin.ext
      have hk' := k.isLt
      have e2 : l.toNat = k.val % 2 ^ 32 := by rw [← BitVec.toNat_ofNat]; exact congrArg BitVec.toNat e
      show k.val = l.toNat
      omega
    rw [oh, if_neg hne, zero_mul]
  · intro h; exact absurd (Finset.mem_univ _) h

/-- The word of a word's value is the word. -/
theorem ofNat_toNat_self (l : BitVec 32) : BitVec.ofNat 32 l.toNat = l := by
  rw [BitVec.ofNat_toNat, BitVec.setWidth_eq]

/-- The two halves' column sums add up to the column sum over all rows. -/
theorem half4_add (x : FVec Ideal S16384x1024 .f32) (d : Fin 1024) :
    half4 x (ix3 0 0 d) + half4 x (ix3 1 0 d) = tot x d := by
  have h := sum_rows (fun i => x (ix2 i d))
  rw [Fin.sum_univ_two] at h
  exact h

/-- The two halves' column sums over the rows of class `l` add up to that sum over all rows. -/
theorem half5_add (x : FVec Ideal S16384x1024 .f32) (lab : IVec S16384 32) (lab2 : IVec S16384x1 32)
    (hlab2 : ∀ i : Fin 16384, lab2 (ix2 i 0) = lab (ix1 i)) (l : BitVec 32) (hl : l.toNat < 1024) (d : Fin 1024) :
    half5 x lab2 (ix3 0 ⟨l.toNat, hl⟩ d) + half5 x lab2 (ix3 1 ⟨l.toNat, hl⟩ d) = lsum x lab l d := by
  have h := sum_rows (fun i => oh (lab2 (ix2 i 0)) (BitVec.ofNat 32 l.toNat) * x (ix2 i d))
  rw [Fin.sum_univ_two] at h
  refine h.trans ?_
  unfold lsum
  refine Finset.sum_congr rfl (fun i _ => ?_)
  rw [ofNat_toNat_self, hlab2 i]

/-- The two halves' counts of the rows of class `l` add up to the count over all rows. -/
theorem half6_add (lab : IVec S16384 32) (lab2 : IVec S16384x1 32)
    (hlab2 : ∀ i : Fin 16384, lab2 (ix2 i 0) = lab (ix1 i)) (l : BitVec 32) (hl : l.toNat < 1024) :
    half6 lab2 (ix3 0 0 ⟨l.toNat, hl⟩) + half6 lab2 (ix3 1 0 ⟨l.toNat, hl⟩) = cnt lab l := by
  have h := sum_rows (fun i => oh (lab2 (ix2 i 0)) (BitVec.ofNat 32 l.toNat))
  rw [Fin.sum_univ_two] at h
  refine h.trans ?_
  unfold cnt
  refine Finset.sum_congr rfl (fun i _ => ?_)
  rw [ofNat_toNat_self, hlab2 i]

/-- THE TWO PASSES COMPOSE TO THE RESULT, when every label is one of the 1000 classes: the second pass's sum against the
    indicator picks the label's row of the table (`sum_oh_mul`), that row is the mean through the second map because the
    label is below 1000, and the two halves' tables add up to the sums over all rows (`sum_rows`). -/
theorem comb_eq_G (x : FVec Ideal S16384x1024 .f32) (lab : IVec S16384 32) (w1 : FVec Ideal S256x1024 .f32)
    (b1 : FVec Ideal S256 .f32) (w2 : FVec Ideal S256x1024 .f32) (b2 : FVec Ideal S256 .f32)
    (hlab : ∀ i : Fin 16384, (lab (ix1 i)).toNat < 1000)
    (lab2 : IVec S16384x1 32) (hlab2 : ∀ i : Fin 16384, lab2 (ix2 i 0) = lab (ix1 i))
    (b1r : FVec Ideal S1x256 .f32) (hb1 : ∀ o : Fin 256, b1r (ix2 0 o) = b1 (ix1 o)) :
    comb (lin1 x w1 b1r) lab2 (projTable (half4 x) (half5 x lab2) (half6 lab2) w2 b2) = G x lab w1 b1 w2 b2 := by
  funext j
  obtain ⟨a, b, rfl⟩ : ∃ (a : Fin 16384) (b : Fin 256), j = ix2 a b := ⟨j 0, j 1, eq_ix2 j⟩
  have hl : (lab (ix1 a)).toNat < 1000 := hlab a
  have hl' : (lab (ix1 a)).toNat < 1024 := lt_trans hl (by norm_num)
  have hs := sum_oh_mul (lab (ix1 a)) hl' (fun k => projTable (half4 x) (half5 x lab2) (half6 lab2) w2 b2 (ix2 k b))
  beta_reduce at hs
  show ((∑ d : Fin 1024, x (ix2 a d) * w1 (ix2 b d)) + b1r (ix2 0 b))
      + ∑ k : Fin 1024, oh (lab2 (ix2 a 0)) (BitVec.ofNat 32 k.val)
          * projTable (half4 x) (half5 x lab2) (half6 lab2) w2 b2 (ix2 k b)
    = ((∑ d : Fin 1024, x (ix2 a d) * w1 (ix2 b d)) + b1 (ix1 b))
      + ((∑ d : Fin 1024, meanS (tot x d) (lsum x lab (lab (ix1 a)) d) (cnt lab (lab (ix1 a))) * w2 (ix2 b d))
          + b2 (ix1 b))
  rw [hb1 b, hlab2 a, hs]
  refine congrArg (fun t => (∑ d : Fin 1024, x (ix2 a d) * w1 (ix2 b d)) + b1 (ix1 b) + t) ?_
  -- the picked row of the table: its class is below 1000, so it is the mean through the second map
  show (if (lab (ix1 a)).toNat < 1000 then
      (∑ d : Fin 1024,
          meanS (half4 x (ix3 0 0 d) + half4 x (ix3 1 0 d))
            (half5 x lab2 (ix3 0 ⟨(lab (ix1 a)).toNat, hl'⟩ d) + half5 x lab2 (ix3 1 ⟨(lab (ix1 a)).toNat, hl'⟩ d))
            (half6 lab2 (ix3 0 0 ⟨(lab (ix1 a)).toNat, hl'⟩) + half6 lab2 (ix3 1 0 ⟨(lab (ix1 a)).toNat, hl'⟩))
          * w2 (ix2 b d)) + b2 (ix1 b)
    else 0) = _
  rw [if_pos hl]
  refine congrArg (fun t => t + b2 (ix1 b)) ?_
  refine Finset.sum_congr rfl (fun d _ => ?_)
  rw [half4_add, half5_add x lab lab2 hlab2 _ hl' d, half6_add lab lab2 hlab2 _ hl']

end Cert.Spec

end
-- ==== Proof.HostTerm.lean ====
/-
  The table the second pass reads, as a function of five arrays: the first pass's column sums, per-class column sums and
  per-class counts (each in two halves), the second weight matrix and the second bias. The halves are added; the mean of
  the rows not of class `k` is `(tot d - lsum k d) / max (16384 - cnt k) 1` where `16384 - cnt k > 0` and zero elsewhere;
  the rows of the 24 padding classes (`k ≥ 1000`) are zeroed; the result goes through the second linear map with its bias,
  and the padding classes' rows are zeroed again.
-/
import proofs.«406085_j19146964206107_2_alg».proof.Proof.Gen.KernelIdeal
import proofs.«406085_j19146964206107_2_alg».proof.Proof.Spec

noncomputable section

namespace Cert.KernelIdeal.Host

open Idealize.ShloMosaic Cert.KernelIdeal Cert.KernelIdeal.Gen

/-- The two halves of a `[2, 1, 1024]` result added, as a row. -/
def halvesRow (a : FVec Ideal S2x1x1024 .f32) : FVec Ideal S1x1024 .f32 :=
  addf (shapeCast S1x1024 (extractStridedSlice S1x1x1024 ![0, 0, 0] a slices_S2x1x1024_S1x1x1024_0_0_0) shapeCasts_S1x1x1024_S1x1024)
    (shapeCast S1x1024 (extractStridedSlice S1x1x1024 ![1, 0, 0] a slices_S2x1x1024_S1x1x1024_1_0_0) shapeCasts_S1x1x1024_S1x1024)

/-- The two halves of the per-class column sums added. -/
def halvesMat (a : FVec Ideal S2x1024x1024 .f32) : FVec Ideal S1024x1024 .f32 :=
  addf (shapeCast S1024x1024 (extractStridedSlice S1x1024x1024 ![0, 0, 0] a slices_S2x1024x1024_S1x1024x1024_0_0_0) shapeCasts_S1x1024x1024_S1024x1024)
    (shapeCast S1024x1024 (extractStridedSlice S1x1024x1024 ![1, 0, 0] a slices_S2x1024x1024_S1x1024x1024_1_0_0) shapeCasts_S1x1024x1024_S1024x1024)

/-- The number of rows NOT of each class, as a column: `16384 - cnt k`. -/
def restCol (a6 : FVec Ideal S2x1x1024 .f32) : FVec Ideal S1024x1 .f32 :=
  shapeCast S1024x1
    (subf (broadcastInDim S1024 ![] bcast_S_S1024 (constant (F := Ideal) S_ .f32 0x46800000#32))
      (shapeCast S1024 (halvesRow a6) shapeCasts_S1x1024_S1024))
    shapeCasts_S1024_S1024x1

/-- Whether a class leaves any other row: `16384 - cnt k > 0`. -/
def posCol (a6 : FVec Ideal S2x1x1024 .f32) : IVec S1024x1 1 :=
  cmpf .ogt (restCol a6) (broadcastInDim S1024x1 ![] bcast_S_S1024x1 (constant (F := Ideal) S_ .f32 0x00000000#32))

/-- The quotient `(tot d - lsum k d) / max (16384 - cnt k) 1`. -/
def quot (a4 : FVec Ideal S2x1x1024 .f32) (a5 : FVec Ideal S2x1024x1024 .f32) (a6 : FVec Ideal S2x1x1024 .f32) :
    FVec Ideal S1024x1024 .f32 :=
  Host.divf (F := Ideal)
    (subf (broadcastInDim S1024x1024 ![0, 1] bcast_S1x1024_S1024x1024_0_1 (halvesRow a4)) (halvesMat a5))
    (broadcastInDim S1024x1024 ![0, 1] bcast_S1024x1_S1024x1024_0_1
      (maximumf (restCol a6) (broadcastInDim S1024x1 ![] bcast_S_S1024x1 (constant (F := Ideal) S_ .f32 0x3F800000#32))))

/-- The mean of the other classes' rows: the quotient where the class leaves a row, zero elsewhere. -/
def mean1 (a4 : FVec Ideal S2x1x1024 .f32) (a5 : FVec Ideal S2x1024x1024 .f32) (a6 : FVec Ideal S2x1x1024 .f32) :
    FVec Ideal S1024x1024 .f32 :=
  select (broadcastInDim S1024x1024 ![0, 1] bcast_S1024x1_S1024x1024_0_1 (posCol a6)) (quot a4 a5 a6)
    (broadcastInDim S1024x1024 ![] bcast_S_S1024x1024 (constant (F := Ideal) S_ .f32 0x00000000#32))

/-- Which of the 1024 class rows are real classes: `k < 1000`, as a column. -/
def validCol : IVec S1024x1 1 :=
  shapeCast S1024x1
    (cmpi .slt (iotaInDim S1024 32 0) (broadcastInDim S1024 ![] bcast_S_S1024 (constantI S_ 32 1000#32)))
    shapeCasts_S1024_S1024x1

/-- The mean with the padding classes' rows zeroed. -/
def mean2 (a4 : FVec Ideal S2x1x1024 .f32) (a5 : FVec Ideal S2x1024x1024 .f32) (a6 : FVec Ideal S2x1x1024 .f32) :
    FVec Ideal S1024x1024 .f32 :=
  select (broadcastInDim S1024x1024 ![0, 1] bcast_S1024x1_S1024x1024_0_1 validCol) (mean1 a4 a5 a6)
    (broadcastInDim S1024x1024 ![] bcast_S_S1024x1024 (constant (F := Ideal) S_ .f32 0x00000000#32))

/-- The second linear map with its bias applied to a `[1024, 1024]` matrix of rows. -/
def lin2 (M : FVec Ideal S1024x1024 .f32) (w2 : FVec Ideal S256x1024 .f32) (b2 : FVec Ideal S256 .f32) : FVec Ideal S1024x256 .f32 :=
  addf
    (Host.dotGeneral (F := Ideal) dot_S1024x1024_S1024x256_S1024x256_1_0_0_1_n_n none (truncf .bf16 M bitsLt_bf16_f32)
      (transpose S1024x256 [1, 0] (truncf .bf16 w2 bitsLt_bf16_f32) transposes_S256x1024_S1024x256_1_0))
    (broadcastInDim S1024x256 ![0, 1] bcast_S1x256_S1024x256_0_1 (broadcastInDim S1x256 ![1] bcast_S256_S1x256_1 b2))

/-- The table: the mean through the second linear map, the padding classes' rows zeroed. -/
def table (a4 : FVec Ideal S2x1x1024 .f32) (a5 : FVec Ideal S2x1024x1024 .f32) (a6 : FVec Ideal S2x1x1024 .f32)
    (w2 : FVec Ideal S256x1024 .f32) (b2 : FVec Ideal S256 .f32) : FVec Ideal S1024x256 .bf16 :=
  truncf .bf16
    (select (broadcastInDim S1024x256 ![0, 1] bcast_S1024x1_S1024x256_0_1 validCol) (lin2 (mean2 a4 a5 a6) w2 b2)
      (broadcastInDim S1024x256 ![] bcast_S_S1024x256 (constant (F := Ideal) S_ .f32 0x00000000#32)))
    bitsLt_bf16_f32

end Cert.KernelIdeal.Host

end
-- ==== Proof.HostTable.lean ====
/-
  The table the second pass reads, read at an index: for a real class `k < 1000` it is the mean of the other classes'
  rows through the second linear map, `∑ d, mean k d * w2 o d + b2 o`; for the 24 padding classes it is zero.

  Each part of the composed term is read at one index, bottom up: a half of a `[2, …]` array is the array at first
  coordinate 0 or 1; a row or a column repeated over a rectangle reads the row's or column's entry; the class numbers
  0 … 1023 are small, so their signed comparison with 1000 is the comparison of the numbers; the contraction against the
  transposed second weight matrix is the plain sum over the 1024 columns, and the narrowing of the number format is the
  identity over the extended reals. For a real class both masks pick the value; for a padding class the last mask picks
  the zero word, which is the number zero.
-/
import proofs.«406085_j19146964206107_2_alg».proof.Proof.HostTerm
import proofs.«406085_j19146964206107_2_alg».proof.Proof.MatmulAt
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

noncomputable section

namespace Cert.KernelIdeal.Host

open Idealize.ShloMosaic Idealize.ShloMosaic.ValueIdx Cert.KernelIdeal Cert.KernelIdeal.Gen
open scoped BigOperators

/-- The two halves of a row array added, entry `d`. -/
theorem halvesRow_apply (a : FVec Ideal S2x1x1024 .f32) (d : Fin 1024) :
    halvesRow a (ix2 (0 : Fin 1) d) = a (ix3 (0 : Fin 2) (0 : Fin 1) d) + a (ix3 (1 : Fin 2) (0 : Fin 1) d) := by
  unfold halvesRow
  refine congrArg₂ (· + ·) ?_ ?_
  · refine (shapeCast_1ab_ab_apply _ _ (0 : Fin 1) d).trans ?_
    refine extractStridedSlice_apply _ a _ _ _ fun ax => ?_
    match ax with
    | ⟨0, _⟩ => rfl
    | ⟨1, _⟩ => rfl
    | ⟨2, _⟩ => exact (Nat.zero_add _).symm
  · refine (shapeCast_1ab_ab_apply _ _ (0 : Fin 1) d).trans ?_
    refine extractStridedSlice_apply _ a _ _ _ fun ax => ?_
    match ax with
    | ⟨0, _⟩ => rfl
    | ⟨1, _⟩ => rfl
    | ⟨2, _⟩ => exact (Nat.zero_add _).symm

/-- The two halves of the per-class array added, entry `(k, d)`. -/
theorem halvesMat_apply (a : FVec Ideal S2x1024x1024 .f32) (k d : Fin 1024) :
    halvesMat a (ix2 k d) = a (ix3 (0 : Fin 2) k d) + a (ix3 (1 : Fin 2) k d) := by
  unfold halvesMat
  refine congrArg₂ (· + ·) ?_ ?_
  · refine (shapeCast_1ab_ab_apply _ _ k d).trans ?_
    refine extractStridedSlice_apply _ a _ _ _ fun ax => ?_
    match ax with
    | ⟨0, _⟩ => rfl
    | ⟨1, _⟩ => exact (Nat.zero_add _).symm
    | ⟨2, _⟩ => exact (Nat.zero_add _).symm
  · refine (shapeCast_1ab_ab_apply _ _ k d).trans ?_
    refine extractStridedSlice_apply _ a _ _ _ fun ax => ?_
    match ax with
    | ⟨0, _⟩ => rfl
    | ⟨1, _⟩ => exact (Nat.zero_add _).symm
    | ⟨2, _⟩ => exact (Nat.zero_add _).symm

/-- A vector of 1024 entries laid out as a column reads, at `(k, 0)`, its entry `k`. -/
theorem col_apply {α : Type} (v : S1024.Idx → α) (k : Fin 1024) :
    shapeCast S1024x1 v shapeCasts_S1024_S1024x1 (ix2 k (0 : Fin 1)) = v (ix1 k) :=
  shapeCast_apply v shapeCasts_S1024_S1024x1 (ix2 k (0 : Fin 1)) (ix1 k) (by
    rw [Shape.rowMajor_val_one, Shape.rowMajor_val_two]
    show k.val = k.val * 1 + 0
    omega)

/-- The number of rows not of class `k`. -/
theorem restCol_apply (a6 : FVec Ideal S2x1x1024 .f32) (k : Fin 1024) :
    restCol a6 (ix2 k (0 : Fin 1)) = FloatOps.subf (F := Ideal) (FloatOps.ofBits .f32 0x46800000#32)
      (a6 (ix3 (0 : Fin 2) (0 : Fin 1) k) + a6 (ix3 (1 : Fin 2) (0 : Fin 1) k)) := by
  unfold restCol
  refine (col_apply _ k).trans ?_
  refine congrArg (FloatOps.subf (F := Ideal) _) ?_
  exact (shapeCast_1a_a_apply _ _ k).trans (halvesRow_apply a6 k)

/-- Whether class `k` leaves any other row. -/
theorem posCol_apply (a6 : FVec Ideal S2x1x1024 .f32) (k : Fin 1024) :
    posCol a6 (ix2 k (0 : Fin 1))
      = FloatOps.cmpf (F := Ideal) .ogt (restCol a6 (ix2 k (0 : Fin 1))) (FloatOps.ofBits .f32 0x00000000#32) := rfl

/-- A column repeated along the rows of a square reads, at `(k, d)`, its entry `k`. -/
theorem bcol_apply {α : Type} (v : S1024x1.Idx → α) (k d : Fin 1024) :
    broadcastInDim S1024x1024 ![0, 1] bcast_S1024x1_S1024x1024_0_1 v (ix2 k d) = v (ix2 k (0 : Fin 1)) :=
  broadcastInDim_apply _ bcast_S1024x1_S1024x1024_0_1 v (ix2 k d) (ix2 k (0 : Fin 1)) (fun a => match a with
    | ⟨0, _⟩ => by show k.val = if (1024 : Nat) = 1 then 0 else k.val; rw [if_neg (by decide)]
    | ⟨1, _⟩ => by show (0 : Nat) = if (1 : Nat) = 1 then 0 else d.val; rw [if_pos rfl])

/-- A row repeated down the rows of a square reads, at `(k, d)`, its entry `d`. -/
theorem brow_apply {α : Type} (v : S1x1024.Idx → α) (k d : Fin 1024) :
    broadcastInDim S1024x1024 ![0, 1] bcast_S1x1024_S1024x1024_0_1 v (ix2 k d) = v (ix2 (0 : Fin 1) d) :=
  broadcastInDim_apply _ bcast_S1x1024_S1024x1024_0_1 v (ix2 k d) (ix2 (0 : Fin 1) d) (fun a => match a with
    | ⟨0, _⟩ => by show (0 : Nat) = if (1 : Nat) = 1 then 0 else k.val; rw [if_pos rfl]
    | ⟨1, _⟩ => by show d.val = if (1024 : Nat) = 1 then 0 else d.val; rw [if_neg (by decide)])

/-- A column repeated along the rows of the table's shape reads, at `(k, o)`, its entry `k`. -/
theorem bcol256_apply {α : Type} (v : S1024x1.Idx → α) (k : Fin 1024) (o : Fin 256) :
    broadcastInDim S1024x256 ![0, 1] bcast_S1024x1_S1024x256_0_1 v (ix2 k o) = v (ix2 k (0 : Fin 1)) :=
  broadcastInDim_apply _ bcast_S1024x1_S1024x256_0_1 v (ix2 k o) (ix2 k (0 : Fin 1)) (fun a => match a with
    | ⟨0, _⟩ => by show k.val = if (1024 : Nat) = 1 then 0 else k.val; rw [if_neg (by decide)]
    | ⟨1, _⟩ => by show (0 : Nat) = if (1 : Nat) = 1 then 0 else o.val; rw [if_pos rfl])

/-- The quotient at `(k, d)`. -/
theorem quot_apply (a4 : FVec Ideal S2x1x1024 .f32) (a5 : FVec Ideal S2x1024x1024 .f32) (a6 : FVec Ideal S2x1x1024 .f32) (k d : Fin 1024) :
    quot a4 a5 a6 (ix2 k d) = FloatOps.hostDivf (F := Ideal)
      (FloatOps.subf (halvesRow a4 (ix2 (0 : Fin 1) d)) (halvesMat a5 (ix2 k d)))
      (FloatOps.maximumf (restCol a6 (ix2 k (0 : Fin 1))) (FloatOps.ofBits .f32 0x3F800000#32)) := by
  unfold quot
  refine congrArg₂ (FloatOps.hostDivf (F := Ideal)) ?_ ?_
  · exact congrArg (FloatOps.subf (F := Ideal) · _) (brow_apply _ k d)
  · exact bcol_apply _ k d

/-- The mean of the other classes' rows at `(k, d)` is the specification's, of the added halves. -/
theorem mean1_apply (a4 : FVec Ideal S2x1x1024 .f32) (a5 : FVec Ideal S2x1024x1024 .f32) (a6 : FVec Ideal S2x1x1024 .f32) (k d : Fin 1024) :
    mean1 a4 a5 a6 (ix2 k d) = Cert.Spec.meanS (a4 (ix3 (0 : Fin 2) (0 : Fin 1) d) + a4 (ix3 (1 : Fin 2) (0 : Fin 1) d))
      (a5 (ix3 (0 : Fin 2) k d) + a5 (ix3 (1 : Fin 2) k d)) (a6 (ix3 (0 : Fin 2) (0 : Fin 1) k) + a6 (ix3 (1 : Fin 2) (0 : Fin 1) k)) := by
  unfold mean1 Cert.Spec.meanS
  refine congrArg₂ (fun c v => Scalar.select c v (FloatOps.ofBits (F := Ideal) .f32 0x00000000#32)) ?_ ?_
  · exact (bcol_apply _ k d).trans (congrArg (FloatOps.cmpf (F := Ideal) .ogt · _) (restCol_apply a6 k))
  · exact (quot_apply a4 a5 a6 k d).trans (congrArg₂ (FloatOps.hostDivf (F := Ideal))
      (congrArg₂ (FloatOps.subf (F := Ideal)) (halvesRow_apply a4 d) (halvesMat_apply a5 k d))
      (congrArg (FloatOps.maximumf (F := Ideal) · _) (restCol_apply a6 k)))

/-- The mask of real classes at row `k`: the word of `k` compared, signed, with the word of 1000. -/
theorem validCol_apply (k : Fin 1024) :
    validCol (ix2 k (0 : Fin 1)) = IntOp.cmpi .slt (BitVec.ofNat 32 k.val) 1000#32 := by
  unfold validCol
  exact col_apply _ k

theorem toNat_ofNat_class (k : Fin 1024) : (BitVec.ofNat 32 k.val).toNat = k.val := by
  rw [BitVec.toNat_ofNat]; exact Nat.mod_eq_of_lt (by have := k.isLt; omega)

/-- The numbers below 1024 are small enough that the signed comparison is the comparison of the numbers. -/
theorem validCol_iff (k : Fin 1024) : validCol (ix2 k (0 : Fin 1)) = 1#1 ↔ k.val < 1000 := by
  rw [validCol_apply]
  refine (StableHlo.Predicate.slt_iff_toNat (by rw [toNat_ofNat_class]; have := k.isLt; omega) (by decide)).trans ?_
  rw [toNat_ofNat_class]
  exact Iff.rfl

theorem validCol_pos (k : Fin 1024) (h : k.val < 1000) : validCol (ix2 k (0 : Fin 1)) = 1#1 := (validCol_iff k).mpr h
theorem validCol_neg (k : Fin 1024) (h : ¬k.val < 1000) : validCol (ix2 k (0 : Fin 1)) = 0#1 :=
  eq_zero_of_ne_one fun h1 => h ((validCol_iff k).mp h1)

/-- The mean with the padding classes' rows zeroed, at `(k, d)`. -/
theorem mean2_apply (a4 : FVec Ideal S2x1x1024 .f32) (a5 : FVec Ideal S2x1024x1024 .f32) (a6 : FVec Ideal S2x1x1024 .f32) (k d : Fin 1024) :
    mean2 a4 a5 a6 (ix2 k d) = Scalar.select (validCol (ix2 k (0 : Fin 1))) (mean1 a4 a5 a6 (ix2 k d))
      (FloatOps.ofBits (F := Ideal) .f32 0x00000000#32) := by
  unfold mean2
  exact congrArg (Scalar.select · _ _) (bcol_apply validCol k d)

/-- The second linear map with its bias at `(k, o)`: row `k` of the matrix against row `o` of `w2`, plus entry `o` of the bias. -/
theorem lin2_apply (M : FVec Ideal S1024x1024 .f32) (w2 : FVec Ideal S256x1024 .f32) (b2 : FVec Ideal S256 .f32) (k : Fin 1024) (o : Fin 256) :
    lin2 M w2 b2 (ix2 k o) = (∑ d : Fin 1024, M (ix2 k d) * w2 (ix2 o d)) + b2 (ix1 o) := by
  unfold lin2
  refine congrArg₂ (· + ·) ?_ ?_
  · refine (Cert.KernelIdeal.MM.dotGeneral_nn _ _ k o).trans (Finset.sum_congr rfl fun d _ => ?_)
    refine congrArg (M (ix2 k d) * ·) ?_
    exact transpose_ix2_apply _ transposes_S256x1024_S1024x256_1_0 d o
  · refine (broadcastInDim_apply _ bcast_S1x256_S1024x256_0_1 _ (ix2 k o) (ix2 (0 : Fin 1) o) (fun a => match a with
      | ⟨0, _⟩ => by show (0 : Nat) = if (1 : Nat) = 1 then 0 else k.val; rw [if_pos rfl]
      | ⟨1, _⟩ => by show o.val = if (256 : Nat) = 1 then 0 else o.val; rw [if_neg (by decide)])).trans ?_
    exact broadcastInDim_apply _ bcast_S256_S1x256_1 b2 (ix2 (0 : Fin 1) o) (ix1 o) (fun a => match a with
      | ⟨0, _⟩ => by show o.val = if (256 : Nat) = 1 then 0 else o.val; rw [if_neg (by decide)])

/-- The table at `(k, o)`. -/
theorem table_apply (a4 : FVec Ideal S2x1x1024 .f32) (a5 : FVec Ideal S2x1024x1024 .f32) (a6 : FVec Ideal S2x1x1024 .f32)
    (w2 : FVec Ideal S256x1024 .f32) (b2 : FVec Ideal S256 .f32) (k : Fin 1024) (o : Fin 256) :
    table a4 a5 a6 w2 b2 (ix2 k o) = Scalar.select (validCol (ix2 k (0 : Fin 1))) (lin2 (mean2 a4 a5 a6) w2 b2 (ix2 k o))
      (FloatOps.ofBits (F := Ideal) .f32 0x00000000#32) := by
  unfold table
  show Scalar.select (broadcastInDim S1024x256 ![0, 1] bcast_S1024x1_S1024x256_0_1 validCol (ix2 k o)) _ _ = _
  exact congrArg (Scalar.select · _ _) (bcol256_apply validCol k o)

/-- The composed host term is the table of the specification, index by index. -/
theorem table_eq (a4 : FVec Ideal S2x1x1024 .f32) (a5 : FVec Ideal S2x1024x1024 .f32) (a6 : FVec Ideal S2x1x1024 .f32)
    (w2 : FVec Ideal S256x1024 .f32) (b2 : FVec Ideal S256 .f32) :
    table a4 a5 a6 w2 b2 = Cert.Spec.projTable a4 a5 a6 w2 b2 := by
  funext j
  obtain ⟨k, o, rfl⟩ : ∃ (k : Fin 1024) (o : Fin 256), j = ix2 k o := ⟨j 0, j 1, eq_ix2 j⟩
  rw [table_apply]
  unfold Cert.Spec.projTable
  by_cases hk : k.val < 1000
  · rw [validCol_pos k hk, select_one, lin2_apply]
    show _ = if k.val < 1000 then _ else _
    rw [if_pos hk]
    refine congrArg₂ (· + ·) (Finset.sum_congr rfl fun d _ => ?_) rfl
    refine congrArg (· * _) ?_
    rw [mean2_apply, validCol_pos k hk, select_one, mean1_apply]
  · rw [validCol_neg k hk, select_zero]
    show _ = if k.val < 1000 then _ else _
    rw [if_neg hk]
    exact Ideal.ofBits_zero_f32

end Cert.KernelIdeal.Host
end
-- ==== Proof.Host.lean ====
/-
  The host operations around the two passes, read as values over the extended reals: what the first pass is entered with
  (the label vector and the first bias re-laid as a column and a row), and what the second pass is entered with (the
  first pass's fourth result and the label column untouched, and the table computed from the first pass's other three
  results: the two halves added, the mean of the other classes' rows, the second linear map, the padding classes zeroed).
-/
import proofs.«406085_j19146964206107_2_alg».proof.Proof.Gen.KernelIdeal.Frame
import proofs.«406085_j19146964206107_2_alg».proof.Proof.Spec
import proofs.«406085_j19146964206107_2_alg».proof.Proof.HostTable
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import Idealize.ShloMosaic.Lib.StableHlo.Run
set_option maxRecDepth 16384

noncomputable section

namespace Cert.KernelIdeal.Host

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

variable (m : (ℓ : Loc nD τ sig) → Buf (Elt Ideal) ℓ) (ρ : Dev nD → PrngReg)

/-- A buffer that no operation of a stretch writes keeps its contents through the stretch. -/
macro "stretch_keeps" : tactic =>
  `(tactic| (refine StableHlo.after_of_forall_not_mem _ _ (List.forall_iff_forall_mem.mp ?_)
             simp only [List.Forall, StableHlo.nullary_writes, StableHlo.unary_writes, StableHlo.binary_writes,
               StableHlo.ternary_writes, StableHlo.quaternary_writes, StableHlo.reshape_writes, Finset.mem_singleton]
             repeat' apply And.intro
             all_goals exact StableHlo.devRef_ne_of_ne (by decide)))

/-! ## Entering the first pass -/

section Layout
variable {α : Type}

/-- An `[a]` array cast to a column `[a, 1]` reads, at `(i, u)`, the operand at `i`. -/
theorem labelColumn_cast_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

theorem V1_arg0 (c : Dev nD) : V1 m ρ c main_arg0 = m ((c : Thread nD τ).loc main_arg0) := by
  show StableHlo.after hostOps0 (W0 m ρ c) (Proc.devRef .tc main_arg0) = _
  refine Eq.trans (by stretch_keeps) rfl
theorem V1_arg2 (c : Dev nD) : V1 m ρ c main_arg2 = m ((c : Thread nD τ).loc main_arg2) := by
  show StableHlo.after hostOps0 (W0 m ρ c) (Proc.devRef .tc main_arg2) = _
  refine Eq.trans (by stretch_keeps) rfl
/-- The label column is the label vector: entry `(i, 0)` is entry `i`. -/
theorem V1_v0 (c : Dev nD) (i : Fin 16384) : V1 m ρ c main_v0 (ix2 i 0) = m ((c : Thread nD τ).loc main_arg1) (ix1 i) := by
  have e : (V1 m ρ c main_v0 : S16384x1.Idx → BitVec 32)
      = shapeCast S16384x1 (m ((c : Thread nD τ).loc main_arg1)) shapeCasts_S16384_S16384x1 := by
    show StableHlo.after hostOps0 (W0 m ρ c) (Proc.devRef .tc main_v0) = _
    after_results
    rfl
  rw [e]
  exact labelColumn_cast_apply _ _ i 0
/-- The bias row is the bias vector: entry `(0, o)` is entry `o`. -/
theorem V1_v1 (c : Dev nD) (o : Fin 256) : V1 m ρ c main_v1 (ix2 0 o) = m ((c : Thread nD τ).loc main_arg3) (ix1 o) := by
  have e : (V1 m ρ c main_v1 : S1x256.Idx → Ideal .f32)
      = shapeCast S1x256 (m ((c : Thread nD τ).loc main_arg3)) shapeCasts_S256_S1x256 := by
    show StableHlo.after hostOps0 (W0 m ρ c) (Proc.devRef .tc main_v1) = _
    after_results
    rfl
  rw [e]
  exact shapeCast_a_1a_apply _ _ 0 o

/-! ## Entering the second pass -/

/-- The first pass's fourth result is what the second pass reads: no host operation in between writes it. -/
theorem V9_v2_3 (c : Dev nD) : V9 m ρ c main_v2_3 = V2 m ρ c main_v2_3 :=
  calc W9 m ρ c (Proc.devRef .tc main_v2_3)
    _ = W8 m ρ c (Proc.devRef .tc main_v2_3) := by stretch_keeps
    _ = W7 m ρ c (Proc.devRef .tc main_v2_3) := by stretch_keeps
    _ = W6 m ρ c (Proc.devRef .tc main_v2_3) := by stretch_keeps
    _ = W5 m ρ c (Proc.devRef .tc main_v2_3) := by stretch_keeps
    _ = W4 m ρ c (Proc.devRef .tc main_v2_3) := by stretch_keeps
    _ = W3 m ρ c (Proc.devRef .tc main_v2_3) := by stretch_keeps
    _ = W2 m ρ c (Proc.devRef .tc main_v2_3) := by stretch_keeps
/-- The label column is still the one the first pass was entered with: no host operation in between writes it, and the
    first pass only reads it. -/
theorem V9_v0 (c : Dev nD) : V9 m ρ c main_v0 = V1 m ρ c main_v0 :=
  calc W9 m ρ c (Proc.devRef .tc main_v0)
    _ = W8 m ρ c (Proc.devRef .tc main_v0) := by stretch_keeps
    _ = W7 m ρ c (Proc.devRef .tc main_v0) := by stretch_keeps
    _ = W6 m ρ c (Proc.devRef .tc main_v0) := by stretch_keeps
    _ = W5 m ρ c (Proc.devRef .tc main_v0) := by stretch_keeps
    _ = W4 m ρ c (Proc.devRef .tc main_v0) := by stretch_keeps
    _ = W3 m ρ c (Proc.devRef .tc main_v0) := by stretch_keeps
    _ = W2 m ρ c (Proc.devRef .tc main_v0) := by stretch_keeps
    _ = W1 m ρ c (Proc.devRef .tc main_v0) :=
      (W2_arr m ρ c 1).trans (((dat0 (V1 m ρ) c).arrAt_in 1 rfl _).trans (A_eq0 (V1 m ρ) c 1))

/-! ## Each stretch of host operations between the passes, from any contents `X` before it

The buffers a stretch reads are named by hypotheses, so that a stretch's result is a small term over the names. -/

section Stretches
variable (X : Valuation τ sig (Elt Ideal))

theorem s0_v27 (a6 : FVec Ideal S2x1x1024 .f32) (h6 : X (Proc.devRef .tc main_v2_2) = a6) :
    StableHlo.after (hostOps1 (F := Ideal)) X (Proc.devRef .tc main_v27) = posCol a6 := by
  subst h6
  after_results
  rfl
set_option maxHeartbeats 2000000 in
theorem s0_v29 (a4 : FVec Ideal S2x1x1024 .f32) (a5 : FVec Ideal S2x1024x1024 .f32) (a6 : FVec Ideal S2x1x1024 .f32)
    (h4 : X (Proc.devRef .tc main_v2_0) = a4) (h5 : X (Proc.devRef .tc main_v2_1) = a5) (h6 : X (Proc.devRef .tc main_v2_2) = a6) :
    StableHlo.after (hostOps1 (F := Ideal)) X (Proc.devRef .tc main_v29) = quot a4 a5 a6 := by
  subst h4 h5 h6
  after_results_simp
  rfl
theorem s0_cst2 :
    StableHlo.after (hostOps1 (F := Ideal)) X (Proc.devRef .tc main_cst_2) = constant (F := Ideal) S_ .f32 0x00000000#32 := by
  after_results

end Stretches

section Stretches2
variable (X : Valuation τ sig (Elt Ideal))

theorem s0_arg4 : StableHlo.after (hostOps1 (F := Ideal)) X (Proc.devRef .tc main_arg4) = X (Proc.devRef .tc main_arg4) := by stretch_keeps
theorem s0_arg5 : StableHlo.after (hostOps1 (F := Ideal)) X (Proc.devRef .tc main_arg5) = X (Proc.devRef .tc main_arg5) := by stretch_keeps

theorem s1_v30 (p : IVec S1024x1 1) (q : FVec Ideal S1024x1024 .f32) (z : FVec Ideal S_ .f32)
    (hp : X (Proc.devRef .tc main_v27) = p) (hq : X (Proc.devRef .tc main_v29) = q) (hz : X (Proc.devRef .tc main_cst_2) = z) :
    StableHlo.after (hostOps1_1 (F := Ideal)) X (Proc.devRef .tc main_v30)
      = select (broadcastInDim S1024x1024 ![0, 1] bcast_S1024x1_S1024x1024_0_1 p) q (broadcastInDim S1024x1024 ![] bcast_S_S1024x1024 z) := by
  subst hp hq hz
  after_results
  simp only [StableHlo.TRef.ofBuf, StableHlo.TRef.toBuf, cast_eq]
  try rfl
theorem s1_arg4 : StableHlo.after (hostOps1_1 (F := Ideal)) X (Proc.devRef .tc main_arg4) = X (Proc.devRef .tc main_arg4) := by stretch_keeps
theorem s1_arg5 : StableHlo.after (hostOps1_1 (F := Ideal)) X (Proc.devRef .tc main_arg5) = X (Proc.devRef .tc main_arg5) := by stretch_keeps

theorem s2_v34 : StableHlo.after (hostOps1_2 (F := Ideal)) X (Proc.devRef .tc main_v34) = validCol := by
  after_results
  try rfl
theorem s2_cst3 :
    StableHlo.after (hostOps1_2 (F := Ideal)) X (Proc.devRef .tc main_cst_3) = constant (F := Ideal) S_ .f32 0x00000000#32 := by
  after_results
  try rfl
theorem s2_v30 : StableHlo.after (hostOps1_2 (F := Ideal)) X (Proc.devRef .tc main_v30) = X (Proc.devRef .tc main_v30) := by stretch_keeps
theorem s2_arg4 : StableHlo.after (hostOps1_2 (F := Ideal)) X (Proc.devRef .tc main_arg4) = X (Proc.devRef .tc main_arg4) := by stretch_keeps
theorem s2_arg5 : StableHlo.after (hostOps1_2 (F := Ideal)) X (Proc.devRef .tc main_arg5) = X (Proc.devRef .tc main_arg5) := by stretch_keeps

theorem s3_v35 (p : IVec S1024x1 1) (q : FVec Ideal S1024x1024 .f32) (z : FVec Ideal S_ .f32)
    (hp : X (Proc.devRef .tc main_v34) = p) (hq : X (Proc.devRef .tc main_v30) = q) (hz : X (Proc.devRef .tc main_cst_3) = z) :
    StableHlo.after (hostOps1_3 (F := Ideal)) X (Proc.devRef .tc main_v35)
      = select (broadcastInDim S1024x1024 ![0, 1] bcast_S1024x1_S1024x1024_0_1 p) q (broadcastInDim S1024x1024 ![] bcast_S_S1024x1024 z) := by
  subst hp hq hz
  after_results
  simp only [StableHlo.TRef.ofBuf, StableHlo.TRef.toBuf, cast_eq]
  try rfl
theorem s3_v34 : StableHlo.after (hostOps1_3 (F := Ideal)) X (Proc.devRef .tc main_v34) = X (Proc.devRef .tc main_v34) := by stretch_keeps
theorem s3_arg4 : StableHlo.after (hostOps1_3 (F := Ideal)) X (Proc.devRef .tc main_arg4) = X (Proc.devRef .tc main_arg4) := by stretch_keeps
theorem s3_arg5 : StableHlo.after (hostOps1_3 (F := Ideal)) X (Proc.devRef .tc main_arg5) = X (Proc.devRef .tc main_arg5) := by stretch_keeps

theorem s4_v42 (M : FVec Ideal S1024x1024 .f32) (w2 : FVec Ideal S256x1024 .f32) (b2 : FVec Ideal S256 .f32)
    (hM : X (Proc.devRef .tc main_v35) = M) (hw : X (Proc.devRef .tc main_arg4) = w2) (hb : X (Proc.devRef .tc main_arg5) = b2) :
    StableHlo.after (hostOps1_4 (F := Ideal)) X (Proc.devRef .tc main_v42) = lin2 M w2 b2 := by
  subst hM hw hb
  after_results
  try rfl
theorem s4_cst4 :
    StableHlo.after (hostOps1_4 (F := Ideal)) X (Proc.devRef .tc main_cst_4) = constant (F := Ideal) S_ .f32 0x00000000#32 := by
  after_results
  try rfl
theorem s4_v34 : StableHlo.after (hostOps1_4 (F := Ideal)) X (Proc.devRef .tc main_v34) = X (Proc.devRef .tc main_v34) := by stretch_keeps

theorem s5_v43 (p : IVec S1024x1 1) (q : FVec Ideal S1024x256 .f32) (z : FVec Ideal S_ .f32)
    (hp : X (Proc.devRef .tc main_v34) = p) (hq : X (Proc.devRef .tc main_v42) = q) (hz : X (Proc.devRef .tc main_cst_4) = z) :
    StableHlo.after (hostOps1_5 (F := Ideal)) X (Proc.devRef .tc main_v43)
      = select (broadcastInDim S1024x256 ![0, 1] bcast_S1024x1_S1024x256_0_1 p) q (broadcastInDim S1024x256 ![] bcast_S_S1024x256 z) := by
  subst hp hq hz
  after_results
  simp only [StableHlo.TRef.ofBuf, StableHlo.TRef.toBuf, cast_eq]
  try rfl

theorem s6_v44 (q : FVec Ideal S1024x256 .f32) (hq : X (Proc.devRef .tc main_v43) = q) :
    StableHlo.after (hostOps1_6 (F := Ideal)) X (Proc.devRef .tc main_v44) = truncf .bf16 q bitsLt_bf16_f32 := by
  subst hq
  after_results
  try rfl

end Stretches2

/-! ## From the second pass's entry back to the first pass's exit, stretch by stretch -/

section Walk
variable (c : Dev nD)

theorem W2_arg4 : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := by stretch_keeps
    _ = m ((c : Thread nD τ).loc main_arg4) := rfl
theorem W2_arg5 : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := by stretch_keeps
    _ = m ((c : Thread nD τ).loc main_arg5) := rfl

theorem W3_v27 : W3 m ρ c (Proc.devRef .tc main_v27) = posCol (V2 m ρ c main_v2_2) :=
  s0_v27 (W2 m ρ c) _ rfl
theorem W3_v29 : W3 m ρ c (Proc.devRef .tc main_v29) = quot (V2 m ρ c main_v2_0) (V2 m ρ c main_v2_1) (V2 m ρ c main_v2_2) :=
  s0_v29 (W2 m ρ c) _ _ _ rfl rfl rfl
theorem W3_cst2 : W3 m ρ c (Proc.devRef .tc main_cst_2) = constant (F := Ideal) S_ .f32 0x00000000#32 :=
  s0_cst2 (W2 m ρ c)
theorem W3_arg4 : W3 m ρ c (Proc.devRef .tc main_arg4) = m ((c : Thread nD τ).loc main_arg4) :=
  (s0_arg4 (W2 m ρ c)).trans (W2_arg4 m ρ c)
theorem W3_arg5 : W3 m ρ c (Proc.devRef .tc main_arg5) = m ((c : Thread nD τ).loc main_arg5) :=
  (s0_arg5 (W2 m ρ c)).trans (W2_arg5 m ρ c)

theorem W4_v30 : W4 m ρ c (Proc.devRef .tc main_v30) = mean1 (V2 m ρ c main_v2_0) (V2 m ρ c main_v2_1) (V2 m ρ c main_v2_2) :=
  s1_v30 (W3 m ρ c) _ _ _ (W3_v27 m ρ c) (W3_v29 m ρ c) (W3_cst2 m ρ c)
theorem W4_arg4 : W4 m ρ c (Proc.devRef .tc main_arg4) = m ((c : Thread nD τ).loc main_arg4) :=
  (s1_arg4 (W3 m ρ c)).trans (W3_arg4 m ρ c)
theorem W4_arg5 : W4 m ρ c (Proc.devRef .tc main_arg5) = m ((c : Thread nD τ).loc main_arg5) :=
  (s1_arg5 (W3 m ρ c)).trans (W3_arg5 m ρ c)

theorem W5_v34 : W5 m ρ c (Proc.devRef .tc main_v34) = validCol := s2_v34 (W4 m ρ c)
theorem W5_cst3 : W5 m ρ c (Proc.devRef .tc main_cst_3) = constant (F := Ideal) S_ .f32 0x00000000#32 := s2_cst3 (W4 m ρ c)
theorem W5_v30 : W5 m ρ c (Proc.devRef .tc main_v30) = mean1 (V2 m ρ c main_v2_0) (V2 m ρ c main_v2_1) (V2 m ρ c main_v2_2) :=
  (s2_v30 (W4 m ρ c)).trans (W4_v30 m ρ c)
theorem W5_arg4 : W5 m ρ c (Proc.devRef .tc main_arg4) = m ((c : Thread nD τ).loc main_arg4) :=
  (s2_arg4 (W4 m ρ c)).trans (W4_arg4 m ρ c)
theorem W5_arg5 : W5 m ρ c (Proc.devRef .tc main_arg5) = m ((c : Thread nD τ).loc main_arg5) :=
  (s2_arg5 (W4 m ρ c)).trans (W4_arg5 m ρ c)

theorem W6_v35 : W6 m ρ c (Proc.devRef .tc main_v35) = mean2 (V2 m ρ c main_v2_0) (V2 m ρ c main_v2_1) (V2 m ρ c main_v2_2) :=
  s3_v35 (W5 m ρ c) _ _ _ (W5_v34 m ρ c) (W5_v30 m ρ c) (W5_cst3 m ρ c)
theorem W6_v34 : W6 m ρ c (Proc.devRef .tc main_v34) = validCol := (s3_v34 (W5 m ρ c)).trans (W5_v34 m ρ c)
theorem W6_arg4 : W6 m ρ c (Proc.devRef .tc main_arg4) = m ((c : Thread nD τ).loc main_arg4) :=
  (s3_arg4 (W5 m ρ c)).trans (W5_arg4 m ρ c)
theorem W6_arg5 : W6 m ρ c (Proc.devRef .tc main_arg5) = m ((c : Thread nD τ).loc main_arg5) :=
  (s3_arg5 (W5 m ρ c)).trans (W5_arg5 m ρ c)

theorem W7_v42 : W7 m ρ c (Proc.devRef .tc main_v42)
    = lin2 (mean2 (V2 m ρ c main_v2_0) (V2 m ρ c main_v2_1) (V2 m ρ c main_v2_2))
        (m ((c : Thread nD τ).loc main_arg4)) (m ((c : Thread nD τ).loc main_arg5)) :=
  s4_v42 (W6 m ρ c) _ _ _ (W6_v35 m ρ c) (W6_arg4 m ρ c) (W6_arg5 m ρ c)
theorem W7_cst4 : W7 m ρ c (Proc.devRef .tc main_cst_4) = constant (F := Ideal) S_ .f32 0x00000000#32 := s4_cst4 (W6 m ρ c)
theorem W7_v34 : W7 m ρ c (Proc.devRef .tc main_v34) = validCol := (s4_v34 (W6 m ρ c)).trans (W6_v34 m ρ c)

theorem W8_v43 : W8 m ρ c (Proc.devRef .tc main_v43)
    = select (broadcastInDim S1024x256 ![0, 1] bcast_S1024x1_S1024x256_0_1 validCol)
        (lin2 (mean2 (V2 m ρ c main_v2_0) (V2 m ρ c main_v2_1) (V2 m ρ c main_v2_2))
          (m ((c : Thread nD τ).loc main_arg4)) (m ((c : Thread nD τ).loc main_arg5)))
        (broadcastInDim S1024x256 ![] bcast_S_S1024x256 (constant (F := Ideal) S_ .f32 0x00000000#32)) :=
  s5_v43 (W7 m ρ c) _ _ _ (W7_v34 m ρ c) (W7_v42 m ρ c) (W7_cst4 m ρ c)

/-- The table the second pass is entered with is the composed term of the first pass's three results. -/
theorem V9_v44_term : V9 m ρ c main_v44
    = table (V2 m ρ c main_v2_0) (V2 m ρ c main_v2_1) (V2 m ρ c main_v2_2)
        (m ((c : Thread nD τ).loc main_arg4)) (m ((c : Thread nD τ).loc main_arg5)) :=
  s6_v44 (W8 m ρ c) _ (W8_v43 m ρ c)

end Walk

/-- The table: the host operations between the passes, composed and read at an index. -/
theorem V9_v44 (c : Dev nD) : V9 m ρ c main_v44
    = Cert.Spec.projTable (V2 m ρ c main_v2_0) (V2 m ρ c main_v2_1) (V2 m ρ c main_v2_2)
        (m ((c : Thread nD τ).loc main_arg4)) (m ((c : Thread nD τ).loc main_arg5)) :=
  (V9_v44_term m ρ c).trans (table_eq _ _ _ _ _)

end Cert.KernelIdeal.Host

end
-- ==== Proof.KernelValue.lean ====
/-
  The kernel program's result over the extended reals: the two passes and the host operations around them, composed,
  are the function `G` of the arguments when every label is one of the 1000 classes.
-/
import proofs.«406085_j19146964206107_2_alg».proof.Proof.Region0
import proofs.«406085_j19146964206107_2_alg».proof.Proof.Region0Lin
import proofs.«406085_j19146964206107_2_alg».proof.Proof.Region1
import proofs.«406085_j19146964206107_2_alg».proof.Proof.SpecLaws
import proofs.«406085_j19146964206107_2_alg».proof.Proof.Host
import proofs.«406085_j19146964206107_2_alg».proof.Proof.KernelIdealRun

set_option maxRecDepth 16384

noncomputable section

namespace Cert.KernelIdeal.KValue

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- The result buffer's contents at the last boundary are `G` of the arguments. -/
theorem result_eq (c : Dev nD)
    (hlab : ∀ i : Fin 16384, (m ((c : Thread nD τ).loc main_arg1) (ix1 i)).toNat < 1000) :
    W10 m ρ c (Proc.devRef .tc main_v45)
      = Cert.Spec.G (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  -- the result buffer is the second pass's output window
  refine (W10_arr m ρ c 3).trans ?_
  rw [Cert.KernelIdeal.R1.arr3 (V9 m ρ) c, Host.V9_v2_3, Host.V9_v0, Host.V9_v44]
  -- the first pass's arrays at its exit
  rw [← hF0 m ρ c 7, ← hF0 m ρ c 4, ← hF0 m ρ c 5, ← hF0 m ρ c 6]
  rw [Cert.KernelIdeal.R0Lin.arr7 (V1 m ρ) c, Cert.KernelIdeal.R0.arr4 (V1 m ρ) c, Cert.KernelIdeal.R0.arr5 (V1 m ρ) c,
    Cert.KernelIdeal.R0.arr6 (V1 m ρ) c, Host.V1_arg0, Host.V1_arg2]
  exact Cert.Spec.comb_eq_G _ _ _ _ _ _ hlab _ (Host.V1_v0 m ρ c) _ (Host.V1_v1 m ρ c)

end Cert.KernelIdeal.KValue

end
-- ==== Proof.RefIsG.lean ====
/-
  The reference program's result, over the extended reals, is the function `G` of its arguments when every label is one
  of the 1000 classes: the accumulating scatters are the per-class sums and counts, the gathers read the label's row of
  them (a label in range is neither wrapped nor clamped), the rest is read operation by operation.
-/
import proofs.«406085_j19146964206107_2_alg».proof.Proof.RefReadP
import proofs.«406085_j19146964206107_2_alg».proof.Proof.Spec
import Idealize.ShloMosaic.PureOps.Dims
import Idealize.ShloMosaic.PureOps.ShapeOps
import Idealize.ShloMosaic.PureOps.Contract
import Idealize.ShloMosaic.Lib.ValueIdx
import Idealize.ShloMosaic.PureOps.Ideal.Laws
import Idealize.ShloMosaic.Lib.IdealHost
import Idealize.ShloMosaic.Lib.ValueIdxRank1

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.ReadP
open scoped BigOperators

/-! ## Label words below 1000 -/

/-- A label word below 1000 read as a signed word is its unsigned value. -/
theorem toInt_of_lt (l : BitVec 32) (h : l.toNat < 1000) : l.toInt = (l.toNat : Int) := by
  rw [BitVec.toInt_eq_toNat_cond, if_pos (by omega)]

/-- Such a word is not below zero as a signed word. -/
theorem slt_zero_of_lt (l : BitVec 32) (h : l.toNat < 1000) : IntOp.cmpi .slt l 0#32 = 0#1 := by
  have e := toInt_of_lt l h
  have hs : l.slt 0#32 = false := by
    rw [BitVec.slt, e]; simp
  show BitVec.ofBool (l.slt 0#32) = 0#1
  rw [hs]; rfl

/-! ## The accumulating scatter of rows -/

section ScatterRows
variable (idx : IVec S16384x1 32)

abbrev dRows := scatter_S1000x1024_S16384x1_S16384x1024_1_0_0_1

theorem rows_start0 (i : Fin 16384) (b : Fin 1024) :
    dRows.start (ix2 i b) idx 0 = (idx (ix2 i 0)).toInt := by
  unfold ScatterDims.start
  rw [dif_pos (show (0 : Fin S1000x1024.rank) ∈ dRows.scatterDimsToOperandDims by decide)]
  refine congrArg (fun q => (idx q).toInt) (funext fun a => Fin.ext ?_)
  match a with
  | ⟨0, _⟩ => rfl
  | ⟨1, _⟩ => rfl

theorem rows_start1 (i : Fin 16384) (b : Fin 1024) :
    dRows.start (ix2 i b) idx 1 = 0 := by
  unfold ScatterDims.start
  rw [dif_neg (show ¬ (1 : Fin S1000x1024.rank) ∈ dRows.scatterDimsToOperandDims by decide)]

theorem rows_window0 (i : Fin 16384) (b : Fin 1024) :
    dRows.window (ix2 i b : S16384x1024.Idx) 0 = 0 := by
  unfold ScatterDims.window
  rw [dif_neg (show ¬ (0 : Fin S1000x1024.rank) ∈ dRows.sKept by decide)]

theorem rows_window1 (i : Fin 16384) (b : Fin 1024) :
    dRows.window (ix2 i b : S16384x1024.Idx) 1 = b.val := by
  unfold ScatterDims.window
  rw [dif_pos (show (1 : Fin S1000x1024.rank) ∈ dRows.sKept by decide)]
  rfl

/-- Update row `i`, column `b` lands at the table's row of its label, column `b`. -/
theorem rows_resultIdx (hidx : ∀ i : Fin 16384, (idx (ix2 i 0)).toNat < 1000) (i : Fin 16384) (b : Fin 1024) :
    dRows.resultIdx? (ix2 i b) idx = some (ix2 (⟨(idx (ix2 i 0)).toNat, hidx i⟩ : Fin 1000) b) := by
  have e := toInt_of_lt _ (hidx i)
  have hi := hidx i
  have hb := b.isLt
  have h : ∀ a : Fin S1000x1024.rank, 0 ≤ dRows.start (ix2 i b) idx a + dRows.window (ix2 i b : S16384x1024.Idx) a
      ∧ dRows.start (ix2 i b) idx a + dRows.window (ix2 i b : S16384x1024.Idx) a < S1000x1024.size a := by
    intro a
    match a with
    | ⟨0, _⟩ =>
      show 0 ≤ dRows.start (ix2 i b) idx 0 + dRows.window (ix2 i b : S16384x1024.Idx) 0
        ∧ dRows.start (ix2 i b) idx 0 + dRows.window (ix2 i b : S16384x1024.Idx) 0 < (1000 : Nat)
      rw [rows_start0, rows_window0, e]; omega
    | ⟨1, _⟩ =>
      show 0 ≤ dRows.start (ix2 i b) idx 1 + dRows.window (ix2 i b : S16384x1024.Idx) 1
        ∧ dRows.start (ix2 i b) idx 1 + dRows.window (ix2 i b : S16384x1024.Idx) 1 < (1024 : Nat)
      rw [rows_start1, rows_window1]; omega
  unfold ScatterDims.resultIdx?
  rw [dif_pos h]
  refine congrArg some (funext fun a => Fin.ext ?_)
  match a with
  | ⟨0, _⟩ =>
    show (dRows.start (ix2 i b) idx 0 + dRows.window (ix2 i b : S16384x1024.Idx) 0).toNat = (idx (ix2 i 0)).toNat
    rw [rows_start0, rows_window0, e]; omega
  | ⟨1, _⟩ =>
    show (dRows.start (ix2 i b) idx 1 + dRows.window (ix2 i b : S16384x1024.Idx) 1).toNat = b.val
    rw [rows_start1, rows_window1]; omega

/-- The table entry at class row `k`, column `d` after the accumulating scatter: what was there plus the sum, over the
    update rows whose label is `k`, of the row's entry in column `d`. -/
theorem scatter_rows (hidx : ∀ i : Fin 16384, (idx (ix2 i 0)).toNat < 1000)
    (z : S1000x1024.Idx → EReal) (x : S16384x1024.Idx → EReal) (k : Fin 1000) (d : Fin 1024) :
    Ideal.hostScatterAdd dRows z idx x (ix2 k d)
      = z (ix2 k d) + ∑ i : Fin 16384, if (idx (ix2 i 0)).toNat = k.val then x (ix2 i d) else 0 := by
  unfold Ideal.hostScatterAdd
  refine congrArg (z (ix2 k d) + ·) ?_
  rw [Finset.sum_filter, sum_idx2]
  refine Finset.sum_congr rfl fun i _ => ?_
  by_cases hk : (idx (ix2 i 0)).toNat = k.val
  · rw [if_pos hk, Finset.sum_eq_single d]
    · rw [if_pos]
      rw [rows_resultIdx idx hidx]
      exact congrArg some (congrArg (fun q => ix2 q d) (Fin.ext hk))
    · intro b _ hb
      rw [if_neg]
      rw [rows_resultIdx idx hidx]
      intro h
      exact hb (congrFun (Option.some.inj h) 1)
    · intro h; exact absurd (Finset.mem_univ d) h
  · rw [if_neg hk]
    refine Finset.sum_eq_zero fun b _ => ?_
    rw [if_neg]
    rw [rows_resultIdx idx hidx]
    intro h
    exact hk (congrArg Fin.val (congrFun (Option.some.inj h) 0))

end ScatterRows

/-! ## The accumulating scatter of counts -/

section ScatterCount
variable (idx : IVec S16384x1 32)

abbrev dCnt := scatter_S1000_S16384x1_S16384_n_0_0_1

theorem cnt_start0 (i : Fin 16384) :
    dCnt.start (ix1 i) idx 0 = (idx (ix2 i 0)).toInt := by
  unfold ScatterDims.start
  rw [dif_pos (show (0 : Fin S1000.rank) ∈ dCnt.scatterDimsToOperandDims by decide)]
  refine congrArg (fun q => (idx q).toInt) (funext fun a => Fin.ext ?_)
  match a with
  | ⟨0, _⟩ => rfl
  | ⟨1, _⟩ => rfl

theorem cnt_window0 (i : Fin 16384) :
    dCnt.window (ix1 i : S16384.Idx) 0 = 0 := by
  unfold ScatterDims.window
  rw [dif_neg (show ¬ (0 : Fin S1000.rank) ∈ dCnt.sKept by decide)]

/-- Update `i` lands at the table's entry of its label. -/
theorem cnt_resultIdx (hidx : ∀ i : Fin 16384, (idx (ix2 i 0)).toNat < 1000) (i : Fin 16384) :
    dCnt.resultIdx? (ix1 i) idx = some (ix1 (⟨(idx (ix2 i 0)).toNat, hidx i⟩ : Fin 1000)) := by
  have e := toInt_of_lt _ (hidx i)
  have hi := hidx i
  have h : ∀ a : Fin S1000.rank, 0 ≤ dCnt.start (ix1 i) idx a + dCnt.window (ix1 i : S16384.Idx) a
      ∧ dCnt.start (ix1 i) idx a + dCnt.window (ix1 i : S16384.Idx) a < S1000.size a := by
    intro a
    match a with
    | ⟨0, _⟩ =>
      show 0 ≤ dCnt.start (ix1 i) idx 0 + dCnt.window (ix1 i : S16384.Idx) 0
        ∧ dCnt.start (ix1 i) idx 0 + dCnt.window (ix1 i : S16384.Idx) 0 < (1000 : Nat)
      rw [cnt_start0, cnt_window0, e]; omega
  unfold ScatterDims.resultIdx?
  rw [dif_pos h]
  refine congrArg some (funext fun a => Fin.ext ?_)
  match a with
  | ⟨0, _⟩ =>
    show (dCnt.start (ix1 i) idx 0 + dCnt.window (ix1 i : S16384.Idx) 0).toNat = (idx (ix2 i 0)).toNat
    rw [cnt_start0, cnt_window0, e]; omega

/-- The table entry of class `k` after the accumulating scatter: what was there plus the sum of the updates whose
    label is `k`. -/
theorem scatter_cnt (hidx : ∀ i : Fin 16384, (idx (ix2 i 0)).toNat < 1000)
    (z : S1000.Idx → EReal) (u : S16384.Idx → EReal) (k : Fin 1000) :
    Ideal.hostScatterAdd dCnt z idx u (ix1 k)
      = z (ix1 k) + ∑ i : Fin 16384, if (idx (ix2 i 0)).toNat = k.val then u (ix1 i) else 0 := by
  unfold Ideal.hostScatterAdd
  refine congrArg (z (ix1 k) + ·) ?_
  rw [Finset.sum_filter, ← Equiv.sum_comp (idxEquiv1 (n := 16384)).symm]
  refine Finset.sum_congr rfl fun i _ => ?_
  show (if dCnt.resultIdx? (ix1 i) idx = some (ix1 k) then u (ix1 i) else 0) = _
  rw [cnt_resultIdx idx hidx]
  by_cases hk : (idx (ix2 i 0)).toNat = k.val
  · rw [if_pos hk, if_pos]
    exact congrArg some (congrArg ix1 (Fin.ext hk))
  · rw [if_neg hk, if_neg]
    intro h
    exact hk (congrArg Fin.val (congrFun (Option.some.inj h) 0))

end ScatterCount

/-! ## The two gathers -/

section Gathers
variable {α : Type} (idx : IVec S16384x1 32)

abbrev gRows := gather_S1000x1024_S16384x1_S16384x1024_1_0_n_n_0_1_11024
abbrev gCnt := gather_S1000_S16384x1_S16384_n_0_n_n_0_1_1

/-- The row gather at row `i`, column `d`: the table at the row the start index names (read signed, clamped), column `d`. -/
theorem gather_rows (T : S1000x1024.Idx → α) (i : Fin 16384) (d : Fin 1024) :
    Host.gather gRows T idx (ix2 i d)
      = T (ix2 (⟨min (idx (ix2 i 0)).toInt.toNat 999, by omega⟩ : Fin 1000) d) := by
  unfold Host.gather
  refine congrArg T (funext fun a => Fin.ext ?_)
  match a with
  | ⟨0, _⟩ =>
    show gRows.start (ix2 i d) idx 0 + gRows.batchCoord (ix2 i d : S16384x1024.Idx) 0 + gRows.offCoord (ix2 i d : S16384x1024.Idx) 0 = _
    rw [GatherDims.batchCoord_eq_zero _ _ _ (show ¬ (0 : Fin S1000x1024.rank) ∈ gRows.operandBatchingDims by decide),
      GatherDims.offCoord_eq_zero _ _ _ (show ¬ (0 : Fin S1000x1024.rank) ∈ gRows.sKept by decide)]
    unfold GatherDims.start
    rw [dif_pos (show (0 : Fin S1000x1024.rank) ∈ gRows.startIndexMap by decide)]
    have hsi : gRows.siIdx (ix2 i d : S16384x1024.Idx) ⟨List.idxOf (0 : Fin S1000x1024.rank) gRows.startIndexMap,
        List.idxOf_lt_length_iff.2 (show (0 : Fin S1000x1024.rank) ∈ gRows.startIndexMap by decide)⟩ = ix2 i 0 := by
      funext b; refine Fin.ext ?_
      match b with
      | ⟨0, _⟩ => rfl
      | ⟨1, _⟩ => rfl
    rw [hsi]
    rfl
  | ⟨1, _⟩ =>
    show gRows.start (ix2 i d) idx 1 + gRows.batchCoord (ix2 i d : S16384x1024.Idx) 1 + gRows.offCoord (ix2 i d : S16384x1024.Idx) 1 = d.val
    rw [GatherDims.batchCoord_eq_zero _ _ _ (show ¬ (1 : Fin S1000x1024.rank) ∈ gRows.operandBatchingDims by decide)]
    unfold GatherDims.start
    rw [dif_neg (show ¬ (1 : Fin S1000x1024.rank) ∈ gRows.startIndexMap by decide)]
    unfold GatherDims.offCoord
    rw [dif_pos (show (1 : Fin S1000x1024.rank) ∈ gRows.sKept by decide)]
    show 0 + 0 + d.val = d.val
    omega

/-- The count gather at row `i`: the table at the entry the start index names (read signed, clamped). -/
theorem gather_cnt (T : S1000.Idx → α) (i : Fin 16384) :
    Host.gather gCnt T idx (ix1 i)
      = T (ix1 (⟨min (idx (ix2 i 0)).toInt.toNat 999, by omega⟩ : Fin 1000)) := by
  unfold Host.gather
  refine congrArg T (funext fun a => Fin.ext ?_)
  match a with
  | ⟨0, _⟩ =>
    show gCnt.start (ix1 i) idx 0 + gCnt.batchCoord (ix1 i : S16384.Idx) 0 + gCnt.offCoord (ix1 i : S16384.Idx) 0 = _
    rw [GatherDims.batchCoord_eq_zero _ _ _ (show ¬ (0 : Fin S1000.rank) ∈ gCnt.operandBatchingDims by decide),
      GatherDims.offCoord_eq_zero _ _ _ (show ¬ (0 : Fin S1000.rank) ∈ gCnt.sKept by decide)]
    unfold GatherDims.start
    rw [dif_pos (show (0 : Fin S1000.rank) ∈ gCnt.startIndexMap by decide)]
    have hsi : gCnt.siIdx (ix1 i : S16384.Idx) ⟨List.idxOf (0 : Fin S1000.rank) gCnt.startIndexMap,
        List.idxOf_lt_length_iff.2 (show (0 : Fin S1000.rank) ∈ gCnt.startIndexMap by decide)⟩ = ix2 i 0 := by
      funext b; refine Fin.ext ?_
      match b with
      | ⟨0, _⟩ => rfl
      | ⟨1, _⟩ => rfl
    rw [hsi]
    rfl

end Gathers

/-! ## The stages that carry labels -/

section Stages
variable (x0 : (⟨S16384x1024, .f32⟩ : BufTy).Contents (Elt Ideal)) (x1 : (⟨S16384, .i32⟩ : BufTy).Contents (Elt Ideal))

/-- The label column (first scatter's indices) at row `i` is the label. -/
theorem v1_at (i : Fin 16384) : val_main_v1 (F := Ideal) x1 (ix2 i 0) = x1 (ix1 i) := by
  rw [val_main_v1_apply]
  exact congrArg x1 (funext fun a => Fin.ext (by match a with | ⟨0, _⟩ => rfl))

/-- The label column (second scatter's indices) at row `i` is the label. -/
theorem v5_at (i : Fin 16384) : val_main_v5 (F := Ideal) x1 (ix2 i 0) = x1 (ix1 i) := by
  rw [val_main_v5_apply]
  exact congrArg x1 (funext fun a => Fin.ext (by match a with | ⟨0, _⟩ => rfl))

/-- A label in range is not wrapped: the normalised index column of the row gather at row `i` is the label. -/
theorem v14_at (hlab : ∀ i : Fin 16384, (x1 (ix1 i)).toNat < 1000) (i : Fin 16384) :
    val_main_v14 (F := Ideal) x1 (ix2 i 0) = x1 (ix1 i) := by
  have e : idx_main_v14 (ix2 i (0 : Fin 1) : S16384x1.Idx) = ix1 i :=
    funext fun a => Fin.ext (by match a with | ⟨0, _⟩ => rfl)
  rw [val_main_v14_apply, e, val_main_v13_apply, val_main_v10_apply, val_main_v9_apply, val_main_c_apply,
    slt_zero_of_lt _ (hlab i), select_zero]

/-- The same for the count gather's index column. -/
theorem v23_at (hlab : ∀ i : Fin 16384, (x1 (ix1 i)).toNat < 1000) (i : Fin 16384) :
    val_main_v23 (F := Ideal) x1 (ix2 i 0) = x1 (ix1 i) := by
  have e : idx_main_v23 (ix2 i (0 : Fin 1) : S16384x1.Idx) = ix1 i :=
    funext fun a => Fin.ext (by match a with | ⟨0, _⟩ => rfl)
  rw [val_main_v23_apply, e, val_main_v22_apply, val_main_v19_apply, val_main_v18_apply, val_main_c_4_apply,
    slt_zero_of_lt _ (hlab i), select_zero]

/-- The table of per-class column sums: entry (`k`, `d`) is the sum of column `d` over the rows labelled `k`. -/
theorem v2_at (hlab : ∀ i : Fin 16384, (x1 (ix1 i)).toNat < 1000) (k : Fin 1000) (d : Fin 1024) :
    val_main_v2 (F := Ideal) x0 x1 (ix2 k d)
      = ∑ i : Fin 16384, if (x1 (ix1 i)).toNat = k.val then x0 (ix2 i d) else 0 := by
  have hidx : ∀ i : Fin 16384, (val_main_v1 (F := Ideal) x1 (ix2 i 0)).toNat < 1000 := fun i => by
    rw [v1_at]; exact hlab i
  unfold val_main_v2
  simp only [Host.scatterAdd, Ideal.hostScatterAdd_def]
  rw [scatter_rows _ hidx, val_main_v0_apply, val_main_cst_apply, Ideal.ofBits_def, Ideal.ofBits_zero_f32, zero_add]
  refine Finset.sum_congr rfl fun i _ => ?_
  rw [v1_at]

/-- The table of per-class counts: entry `k` is the number of rows labelled `k`. -/
theorem v6_at (hlab : ∀ i : Fin 16384, (x1 (ix1 i)).toNat < 1000) (k : Fin 1000) :
    val_main_v6 (F := Ideal) x1 (ix1 k)
      = ∑ i : Fin 16384, if (x1 (ix1 i)).toNat = k.val then (1 : EReal) else 0 := by
  have hidx : ∀ i : Fin 16384, (val_main_v5 (F := Ideal) x1 (ix2 i 0)).toNat < 1000 := fun i => by
    rw [v5_at]; exact hlab i
  unfold val_main_v6
  simp only [Host.scatterAdd, Ideal.hostScatterAdd_def]
  rw [scatter_cnt _ hidx, val_main_v4_apply, val_main_cst_1_apply, Ideal.ofBits_def, Ideal.ofBits_zero_f32, zero_add]
  refine Finset.sum_congr rfl fun i _ => ?_
  rw [v5_at, val_main_v3_apply, val_main_cst_0_apply, Ideal.ofBits_def, Ideal.ofBits_one_f32]

/-- A label in range is not clamped. -/
theorem clamp_of_lt (l : BitVec 32) (h : l.toNat < 1000) : min l.toInt.toNat 999 = l.toNat := by
  rw [toInt_of_lt l h]; omega

/-- The row gather at (`i`, `d`) is the column sum over the rows of row `i`'s class. -/
theorem v15_at (hlab : ∀ i : Fin 16384, (x1 (ix1 i)).toNat < 1000) (i : Fin 16384) (d : Fin 1024) :
    val_main_v15 (F := Ideal) x0 x1 (ix2 i d) = Cert.Spec.lsum x0 x1 (x1 (ix1 i)) d := by
  unfold val_main_v15
  rw [gather_rows]
  have hk : (⟨min (val_main_v14 (F := Ideal) x1 (ix2 i 0)).toInt.toNat 999, by omega⟩ : Fin 1000)
      = ⟨(x1 (ix1 i)).toNat, hlab i⟩ := Fin.ext (by
    show min (val_main_v14 (F := Ideal) x1 (ix2 i 0)).toInt.toNat 999 = (x1 (ix1 i)).toNat
    rw [v14_at x1 hlab, clamp_of_lt _ (hlab i)])
  rw [hk, v2_at x0 x1 hlab]
  unfold Cert.Spec.lsum Cert.Spec.oh
  refine Finset.sum_congr rfl fun i' _ => ?_
  by_cases h : x1 (ix1 i') = x1 (ix1 i)
  · rw [if_pos h, if_pos (congrArg BitVec.toNat h), one_mul]
  · rw [if_neg h, if_neg (fun e => h (BitVec.eq_of_toNat_eq e)), zero_mul]

/-- The count gather at row `i` is the number of rows of row `i`'s class. -/
theorem v24_at (hlab : ∀ i : Fin 16384, (x1 (ix1 i)).toNat < 1000) (i : Fin 16384) :
    val_main_v24 (F := Ideal) x1 (ix1 i) = Cert.Spec.cnt x1 (x1 (ix1 i)) := by
  unfold val_main_v24
  rw [gather_cnt]
  have hk : (⟨min (val_main_v23 (F := Ideal) x1 (ix2 i 0)).toInt.toNat 999, by omega⟩ : Fin 1000)
      = ⟨(x1 (ix1 i)).toNat, hlab i⟩ := Fin.ext (by
    show min (val_main_v23 (F := Ideal) x1 (ix2 i 0)).toInt.toNat 999 = (x1 (ix1 i)).toNat
    rw [v23_at x1 hlab, clamp_of_lt _ (hlab i)])
  rw [hk, v6_at x1 hlab]
  unfold Cert.Spec.cnt Cert.Spec.oh
  refine Finset.sum_congr rfl fun i' _ => ?_
  by_cases h : x1 (ix1 i') = x1 (ix1 i)
  · rw [if_pos h, if_pos (congrArg BitVec.toNat h)]
  · rw [if_neg h, if_neg (fun e => h (BitVec.eq_of_toNat_eq e))]

/-- The broadcast column sums at (`i`, `d`): the sum of column `d` over all rows. -/
theorem v16_at (i : Fin 16384) (d : Fin 1024) :
    val_main_v16 (F := Ideal) x0 (ix2 i d) = Cert.Spec.tot x0 d := by
  rw [val_main_v16_apply, val_main_v8_apply, val_main_v7_apply, val_main_cst_2_apply, Ideal.ofBits_def,
    Ideal.ofBits_zero_f32, zero_add]
  unfold Cert.Spec.tot
  refine Finset.sum_congr rfl fun k _ => ?_
  exact congrArg x0 (funext fun a => Fin.ext (by match a with | ⟨0, _⟩ => rfl | ⟨1, _⟩ => rfl))

/-- The batch size less the class count, at row `i`. -/
theorem v26_at (hlab : ∀ i : Fin 16384, (x1 (ix1 i)).toNat < 1000) (i : Fin 16384) :
    val_main_v26 (F := Ideal) x1 (ix1 i)
      = FloatOps.subf (FloatOps.ofBits (F := Ideal) .f32 0x46800000#32) (Cert.Spec.cnt x1 (x1 (ix1 i))) := by
  rw [val_main_v26_apply, val_main_v25_apply, val_main_cst_6_apply, v24_at x1 hlab]

/-- The selected mean at (`i`, `d`). -/
theorem v35_at (hlab : ∀ i : Fin 16384, (x1 (ix1 i)).toNat < 1000) (i : Fin 16384) (d : Fin 1024) :
    val_main_v35 (F := Ideal) x0 x1 (ix2 i d)
      = Cert.Spec.meanS (Cert.Spec.tot x0 d) (Cert.Spec.lsum x0 x1 (x1 (ix1 i)) d) (Cert.Spec.cnt x1 (x1 (ix1 i))) := by
  have e1 : idx_main_v27 (idx_main_call0_v0 (ix2 i d : S16384x1024.Idx)) = ix1 i :=
    funext fun a => Fin.ext (by match a with | ⟨0, _⟩ => rfl)
  have e2 : idx_main_v32 (idx_main_v33 (ix2 i d : S16384x1024.Idx)) = ix1 i :=
    funext fun a => Fin.ext (by match a with | ⟨0, _⟩ => rfl)
  rw [val_main_v35_apply, val_main_call0_v0_apply, val_main_v29_apply, val_main_v27_apply, e1, val_main_v28_apply,
    val_main_cst_7_apply, val_main_v34_apply, val_main_v17_apply, val_main_v33_apply, val_main_v32_apply, e2,
    val_main_v31_apply, val_main_v30_apply, val_main_cst_8_apply, val_main_call0_v1_apply, val_main_cst_9_apply,
    v26_at x1 hlab, v16_at, v15_at x0 x1 hlab]
  rfl

end Stages

/-! ## The two linear maps and the result -/

section Result
variable (x0 : (⟨S16384x1024, .f32⟩ : BufTy).Contents (Elt Ideal)) (x1 : (⟨S16384, .i32⟩ : BufTy).Contents (Elt Ideal))
  (x2 : (⟨S256x1024, .f32⟩ : BufTy).Contents (Elt Ideal)) (x3 : (⟨S256, .f32⟩ : BufTy).Contents (Elt Ideal))
  (x4 : (⟨S256x1024, .f32⟩ : BufTy).Contents (Elt Ideal)) (x5 : (⟨S256, .f32⟩ : BufTy).Contents (Elt Ideal))

/-- The first product at (`i`, `o`). -/
theorem v37_at (i : Fin 16384) (o : Fin 256) :
    val_main_v37 (F := Ideal) x0 x2 (ix2 i o) = ∑ d : Fin 1024, x0 (ix2 i d) * x2 (ix2 o d) := by
  rw [val_main_v37_apply]
  refine Finset.sum_congr rfl fun d _ => ?_
  rw [val_main_v36_apply]
  refine congrArg₂ (· * ·) (congrArg x0 ?_) (congrArg x2 ?_)
  · exact funext fun a => Fin.ext (by match a with | ⟨0, _⟩ => rfl | ⟨1, _⟩ => rfl)
  · exact funext fun a => Fin.ext (by match a with | ⟨0, _⟩ => rfl | ⟨1, _⟩ => rfl)

/-- The second product at (`i`, `o`). -/
theorem v42_at (hlab : ∀ i : Fin 16384, (x1 (ix1 i)).toNat < 1000) (i : Fin 16384) (o : Fin 256) :
    val_main_v42 (F := Ideal) x0 x1 x4 (ix2 i o)
      = ∑ d : Fin 1024, Cert.Spec.meanS (Cert.Spec.tot x0 d) (Cert.Spec.lsum x0 x1 (x1 (ix1 i)) d)
          (Cert.Spec.cnt x1 (x1 (ix1 i))) * x4 (ix2 o d) := by
  rw [val_main_v42_apply]
  refine Finset.sum_congr rfl fun d _ => ?_
  have el : lidx_main_v42 (ix2 i o : S16384x256.Idx) d = ix2 i d :=
    funext fun a => Fin.ext (by match a with | ⟨0, _⟩ => rfl | ⟨1, _⟩ => rfl)
  have er : idx_main_v41 (ridx_main_v42 (ix2 i o : S16384x256.Idx) d) = ix2 o d :=
    funext fun a => Fin.ext (by match a with | ⟨0, _⟩ => rfl | ⟨1, _⟩ => rfl)
  rw [val_main_v41_apply, el, er, v35_at x0 x1 hlab]

/-- The first bias at (`i`, `o`). -/
theorem v39_at (i : Fin 16384) (o : Fin 256) : val_main_v39 (F := Ideal) x3 (ix2 i o) = x3 (ix1 o) := by
  rw [val_main_v39_apply, val_main_v38_apply]
  exact congrArg x3 (funext fun a => Fin.ext (by match a with | ⟨0, _⟩ => rfl))

/-- The second bias at (`i`, `o`). -/
theorem v45_at (i : Fin 16384) (o : Fin 256) : val_main_v45 (F := Ideal) x5 (ix2 i o) = x5 (ix1 o) := by
  rw [val_main_v45_apply, val_main_v44_apply]
  exact congrArg x5 (funext fun a => Fin.ext (by match a with | ⟨0, _⟩ => rfl))

end Result

/-- The reference's last stage is `G` of the arguments. -/
theorem ref_eq (x0 : (⟨S16384x1024, .f32⟩ : BufTy).Contents (Elt Ideal)) (x1 : (⟨S16384, .i32⟩ : BufTy).Contents (Elt Ideal))
    (x2 : (⟨S256x1024, .f32⟩ : BufTy).Contents (Elt Ideal)) (x3 : (⟨S256, .f32⟩ : BufTy).Contents (Elt Ideal))
    (x4 : (⟨S256x1024, .f32⟩ : BufTy).Contents (Elt Ideal)) (x5 : (⟨S256, .f32⟩ : BufTy).Contents (Elt Ideal))
    (hlab : ∀ i : Fin 16384, (x1 (ix1 i)).toNat < 1000) :
    val_main_v46 (F := Ideal) x0 x1 x2 x3 x4 x5 = Cert.Spec.G x0 x1 x2 x3 x4 x5 := by
  funext j
  obtain ⟨i, o, rfl⟩ : ∃ (i : Fin 16384) (o : Fin 256), j = ix2 i o := ⟨j 0, j 1, eq_ix2 j⟩
  rw [val_main_v46_apply, val_main_v43_apply, val_main_v40_apply, v37_at, v39_at, v42_at x0 x1 x4 hlab, v45_at]
  simp only [Ideal.addf_def]
  exact add_assoc _ _ _

end Cert.ReferenceIdeal.RefValue

end
-- ==== Proof.PreLabel.lean ====
/-
  The precondition, read: where it holds every label is one of the 1000 classes.
-/
import proofs.«406085_j19146964206107_2_alg».proof.Pre_finite_inputs
import proofs.«406085_j19146964206107_2_alg».proof.Proof.Gen.Pre_finite_inputs
import Idealize.ShloMosaic.Lib.ValueIdx
import Idealize.ShloMosaic.Lib.ReduceAll
import Idealize.ShloMosaic.Lib.StableHlo.Predicate
import Idealize.ShloMosaic.PureOps.Ideal.Laws

noncomputable section

namespace Cert.PreLabel

open Idealize.ShloMosaic Idealize.ShloMosaic.ValueIdx
open Cert.Pre_finite_inputs

variable [Cert.Pre_finite_inputs.Facts]

/-- The scalar shape has one index. -/
instance : Subsingleton S_.Idx := ⟨fun a b => funext fun d => d.elim0⟩

/-- A 32-bit word that is non-negative and below 1000 as a signed word is below 1000 as a natural number. -/
theorem toNat_lt_of_signed (a : BitVec 32) (h0 : (0#32 : BitVec 32).toInt ≤ a.toInt) (h1 : a.toInt < (1000#32 : BitVec 32).toInt) :
    a.toNat < 1000 := by
  have e0 : (0#32 : BitVec 32).toInt = 0 := by decide
  have e1 : (1000#32 : BitVec 32).toInt = 1000 := by decide
  rw [e0] at h0; rw [e1] at h1
  rw [BitVec.toInt_eq_toNat_cond] at h0 h1
  have := a.isLt
  split at h0 <;> omega

/-- Where the precondition's predicate is all ones, every label word, read as a natural number, is below 1000 (a label
    that is non-negative and below 1000 as a signed word). -/
theorem label_range (a0 : FVec Ideal S16384x1024 .f32) (a1 : IVec S16384 32) (a2 : FVec Ideal S256x1024 .f32)
    (a3 : FVec Ideal S256 .f32) (a4 : FVec Ideal S256x1024 .f32) (a5 : FVec Ideal S256 .f32)
    (h : Cert.Pre_finite_inputs.fn (F := Ideal) a0 a1 a2 a3 a4 a5 = (fun _ => 1#1)) :
    ∀ i : Fin 16384, (a1 (ix1 i)).toNat < 1000 := by
  intro i
  have h0 := congrFun h ix0
  dsimp only [Cert.Pre_finite_inputs.fn, Cert.Pre_finite_inputs.fn_part1] at h0
  have h1 := (IntOp.andi_eq_one.1 h0).2
  have h2 := Host.reduce_andi_all _ _ _ _ ix0 h1 (ix1 i)
  obtain ⟨hge, hlt⟩ := IntOp.andi_eq_one.1 h2
  exact toNat_lt_of_signed _ (IntOp.cmpi_sge.1 hge) (IntOp.cmpi_slt.1 hlt)

end Cert.PreLabel

end
-- ==== Proof.lean ====
/-
  The kernel computes, for each row of a batch, a first linear map of the row plus a second linear map of the mean of
  all rows of OTHER classes; the reference does the same with segment sums and gathers. Over the extended reals both
  results are one function `G` of the arguments (Proof/Spec.lean) wherever every label is one of the 1000 classes, which
  the precondition states: the kernel's two passes and the host operations between them compose to `G`
  (Proof/KernelValue.lean), and the reference's operations read one at a time are `G` (Proof/RefIsG.lean).
-/
import proofs.«406085_j19146964206107_2_alg».proof.Defs
import proofs.«406085_j19146964206107_2_alg».proof.Proof.Gen.Kernel
import proofs.«406085_j19146964206107_2_alg».proof.Proof.Gen.Kernel.Frame
import proofs.«406085_j19146964206107_2_alg».proof.Proof.Gen.KernelIdeal
import proofs.«406085_j19146964206107_2_alg».proof.Proof.Gen.KernelIdeal.Frame
import proofs.«406085_j19146964206107_2_alg».proof.Proof.Gen.ReferenceIdeal
import proofs.«406085_j19146964206107_2_alg».proof.Proof.Gen.Pre_finite_inputs
import proofs.«406085_j19146964206107_2_alg».proof.Proof.KernelValue
import proofs.«406085_j19146964206107_2_alg».proof.Proof.RefIsG
import proofs.«406085_j19146964206107_2_alg».proof.Proof.PreLabel
import Idealize.ShloMosaic.Adequacy
import Idealize.ShloMosaic.Init

noncomputable section

namespace Cert.Proof

open Idealize.ShloMosaic Idealize.SL.Sem Idealize.ShloMosaic.ValueIdx

section
variable [Cert.Kernel.Facts] [Cert.KernelIdeal.Facts] [Cert.ReferenceIdeal.Facts] [Cert.Pre_finite_inputs.Facts]

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end at `G` of the arguments: the kernel's result buffer by the two passes composed, the reference's by
    its stages read one at a time; the labels are in range by the precondition, and the two memories agree on the
    arguments. -/
theorem algebraic : Cert.algebraic_KernelIdeal_ReferenceIdeal := by
  intro m ρ m' ρ' hpre hagree
  have hlab : ∀ c : Dev Cert.KernelIdeal.nD, ∀ i : Fin 16384,
      (m ((c.tc : Thread Cert.KernelIdeal.nD Cert.KernelIdeal.τ).loc Cert.KernelIdeal.main_arg1) (ix1 i)).toNat < 1000 :=
    fun c => Cert.PreLabel.label_range _ _ _ _ _ _ (hpre c)
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun _ h c => ⟨(h c).1.trans ?_, (h c).2⟩)
      (Cert.KernelIdeal.Gen.run_result (F := Ideal) m ρ)
    exact Cert.KernelIdeal.KValue.result_eq m ρ c (hlab c)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v46_eq, (hagree c).1, (hagree c).2.1, (hagree c).2.2.1, (hagree c).2.2.2.1,
      (hagree c).2.2.2.2.1, (hagree c).2.2.2.2.2]
    exact Cert.ReferenceIdeal.RefValue.ref_eq _ _ _ _ _ _ (hlab c)

end

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
